-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2 : Shape := ⟨3, ![8, 4096, 2]⟩
abbrev S_ : Shape := ⟨0, ![]⟩

class Facts : Prop where
  bcast_S_S8x4096x2 : S_.BroadcastsInDim S8x4096x2 (![] : Fin 0 → Fin S8x4096x2.rank)
  reducesTo_S8x4096x2_S_d0_1_2 : S8x4096x2.ReducesTo [0, 1, 2] S_
  h_S_ : 0 < S_.numel

variable [Facts]

def fn {F : FTy → Type} [FloatOps F] (main_arg0 : FVec F S8x4096x2 .f32) (main_arg1 : FVec F S8x4096x2 .f32) : IVec S_ 1 :=
  let main_v0 : FVec F S8x4096x2 .f32 := Host.absf main_arg0
  let main_cst : FVec F S_ .f32 := constant S_ .f32 0x7F800000#32
  let main_v1 : FVec F S8x4096x2 .f32 := broadcastInDim S8x4096x2 ![] bcast_S_S8x4096x2 main_cst
  let main_v2 : IVec S8x4096x2 1 := cmpf .olt main_v0 main_v1
  let main_c : IVec S_ 1 := constantI S_ 1 1#1
  let main_v3 : IVec S_ 1 := (fun x v => Host.reduce IntOp.andi x v reducesTo_S8x4096x2_S_d0_1_2 h_S_) main_v2 main_c
  let main_v4 : FVec F S8x4096x2 .f32 := Host.absf main_arg1
  let main_cst_0 : FVec F S_ .f32 := constant S_ .f32 0x7F800000#32
  let main_v5 : FVec F S8x4096x2 .f32 := broadcastInDim S8x4096x2 ![] bcast_S_S8x4096x2 main_cst_0
  let main_v6 : IVec S8x4096x2 1 := cmpf .olt main_v4 main_v5
  let main_c_1 : IVec S_ 1 := constantI S_ 1 1#1
  let main_v7 : IVec S_ 1 := (fun x v => Host.reduce IntOp.andi x v reducesTo_S8x4096x2_S_d0_1_2 h_S_) main_v6 main_c_1
  let main_v8 : IVec S_ 1 := andi main_v3 main_v7
  main_v8
-- ==== Kernel.lean ====
abbrev S8x4096x2 : Shape := ⟨3, ![8, 4096, 2]⟩
abbrev S8x4096x1 : Shape := ⟨3, ![8, 4096, 1]⟩
abbrev S8x4096 : Shape := ⟨2, ![8, 4096]⟩
abbrev S8x1x4096 : Shape := ⟨3, ![8, 1, 4096]⟩
abbrev S8x256x1 : Shape := ⟨3, ![8, 256, 1]⟩
abbrev S8x1x1024 : Shape := ⟨3, ![8, 1, 1024]⟩
abbrev S8x256 : Shape := ⟨2, ![8, 256]⟩
abbrev S8x256x1024 : Shape := ⟨3, ![8, 256, 1024]⟩
abbrev S_ : Shape := ⟨0, ![]⟩

abbrev nBuf : Space → Nat
  | .hbm => 29
  | .vmem => 22
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096x1, .f32⟩
  | .hbm, ⟨3, _⟩ => ⟨S8x4096x1, .f32⟩
  | .hbm, ⟨4, _⟩ => ⟨S8x4096x1, .f32⟩
  | .hbm, ⟨5, _⟩ => ⟨S8x4096, .f32⟩
  | .hbm, ⟨6, _⟩ => ⟨S8x1x4096, .f32⟩
  | .hbm, ⟨7, _⟩ => ⟨S8x4096x1, .f32⟩
  | .hbm, ⟨8, _⟩ => ⟨S8x4096, .f32⟩
  | .hbm, ⟨9, _⟩ => ⟨S8x1x4096, .f32⟩
  | .hbm, ⟨10, _⟩ => ⟨S8x4096, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096, .f32⟩
  | .hbm, ⟨15, _⟩ => ⟨S8x1x4096, .f32⟩
  | .hbm, ⟨16, _⟩ => ⟨S8x4096x1, .f32⟩
  | .hbm, ⟨17, _⟩ => ⟨S8x4096, .f32⟩
  | .hbm, ⟨18, _⟩ => ⟨S8x1x4096, .f32⟩
  | .hbm, ⟨19, _⟩ => ⟨S8x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S8x256x1, .f32⟩
  | .local _ .vmem, ⟨1, _⟩ => ⟨S8x256x1, .f32⟩
  | .local _ .vmem, ⟨2, _⟩ => ⟨S8x256x1, .f32⟩
  | .local _ .vmem, ⟨3, _⟩ => ⟨S8x256x1, .f32⟩
  | .local _ .vmem, ⟨4, _⟩ => ⟨S8x1x1024, .f32⟩
  | .local _ .vmem, ⟨5, _⟩ => ⟨S8x1x1024, .f32⟩
  | .local _ .vmem, ⟨6, _⟩ => ⟨S8x1x1024, .f32⟩
  | .local _ .vmem, ⟨7, _⟩ => ⟨S8x1x1024, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S8x256x1, .f32⟩
  | .local _ .vmem, ⟨12, _⟩ => ⟨S8x256x1, .f32⟩
  | .local _ .vmem, ⟨13, _⟩ => ⟨S8x256x1, .f32⟩
  | .local _ .vmem, ⟨14, _⟩ => ⟨S8x256x1, .f32⟩
  | .local _ .vmem, ⟨15, _⟩ => ⟨S8x1x1024, .f32⟩
  | .local _ .vmem, ⟨16, _⟩ => ⟨S8x1x1024, .f32⟩
  | .local _ .vmem, ⟨17, _⟩ => ⟨S8x1x1024, .f32⟩
  | .local _ .vmem, ⟨18, _⟩ => ⟨S8x1x1024, .f32⟩
  | .local _ .vmem, ⟨19, _⟩ => ⟨S8x256, .f32⟩
  | .local _ .vmem, ⟨20, _⟩ => ⟨S8x256, .f32⟩
  | .local _ .vmem, ⟨21, _⟩ => ⟨S8x256, .f32⟩
  | _, _ => ⟨S8x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_17 : BitVec 32 := 0#32
  let v30 : BitVec 1 := Scalar.cmpi .ne v29 c0_i32_17
  v30

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x256x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S8x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S8x4096x2_S8x4096x1_0_0_0 : S8x4096x2.Slices ![0, 0, 0] S8x4096x1
  slices_S8x4096x2_S8x4096x1_0_0_1 : S8x4096x2.Slices ![0, 0, 1] S8x4096x1
  shapeCasts_S8x4096x1_S8x4096 : S8x4096x1.ShapeCasts S8x4096
  bcast_S8x4096_S8x1x4096_0_2 : S8x4096.BroadcastsInDim S8x1x4096 (![0, 2] : Fin 2 → Fin S8x1x4096.rank)
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  inb_S8x1x1024_S8x1x1024_0_0_0 : ∀ a, (![0, 0, 0] : Fin 3 → Nat) a + S8x1x1024.size a ≤ S8x1x1024.size a
  h_S8x1x1024 : 0 < S8x1x1024.numel
  shapeCasts_S8x1x1024_S8x1x1024 : S8x1x1024.ShapeCasts S8x1x1024
  broadcasts_S8x256x1_S8x256x1024 : S8x256x1.Broadcasts S8x256x1024
  broadcasts_S8x1x1024_S8x256x1024 : S8x1x1024.Broadcasts S8x256x1024
  reduces_S8x256x1024_S8x256 : S8x256x1024.Reduces [2] S8x256
  reducesTo_S8x4096_S_d0_1 : S8x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1.size a ≤ S8x4096x1.size a
  hwx0_0 : ∀ i : grid0.Coords, EltTy.bits .f32 = 32 ∨ (Rect.block (s := S8x4096x1) S8x256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x1.size a ≤ S8x4096x1.size a
  hwx0_1 : ∀ i : grid0.Coords, EltTy.bits .f32 = 32 ∨ (Rect.block (s := S8x4096x1) S8x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x1024.size a ≤ S8x1x4096.size a
  hwx0_2 : ∀ i : grid0.Coords, EltTy.bits .f32 = 32 ∨ (Rect.block (s := S8x1x4096) S8x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x1024.size a ≤ S8x1x4096.size a
  hwx0_3 : ∀ i : grid0.Coords, EltTy.bits .f32 = 32 ∨ (Rect.block (s := S8x1x4096) S8x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S8x4096.size a
  hwx0_4 : ∀ i : grid0.Coords, EltTy.bits .f32 = 32 ∨ (Rect.block (s := S8x4096) S8x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x1.size a ≤ S8x4096x1.size a
  hwx1_0 : ∀ i : grid1.Coords, EltTy.bits .f32 = 32 ∨ (Rect.block (s := S8x4096x1) S8x256x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x1.size a ≤ S8x4096x1.size a
  hwx1_1 : ∀ i : grid1.Coords, EltTy.bits .f32 = 32 ∨ (Rect.block (s := S8x4096x1) S8x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1x1024.size a ≤ S8x1x4096.size a
  hwx1_2 : ∀ i : grid1.Coords, EltTy.bits .f32 = 32 ∨ (Rect.block (s := S8x1x4096) S8x1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x1x1024.size a ≤ S8x1x4096.size a
  hwx1_3 : ∀ i : grid1.Coords, EltTy.bits .f32 = 32 ∨ (Rect.block (s := S8x1x4096) S8x1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x256.size a ≤ S8x4096.size a
  hwx1_4 : ∀ i : grid1.Coords, EltTy.bits .f32 = 32 ∨ (Rect.block (s := S8x4096) S8x256.size (cc1_transform_4 i) (hinb1_4 i)).WholeWords (EltTy.packing .f32)

variable [Facts₀]

abbrev win0_0 : Pipeline.Window sig grid0 :=
  Pipeline.Window.ofSpec (Memref.whole main_v0) S8x256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v9) S8x256x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S8x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S8x1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S8x1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S8x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x4096x2 : Shape := ⟨3, ![8, 4096, 2]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x2, .f32⟩
  | .hbm, ⟨1, _⟩ => ⟨S8x4096x2, .f32⟩
  | .hbm, ⟨2, _⟩ => ⟨S8x4096x2, .f32⟩
  | .hbm, ⟨3, _⟩ => ⟨S_, .f32⟩
  | .hbm, ⟨4, _⟩ => ⟨S8x4096, .f32⟩
  | .hbm, ⟨5, _⟩ => ⟨S8x4096x2, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  reducesTo_S8x4096x2_S8x4096_d2 : S8x4096x2.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096x4096_S8x4096_d2 : S8x4096x4096.ReducesTo [2] S8x4096
  reducesTo_S8x4096_S_d0_1 : S8x4096.ReducesTo [0, 1] S_
  dot_S8x4096x2_S8x4096x2_S8x4096x4096_2_2_1_1_0_0_wf : DotDims.WF S8x4096x2 S8x4096x2 S8x4096x4096 [2] [2] [1] [1] [0] [0]

variable [Facts₀]

def dot_S8x4096x2_S8x4096x2_S8x4096x4096_2_2_1_1_0_0 : DotDims S8x4096x2 S8x4096x2 S8x4096x4096 where
  lhsContracting := [2]
  rhsContracting := [2]
  lhsNonContracting := [1]
  rhsNonContracting := [1]
  lhsBatch := [0]
  rhsBatch := [0]
  wf := dot_S8x4096x2_S8x4096x2_S8x4096x4096_2_2_1_1_0_0_wf

class Facts : Prop extends Facts₀ where

variable [Facts]
-- ==== Proof.Kernel.Base0.lean ====
/-
  Region 0 (the first nearest-point call), what every later module of the region is stated over.

  The grid is 16 × 4: point t has row tile t / 4 and column tile t % 4. The two query windows (their blocks
  [8, 256, 1]) move with the row tile, the two database windows (blocks [8, 1, 1024]) with the column tile, the
  result window (block [8, 256]) with the row tile; a scratch [8, 256] holds the running minimum of a row tile.
  The body resets the scratch to +∞ at column tile 0, lowers it by the tile's minimum at every point, and stores
  its square root into the result block at column tile 3. So the result window is idle except at the points
  t % 4 = 3, which are also the only points where its block is written back.
-/
import proofs.«100872_j40888088658143_1_alg».proof.Proof.Gen.Kernel.Launch
import proofs.«100872_j40888088658143_1_alg».proof.Proof.Gen.Kernel.Skeleton
import proofs.«100872_j40888088658143_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement of the region is made at this parameter
variable (V : (c : Dev nD) → (b : Ref sig .tc) → Buf (Elt F) ((c : Thread nD τ).loc b))

/-! ## The windows' blocks -/

/-- Window `w`'s block at point `t`, read off its array as the region finds it. -/
def blkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not (a point
    that does not fetch has the same block index as the one before it). -/
theorem inBufR0_0 {c : Dev nD} (dat : Dat τ (Elt F) Unit ℕ (UR sig nD τ) ℕ cfg0 c) (hA : dat.A 0 = V c (Pipeline.arrRef spec0 0))
    (hafter : ∀ t, dat.after 0 t = blkR0 V c 0 t) (t : Fin cfg0.N) (d) : dat.before 0 t d = blkR0 V c 0 t :=
  (dat.before_in_eq_fetched 0 rfl (fun _ => rfl) (fun _ _ _ => rfl) (fun t => by rw [hafter]; unfold Dat.blockOf blkR0; rw [hA]; try rfl) t d).trans
    (by unfold Dat.fetched Dat.blockOf blkR0; rw [hA]; try rfl)
theorem inBufR0_1 {c : Dev nD} (dat : Dat τ (Elt F) Unit ℕ (UR sig nD τ) ℕ cfg0 c) (hA : dat.A 1 = V c (Pipeline.arrRef spec0 1))
    (hafter : ∀ t, dat.after 1 t = blkR0 V c 1 t) (t : Fin cfg0.N) (d) : dat.before 1 t d = blkR0 V c 1 t :=
  (dat.before_in_eq_fetched 1 rfl (fun _ => rfl) (fun _ _ _ => rfl) (fun t => by rw [hafter]; unfold Dat.blockOf blkR0; rw [hA]; try rfl) t d).trans
    (by unfold Dat.fetched Dat.blockOf blkR0; rw [hA]; try rfl)
theorem inBufR0_2 {c : Dev nD} (dat : Dat τ (Elt F) Unit ℕ (UR sig nD τ) ℕ cfg0 c) (hA : dat.A 2 = V c (Pipeline.arrRef spec0 2))
    (hafter : ∀ t, dat.after 2 t = blkR0 V c 2 t) (t : Fin cfg0.N) (d) : dat.before 2 t d = blkR0 V c 2 t :=
  (dat.before_in_eq_fetched 2 rfl (fun _ => rfl) (fun _ _ _ => rfl) (fun t => by rw [hafter]; unfold Dat.blockOf blkR0; rw [hA]; try rfl) t d).trans
    (by unfold Dat.fetched Dat.blockOf blkR0; rw [hA]; try rfl)
theorem inBufR0_3 {c : Dev nD} (dat : Dat τ (Elt F) Unit ℕ (UR sig nD τ) ℕ cfg0 c) (hA : dat.A 3 = V c (Pipeline.arrRef spec0 3))
    (hafter : ∀ t, dat.after 3 t = blkR0 V c 3 t) (t : Fin cfg0.N) (d) : dat.before 3 t d = blkR0 V c 3 t :=
  (dat.before_in_eq_fetched 3 rfl (fun _ => rfl) (fun _ _ _ => rfl) (fun t => by rw [hafter]; unfold Dat.blockOf blkR0; rw [hA]; try rfl) t d).trans
    (by unfold Dat.fetched Dat.blockOf blkR0; rw [hA]; try rfl)

/-! ## The body's two branches, decided over the grid -/

/-- "This is column tile 0": the body resets the running minimum. -/
abbrev firstR0 (i : grid0.Coords) : Prop := (Scalar.cmpi .ne (Scalar.extui (Scalar.cmpi .eq (BitVec.ofNat 32 (i 1).val) 0#32)) 0#32) = 1#1
theorem first_iffR0 : ∀ t : Fin cfg0.N, firstR0 (grid0.coords t) ↔ t.val % 4 = 0 :=
  (by decide +kernel : ∀ t : Fin grid0.N, firstR0 (grid0.coords t) ↔ t.val % 4 = 0)

/-- "This is column tile 3": the body stores the square root of the running minimum into the result block. -/
abbrev lastR0 (i : grid0.Coords) : Prop := k0_cond2 i = 1#1
theorem last_iffR0 : ∀ t : Fin cfg0.N, lastR0 (grid0.coords t) ↔ t.val % 4 = 3 :=
  (by decide +kernel : ∀ t : Fin grid0.N, lastR0 (grid0.coords t) ↔ t.val % 4 = 3)

/-! ## Where the windows are idle -/

theorem liveR0_0 : ∀ t : Fin cfg0.N, cfg0.idle 0 (grid0.coords t) = false := by decide +kernel
theorem liveR0_1 : ∀ t : Fin cfg0.N, cfg0.idle 1 (grid0.coords t) = false := by decide +kernel
theorem liveR0_2 : ∀ t : Fin cfg0.N, cfg0.idle 2 (grid0.coords t) = false := by decide +kernel
theorem liveR0_3 : ∀ t : Fin cfg0.N, cfg0.idle 3 (grid0.coords t) = false := by decide +kernel
/-- Away from column tile 3 the result window is idle and its block is not written back. -/
theorem idleR0_4 : ∀ t : Fin cfg0.N, ¬lastR0 (grid0.coords t) → cfg0.idle 4 (grid0.coords t) = true := by decide +kernel
theorem noFlushR0_4 : ∀ t : Fin cfg0.N, ¬lastR0 (grid0.coords t) → (cfg0.win 4).flush t = false := by decide +kernel
/-- At column tile 3 it is live. -/
theorem liveR0_4 : ∀ t : Fin cfg0.N, lastR0 (grid0.coords t) → cfg0.idle 4 (grid0.coords t) = false := by decide +kernel

/-! ## The memrefs the body is called with -/

abbrev mR0_0 (t : Fin cfg0.N) : Memref sig .tc .vmem S8x256x1 .f32 := win0_0.stage (cfg0.slots t 0)
abbrev hR0_0 (t : Fin cfg0.N) : (mR0_0 t).IsWhole := hstage0_0 ((cfg0.slots t 0).cast nbuf0_0)
abbrev mR0_1 (t : Fin cfg0.N) : Memref sig .tc .vmem S8x256x1 .f32 := win0_1.stage (cfg0.slots t 1)
abbrev hR0_1 (t : Fin cfg0.N) : (mR0_1 t).IsWhole := hstage0_1 ((cfg0.slots t 1).cast nbuf0_1)
abbrev mR0_2 (t : Fin cfg0.N) : Memref sig .tc .vmem S8x1x1024 .f32 := win0_2.stage (cfg0.slots t 2)
abbrev hR0_2 (t : Fin cfg0.N) : (mR0_2 t).IsWhole := hstage0_2 ((cfg0.slots t 2).cast nbuf0_2)
abbrev mR0_3 (t : Fin cfg0.N) : Memref sig .tc .vmem S8x1x1024 .f32 := win0_3.stage (cfg0.slots t 3)
abbrev hR0_3 (t : Fin cfg0.N) : (mR0_3 t).IsWhole := hstage0_3 ((cfg0.slots t 3).cast nbuf0_3)
abbrev mR0_4 (t : Fin cfg0.N) : Memref sig .tc .vmem S8x256 .f32 := win0_4.stage (cfg0.slots t 4)
abbrev hR0_4 (t : Fin cfg0.N) : (mR0_4 t).IsWhole := hstage0_4 ((cfg0.slots t 4).cast nbuf0_4)
/-- The scratch that holds the running minimum, and the view its contents are stated through. -/
abbrev accMR0 : Memref sig .tc .vmem S8x256 .f32 := Memref.whole cc0_scratch0
abbrev accVR0 : View sig .tc .vmem S8x256 .f32 := accMR0.view
/-- One staging buffer of the result window, through which its contents are stated. -/
abbrev outVR0 : View sig .tc .vmem S8x256 .f32 := (Memref.whole cc0_stg4_0 : Memref sig .tc .vmem S8x256 .f32).view

/-- The scoped buffers the region never names: the other call's staging buffers and scratch. -/
abbrev othersR0 (c : Dev nD) : sProp 𝕄 :=
  Pipeline.scopedRestBut (Ix := Unit) (Name := ℕ) (U := UR sig nD τ) (Lvl := ℕ) (Val := Elt F) spec0 c [cc0_scratch0]

/-- What a region is handed besides its windows: its own scratch at some contents, the scoped buffers it never
    names, the generator register at some state. -/
theorem classInvR0 (c : Dev nD) :
    (Pipeline.ΦA spec0 c : sProp 𝕄)
      = iprop(iprop((∃ d, owns (c : Thread nD τ) accMR0 fullShare d) ∗ othersR0 c) ∗ (∃ r, prngReg c r)) := by
  unfold Pipeline.ΦA
  rw [Pipeline.scopedRest_split_of_list spec0 c [cc0_scratch0] (by decide) (by decide)]
  simp only [accMR0, owns_whole]
  rfl

end Cert.Kernel.Fr

end
-- ==== Proof.Kernel.RunA0.lean ====
/-
  Region 0: the body run whole at a point of column tile 0 (the running minimum is reset, then lowered; the result block is not touched).
  The stores it makes are found by the run itself and kept as a list of pieces (last store first); what the
  buffers then hold is read off that list in the module that states the region's data.
-/
import proofs.«100872_j40888088658143_1_alg».proof.Proof.Kernel.Base0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tile 0: on whole memrefs, the four input blocks at their contents, the result buffer at contents it hands
    back untouched, the scratch at anything, the body runs to its end leaving the inputs as they were and the scratch
    with the pieces `LS` written. -/
noncomputable def runA_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR0 i) (hc1 : ¬lastR0 i)
    (x0 : Vec F S8x256x1 .f32) (x1 : Vec F S8x256x1 .f32) (x2 : Vec F S8x1x1024 .f32) (x3 : Vec F S8x1x1024 .f32) :
    { LS : List (View.Piece (Elt F) S8x256 .f32) //
      ∀ (xo : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__nearest_min_sqdist_kernel i arg2 harg2 arg3 harg3 arg4 harg4 arg5 harg5 arg6 harg6 arg7 harg7) K } := by
  refine ⟨?_, fun xo E K => ?run⟩
  case run =>
    simp only [cc0__nearest_min_sqdist_kernel_eq_skeleton]; unfold cc0__nearest_min_sqdist_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Fr

end
-- ==== Proof.Kernel.RunB0.lean ====
/-
  Region 0: the body run whole at a point of column tile 1 or 2 (the running minimum is lowered; the result block is not touched).
  The stores it makes are found by the run itself and kept as a list of pieces (last store first); what the
  buffers then hold is read off that list in the module that states the region's data.
-/
import proofs.«100872_j40888088658143_1_alg».proof.Proof.Kernel.RunA0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tiles 1 and 2: on whole memrefs, the four input blocks at their contents, the result buffer at contents it
    hands back untouched, the scratch at the running minimum `xs` the point before left, the body runs to its end
    leaving the inputs as they were and the scratch with the pieces `LS` written. -/
noncomputable def runB_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : ¬lastR0 i)
    (x0 : Vec F S8x256x1 .f32) (x1 : Vec F S8x256x1 .f32) (x2 : Vec F S8x1x1024 .f32) (x3 : Vec F S8x1x1024 .f32) (xs : Vec F S8x256 .f32) :
    { LS : List (View.Piece (Elt F) S8x256 .f32) //
      ∀ (xo : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__nearest_min_sqdist_kernel i arg2 harg2 arg3 harg3 arg4 harg4 arg5 harg5 arg6 harg6 arg7 harg7) K } := by
  refine ⟨?_, fun xo E K => ?run⟩
  case run =>
    simp only [cc0__nearest_min_sqdist_kernel_eq_skeleton]; unfold cc0__nearest_min_sqdist_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Fr

end
-- ==== Proof.Kernel.RunC0.lean ====
/-
  Region 0: the body run whole at a point of column tile 3 (the running minimum is lowered a last time and its square root stored into the result block).
  The stores it makes are found by the run itself and kept as a list of pieces (last store first); what the
  buffers then hold is read off that list in the module that states the region's data.
-/
import proofs.«100872_j40888088658143_1_alg».proof.Proof.Kernel.RunB0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tile 3: on whole memrefs, the four input blocks at their contents, the result buffer at anything, the
    scratch at the running minimum `xs` the point before left, the body runs to its end leaving the inputs as they
    were, the result buffer with the pieces `LO` written and the scratch with the pieces `LS` written. -/
noncomputable def runC_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) :
    Σ' (LO : List (View.Piece (Elt F) S8x256 .f32)), { LS : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__nearest_min_sqdist_kernel i arg2 harg2 arg3 harg3 arg4 harg4 arg5 harg5 arg6 harg6 arg7 harg7) K } := by
  refine ⟨?_, ?_, fun E K => ?run⟩
  case run =>
    simp only [cc0__nearest_min_sqdist_kernel_eq_skeleton]; unfold cc0__nearest_min_sqdist_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Fr

end
-- ==== Proof.Kernel.Region0.lean ====
/-
  Region 0: what its buffers hold point by point, its invariant, its proof data and the body obligation.

  After point t the scratch holds the running minimum of row tile t / 4 over the column tiles 0 … t % 4: at column
  tile 0 the body's stores over a reset scratch, at a later tile the body's stores over what the point before left.
  At column tile 3 the result buffer holds what the body stored there, computed from the same running minimum; at
  the other points the result window is idle, its buffer handed back as found and not written back, and nothing
  consults what the data say of it there.
  The invariant before point 0 is the class's (every scoped buffer the region does not stage at anything, the
  generator register at some state); after point n it names the scratch's contents and leaves the rest as it was.
-/
import proofs.«100872_j40888088658143_1_alg».proof.Proof.Kernel.RunC0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its stores -/

theorem scoverA_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR0 i) (hc1 : ¬lastR0 i)
    (x0 : Vec F S8x256x1 .f32) (x1 : Vec F S8x256x1 .f32) (x2 : Vec F S8x1x1024 .f32) (x3 : Vec F S8x1x1024 .f32) (y : S8x256.Idx) :
    ∃ pc ∈ (runA_R0 c i arg2 harg2 arg3 harg3 arg4 harg4 arg5 harg5 arg6 harg6 arg7 harg7 hc0 hc1 x0 x1 x2 x3).1, y ∈ pc.1.set :=
  View.cover_of_tiledL (runA_R0 c i arg2 harg2 arg3 harg3 arg4 harg4 arg5 harg5 arg6 harg6 arg7 harg7 hc0 hc1 x0 x1 x2 x3).1 S8x256.size (by sl_kernel_rfl) y
/-- The running minimum after a point of column tile 0. -/
def accA_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR0 i) (hc1 : ¬lastR0 i)
    (x0 : Vec F S8x256x1 .f32) (x1 : Vec F S8x256x1 .f32) (x2 : Vec F S8x1x1024 .f32) (x3 : Vec F S8x1x1024 .f32) : Vec F S8x256 .f32 :=
  accVR0.read (Elt F) (accVR0.writes (Elt F) accVR0.junk (runA_R0 c i arg2 harg2 arg3 harg3 arg4 harg4 arg5 harg5 arg6 harg6 arg7 harg7 hc0 hc1 x0 x1 x2 x3).1)

theorem scoverB_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : ¬lastR0 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runB_R0 c i arg2 harg2 arg3 harg3 arg4 harg4 arg5 harg5 arg6 harg6 arg7 harg7 hc0 hc1 x0 x1 x2 x3 xs).1, y ∈ pc.1.set :=
  View.cover_of_tiledL (runB_R0 c i arg2 harg2 arg3 harg3 arg4 harg4 arg5 harg5 arg6 harg6 arg7 harg7 hc0 hc1 x0 x1 x2 x3 xs).1 S8x256.size (by sl_kernel_rfl) y
/-- The running minimum after a point of column tile 1 or 2, over what the point before left. -/
def accB_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : ¬lastR0 i)
    (x0 : Vec F S8x256x1 .f32) (x1 : Vec F S8x256x1 .f32) (x2 : Vec F S8x1x1024 .f32) (x3 : Vec F S8x1x1024 .f32) (xs : Vec F S8x256 .f32) : Vec F S8x256 .f32 :=
  accVR0.read (Elt F) (accVR0.writes (Elt F) accVR0.junk (runB_R0 c i arg2 harg2 arg3 harg3 arg4 harg4 arg5 harg5 arg6 harg6 arg7 harg7 hc0 hc1 x0 x1 x2 x3 xs).1)

theorem scoverC_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runC_R0 c i arg2 harg2 arg3 harg3 arg4 harg4 arg5 harg5 arg6 harg6 arg7 harg7 hc0 hc1 x0 x1 x2 x3 xs).2.1, y ∈ pc.1.set :=
  View.cover_of_tiledL (runC_R0 c i arg2 harg2 arg3 harg3 arg4 harg4 arg5 harg5 arg6 harg6 arg7 harg7 hc0 hc1 x0 x1 x2 x3 xs).2.1 S8x256.size (by sl_kernel_rfl) y
/-- The running minimum after a point of column tile 3, over what the point before left. -/
def accC_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) : Vec F S8x256 .f32 :=
  accVR0.read (Elt F) (accVR0.writes (Elt F) accVR0.junk (runC_R0 c i arg2 harg2 arg3 harg3 arg4 harg4 arg5 harg5 arg6 harg6 arg7 harg7 hc0 hc1 x0 x1 x2 x3 xs).2.1)
theorem ocoverC_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runC_R0 c i arg2 harg2 arg3 harg3 arg4 harg4 arg5 harg5 arg6 harg6 arg7 harg7 hc0 hc1 x0 x1 x2 x3 xs).1, y ∈ pc.1.set :=
  View.cover_of_tiledL (runC_R0 c i arg2 harg2 arg3 harg3 arg4 harg4 arg5 harg5 arg6 harg6 arg7 harg7 hc0 hc1 x0 x1 x2 x3 xs).1 S8x256.size (by sl_kernel_rfl) y
/-- The result block a point of column tile 3 stores. -/
def outC_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) : Vec F S8x256 .f32 :=
  outVR0.read (Elt F) (outVR0.writes (Elt F) outVR0.junk (runC_R0 c i arg2 harg2 arg3 harg3 arg4 harg4 arg5 harg5 arg6 harg6 arg7 harg7 hc0 hc1 x0 x1 x2 x3 xs).1)

/-! ## Point by point -/

/-- The running minimum the scratch holds after the body at position `n`. -/
def accAtR0 (c : Dev nD) : (n : ℕ) → n < cfg0.N → Vec F S8x256 .f32
  | 0, hn => accA_R0 c (grid0.coords ⟨0, hn⟩) (mR0_0 ⟨0, hn⟩) (hR0_0 ⟨0, hn⟩) (mR0_1 ⟨0, hn⟩) (hR0_1 ⟨0, hn⟩) (mR0_2 ⟨0, hn⟩) (hR0_2 ⟨0, hn⟩) (mR0_3 ⟨0, hn⟩) (hR0_3 ⟨0, hn⟩) (mR0_4 ⟨0, hn⟩) (hR0_4 ⟨0, hn⟩) accMR0 (Memref.isWhole_whole _) ((first_iffR0 ⟨0, hn⟩).mpr (Nat.zero_mod _)) (fun h => (fun h => by (try dsimp only at h); omega) ((last_iffR0 ⟨0, hn⟩).mp h)) (blkR0 V c 0 ⟨0, hn⟩) (blkR0 V c 1 ⟨0, hn⟩) (blkR0 V c 2 ⟨0, hn⟩) (blkR0 V c 3 ⟨0, hn⟩)
  | n + 1, hn =>
    if h0 : (n + 1) % 4 = 0 then
      if h1 : (n + 1) % 4 = 3 then False.elim (by omega)
      else accA_R0 c (grid0.coords ⟨n + 1, hn⟩) (mR0_0 ⟨n + 1, hn⟩) (hR0_0 ⟨n + 1, hn⟩) (mR0_1 ⟨n + 1, hn⟩) (hR0_1 ⟨n + 1, hn⟩) (mR0_2 ⟨n + 1, hn⟩) (hR0_2 ⟨n + 1, hn⟩) (mR0_3 ⟨n + 1, hn⟩) (hR0_3 ⟨n + 1, hn⟩) (mR0_4 ⟨n + 1, hn⟩) (hR0_4 ⟨n + 1, hn⟩) accMR0 (Memref.isWhole_whole _) ((first_iffR0 ⟨n + 1, hn⟩).mpr h0) (fun h => h1 ((last_iffR0 ⟨n + 1, hn⟩).mp h)) (blkR0 V c 0 ⟨n + 1, hn⟩) (blkR0 V c 1 ⟨n + 1, hn⟩) (blkR0 V c 2 ⟨n + 1, hn⟩) (blkR0 V c 3 ⟨n + 1, hn⟩)
    else
      if h1 : (n + 1) % 4 = 3 then
        accC_R0 c (grid0.coords ⟨n + 1, hn⟩) (mR0_0 ⟨n + 1, hn⟩) (hR0_0 ⟨n + 1, hn⟩) (mR0_1 ⟨n + 1, hn⟩) (hR0_1 ⟨n + 1, hn⟩) (mR0_2 ⟨n + 1, hn⟩) (hR0_2 ⟨n + 1, hn⟩) (mR0_3 ⟨n + 1, hn⟩) (hR0_3 ⟨n + 1, hn⟩) (mR0_4 ⟨n + 1, hn⟩) (hR0_4 ⟨n + 1, hn⟩) accMR0 (Memref.isWhole_whole _) (fun h => h0 ((first_iffR0 ⟨n + 1, hn⟩).mp h)) ((last_iffR0 ⟨n + 1, hn⟩).mpr h1) (blkR0 V c 0 ⟨n + 1, hn⟩) (blkR0 V c 1 ⟨n + 1, hn⟩) (blkR0 V c 2 ⟨n + 1, hn⟩) (blkR0 V c 3 ⟨n + 1, hn⟩) (accAtR0 c n (Nat.lt_of_succ_lt hn))
      else
        accB_R0 c (grid0.coords ⟨n + 1, hn⟩) (mR0_0 ⟨n + 1, hn⟩) (hR0_0 ⟨n + 1, hn⟩) (mR0_1 ⟨n + 1, hn⟩) (hR0_1 ⟨n + 1, hn⟩) (mR0_2 ⟨n + 1, hn⟩) (hR0_2 ⟨n + 1, hn⟩) (mR0_3 ⟨n + 1, hn⟩) (hR0_3 ⟨n + 1, hn⟩) (mR0_4 ⟨n + 1, hn⟩) (hR0_4 ⟨n + 1, hn⟩) accMR0 (Memref.isWhole_whole _) (fun h => h0 ((first_iffR0 ⟨n + 1, hn⟩).mp h)) (fun h => h1 ((last_iffR0 ⟨n + 1, hn⟩).mp h)) (blkR0 V c 0 ⟨n + 1, hn⟩) (blkR0 V c 1 ⟨n + 1, hn⟩) (blkR0 V c 2 ⟨n + 1, hn⟩) (blkR0 V c 3 ⟨n + 1, hn⟩) (accAtR0 c n (Nat.lt_of_succ_lt hn))

theorem accAtR0_A (c : Dev nD) (t : Fin cfg0.N) (h0 : t.val % 4 = 0) (h1 : ¬t.val % 4 = 3) :
    accAtR0 V c t.val t.isLt = accA_R0 c (grid0.coords t) (mR0_0 t) (hR0_0 t) (mR0_1 t) (hR0_1 t) (mR0_2 t) (hR0_2 t) (mR0_3 t) (hR0_3 t) (mR0_4 t) (hR0_4 t) accMR0 (Memref.isWhole_whole _) ((first_iffR0 t).mpr h0) (fun h => h1 ((last_iffR0 t).mp h)) (blkR0 V c 0 t) (blkR0 V c 1 t) (blkR0 V c 2 t) (blkR0 V c 3 t) := by
  obtain ⟨n, hn⟩ := t
  cases n with
  | zero => exact rfl
  | succ n => exact (dif_pos h0).trans ((dif_neg h1).trans rfl)

theorem accAtR0_B (c : Dev nD) (t : Fin cfg0.N) (h0 : ¬t.val % 4 = 0) (h1 : ¬t.val % 4 = 3) :
    accAtR0 V c t.val t.isLt = accB_R0 c (grid0.coords t) (mR0_0 t) (hR0_0 t) (mR0_1 t) (hR0_1 t) (mR0_2 t) (hR0_2 t) (mR0_3 t) (hR0_3 t) (mR0_4 t) (hR0_4 t) accMR0 (Memref.isWhole_whole _) (fun h => h0 ((first_iffR0 t).mp h)) (fun h => h1 ((last_iffR0 t).mp h)) (blkR0 V c 0 t) (blkR0 V c 1 t) (blkR0 V c 2 t) (blkR0 V c 3 t) (accAtR0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAtR0_C (c : Dev nD) (t : Fin cfg0.N) (h0 : ¬t.val % 4 = 0) (h1 : t.val % 4 = 3) :
    accAtR0 V c t.val t.isLt = accC_R0 c (grid0.coords t) (mR0_0 t) (hR0_0 t) (mR0_1 t) (hR0_1 t) (mR0_2 t) (hR0_2 t) (mR0_3 t) (hR0_3 t) (mR0_4 t) (hR0_4 t) accMR0 (Memref.isWhole_whole _) (fun h => h0 ((first_iffR0 t).mp h)) ((last_iffR0 t).mpr h1) (blkR0 V c 0 t) (blkR0 V c 1 t) (blkR0 V c 2 t) (blkR0 V c 3 t) (accAtR0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result window's buffer holds after the body at point `t`: at column tile 3 the block the body stored; elsewhere
    the window is idle and this value is consulted by nothing. -/
def outAtR0 (c : Dev nD) (t : Fin cfg0.N) : Vec F S8x256 .f32 :=
  if h1 : t.val % 4 = 3 then
    outC_R0 c (grid0.coords t) (mR0_0 t) (hR0_0 t) (mR0_1 t) (hR0_1 t) (mR0_2 t) (hR0_2 t) (mR0_3 t) (hR0_3 t) (mR0_4 t) (hR0_4 t) accMR0 (Memref.isWhole_whole _) (fun h => (by omega : ¬t.val % 4 = 0) ((first_iffR0 t).mp h)) ((last_iffR0 t).mpr h1) (blkR0 V c 0 t) (blkR0 V c 1 t) (blkR0 V c 2 t) (blkR0 V c 3 t) (accAtR0 V c (t.val - 1) (Nat.lt_of_le_of_lt (Nat.sub_le _ _) t.isLt))
  else outVR0.read (Elt F) outVR0.junk

theorem outAtR0_C (c : Dev nD) (t : Fin cfg0.N) (h0 : ¬t.val % 4 = 0) (h1 : t.val % 4 = 3) :
    outAtR0 V c t = outC_R0 c (grid0.coords t) (mR0_0 t) (hR0_0 t) (mR0_1 t) (hR0_1 t) (mR0_2 t) (hR0_2 t) (mR0_3 t) (hR0_3 t) (mR0_4 t) (hR0_4 t) accMR0 (Memref.isWhole_whole _) (fun h => h0 ((first_iffR0 t).mp h)) ((last_iffR0 t).mpr h1) (blkR0 V c 0 t) (blkR0 V c 1 t) (blkR0 V c 2 t) (blkR0 V c 3 t) (accAtR0 V c (t.val - 1) (Nat.lt_of_le_of_lt (Nat.sub_le _ _) t.isLt)) := by
  unfold outAtR0; rw [dif_pos h1]

/-! ## The invariant -/

/-- Before position `n`: at the start what the launch hands the region; afterwards the scratch at the running minimum the
    point before left, the scoped buffers the region never names, the generator register at some state. -/
def invR0 (c : Dev nD) : (n : ℕ) → n ≤ cfg0.N → sProp 𝕄
  | 0, _ => Pipeline.ΦA spec0 c
  | n + 1, hn => iprop(iprop(owns (c : Thread nD τ) accMR0 fullShare (accAtR0 V c n hn) ∗ othersR0 c) ∗ (∃ r, prngReg c r))

theorem invR0_zero (c : Dev nD) (n : ℕ) (h : n ≤ cfg0.N) (hz : n = 0) : invR0 V c n h = Pipeline.ΦA spec0 c := by
  subst hz; rfl
theorem invR0_succ (c : Dev nD) (n : ℕ) (hn : n < cfg0.N) :
    invR0 V c (n + 1) hn = iprop(iprop(owns (c : Thread nD τ) accMR0 fullShare (accAtR0 V c n hn) ∗ othersR0 c) ∗ (∃ r, prngReg c r)) := rfl
theorem invR0_pos (c : Dev nD) (n : ℕ) (h : n ≤ cfg0.N) (hz : n ≠ 0) :
    invR0 V c n h = iprop(iprop(owns (c : Thread nD τ) accMR0 fullShare (accAtR0 V c (n - 1) (by omega)) ∗ othersR0 c) ∗ (∃ r, prngReg c r)) := by
  cases n with
  | zero => exact absurd rfl hz
  | succ n => rfl

/-! ## The proof data -/

def datR0 (c : Dev nD) : Dat τ (Elt F) Unit ℕ (UR sig nD τ) ℕ cfg0 c where
  A w := V c (Pipeline.arrRef spec0 w)
  after w t := match w with
    | ⟨0, _⟩ => blkR0 V c 0 t
    | ⟨1, _⟩ => blkR0 V c 1 t
    | ⟨2, _⟩ => blkR0 V c 2 t
    | ⟨3, _⟩ => blkR0 V c 3 t
    | ⟨4, _⟩ => outAtR0 V c t
  Φ t := invR0 V c t.val (Nat.le_of_lt_succ t.isLt)
  q _ := fullShare
  owed _ := 0

theorem datR0_A (c : Dev nD) (w : Fin cfg0.W) : (datR0 V c).A w = V c (Pipeline.arrRef spec0 w) := by
  dsimp only [datR0]
theorem invR0_castSucc (c : Dev nD) (t : Fin cfg0.N) :
    (datR0 V c).Φ t.castSucc = invR0 V c t.val (Nat.le_of_lt t.isLt) := by
  dsimp only [datR0]; simp only [Fin.coe_castSucc]
theorem afterR0_0 (c : Dev nD) (t : Fin cfg0.N) : (datR0 V c).after 0 t = blkR0 V c 0 t := by dsimp only [datR0]
theorem afterR0_1 (c : Dev nD) (t : Fin cfg0.N) : (datR0 V c).after 1 t = blkR0 V c 1 t := by dsimp only [datR0]
theorem afterR0_2 (c : Dev nD) (t : Fin cfg0.N) : (datR0 V c).after 2 t = blkR0 V c 2 t := by dsimp only [datR0]
theorem afterR0_3 (c : Dev nD) (t : Fin cfg0.N) : (datR0 V c).after 3 t = blkR0 V c 3 t := by dsimp only [datR0]
theorem afterR0_4 (c : Dev nD) (t : Fin cfg0.N) : (datR0 V c).after 4 t = outAtR0 V c t := by dsimp only [datR0]

theorem beforeR0_0 (c : Dev nD) (t : Fin cfg0.N) (d) : (datR0 V c).before 0 t d = blkR0 V c 0 t :=
  inBufR0_0 V (datR0 V c) (datR0_A V c 0) (afterR0_0 V c) t d
theorem beforeR0_1 (c : Dev nD) (t : Fin cfg0.N) (d) : (datR0 V c).before 1 t d = blkR0 V c 1 t :=
  inBufR0_1 V (datR0 V c) (datR0_A V c 1) (afterR0_1 V c) t d
theorem beforeR0_2 (c : Dev nD) (t : Fin cfg0.N) (d) : (datR0 V c).before 2 t d = blkR0 V c 2 t :=
  inBufR0_2 V (datR0 V c) (datR0_A V c 2) (afterR0_2 V c) t d
theorem beforeR0_3 (c : Dev nD) (t : Fin cfg0.N) (d) : (datR0 V c).before 3 t d = blkR0 V c 3 t :=
  inBufR0_3 V (datR0 V c) (datR0_A V c 3) (afterR0_3 V c) t d

/-! ## The body obligation -/

def bodyPreR0 (c : Dev nD) (t : Fin cfg0.N) : sProp 𝕄 :=
  iprop((datR0 V c).Φ t.castSucc ∗ (datR0 V c).owesAt () t.castSucc
    ∗ (∃ d, owns (c : Thread nD τ) (mR0_0 t) fullShare ((datR0 V c).before 0 t d))
    ∗ (∃ d, owns (c : Thread nD τ) (mR0_1 t) fullShare ((datR0 V c).before 1 t d))
    ∗ (∃ d, owns (c : Thread nD τ) (mR0_2 t) fullShare ((datR0 V c).before 2 t d))
    ∗ (∃ d, owns (c : Thread nD τ) (mR0_3 t) fullShare ((datR0 V c).before 3 t d))
    ∗ (∃ d, owns (c : Thread nD τ) (mR0_4 t) fullShare ((datR0 V c).before 4 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t
    ∗ (datR0 V c).leavesExact 3 t
    ∗ (datR0 V c).leavesExact 4 t)

theorem leavesR0_0 (c : Dev nD) (t : Fin cfg0.N) : (datR0 V c).leavesExact 0 t = owns (c : Thread nD τ) (mR0_0 t) fullShare (blkR0 V c 0 t) := by
  unfold Dat.leavesExact; rw [liveR0_0 t, afterR0_0]
theorem leavesR0_1 (c : Dev nD) (t : Fin cfg0.N) : (datR0 V c).leavesExact 1 t = owns (c : Thread nD τ) (mR0_1 t) fullShare (blkR0 V c 1 t) := by
  unfold Dat.leavesExact; rw [liveR0_1 t, afterR0_1]
theorem leavesR0_2 (c : Dev nD) (t : Fin cfg0.N) : (datR0 V c).leavesExact 2 t = owns (c : Thread nD τ) (mR0_2 t) fullShare (blkR0 V c 2 t) := by
  unfold Dat.leavesExact; rw [liveR0_2 t, afterR0_2]
theorem leavesR0_3 (c : Dev nD) (t : Fin cfg0.N) : (datR0 V c).leavesExact 3 t = owns (c : Thread nD τ) (mR0_3 t) fullShare (blkR0 V c 3 t) := by
  unfold Dat.leavesExact; rw [liveR0_3 t, afterR0_3]

set_option maxHeartbeats 4800000 in
/-- The body at any point. The input buffers hold their blocks; the column tile says which case the point is in; the
    invariant hands the body the scratch (at anything at the very first point, at what the point before left afterwards)
    and takes it back at this point's running minimum; the result buffer is handed back as found except at column tile 3,
    where it takes the stored block. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2, beforeR0_3]
  rw [show (datR0 V c).owesAt () t.succ = (datR0 V c).owesAt () t.castSucc from rfl]
  rw [show (datR0 V c).Φ t.succ = invR0 V c (t.val + 1) t.isLt from rfl, invR0_succ]
  rw [leavesR0_0, leavesR0_1, leavesR0_2, leavesR0_3]
  have hN : t.val < 64 := lt_of_lt_of_eq t.isLt (show cfg0.N = 64 from N_0)
  by_cases h0 : t.val % 4 = 0
  · have h1 : ¬t.val % 4 = 3 := by omega
    rw [Dat.leavesExact_idle (datR0 V c) 4 t (idleR0_4 t (fun h => h1 ((last_iffR0 t).mp h))) (noFlushR0_4 t (fun h => h1 ((last_iffR0 t).mp h)))]
    rw [accAtR0_A V c t h0 h1]
    unfold accA_R0; (try dsimp only)
    by_cases hz : t.val = 0
    · rw [invR0_castSucc V c t, invR0_zero V c _ _ hz, classInvR0]
      iintro ⟨⟨⟨HS, Hoth⟩, Hg⟩, Ho, ⟨%d0, H0⟩, ⟨%d1, H1⟩, ⟨%d2, H2⟩, ⟨%d3, H3⟩, ⟨%d4, H4⟩⟩
      iapply ((runA_R0 c (grid0.coords t) _ _ _ _ _ _ _ _ _ _ _ _ ((first_iffR0 t).mpr h0) (fun h => h1 ((last_iffR0 t).mp h)) (blkR0 V c 0 t) (blkR0 V c 1 t) (blkR0 V c 2 t) (blkR0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverA_R0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [invR0_castSucc V c t, invR0_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runA_R0 c (grid0.coords t) _ _ _ _ _ _ _ _ _ _ _ _ ((first_iffR0 t).mpr h0) (fun h => h1 ((last_iffR0 t).mp h)) (blkR0 V c 0 t) (blkR0 V c 1 t) (blkR0 V c 2 t) (blkR0 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverA_R0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (datR0 V c).leavesExact 4 t = owns (c : Thread nD τ) (mR0_4 t) fullShare ((datR0 V c).after 4 t) from by
        unfold Dat.leavesExact; rw [liveR0_4 t ((last_iffR0 t).mpr h1)], afterR0_4]
      rw [accAtR0_C V c t h0 h1, outAtR0_C V c t h0 h1]
      unfold outC_R0 accC_R0; (try dsimp only)
      rw [invR0_castSucc V c t, invR0_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runC_R0 c (grid0.coords t) _ _ _ _ _ _ _ _ _ _ _ _ (fun h => h0 ((first_iffR0 t).mp h)) ((last_iffR0 t).mpr h1) (blkR0 V c 0 t) (blkR0 V c 1 t) (blkR0 V c 2 t) (blkR0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC_R0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocoverC_R0 c _ _ _ _ _ _ _ _ _ _ _ _ _ _ _ _ _ _ _ _)
    · rw [Dat.leavesExact_idle (datR0 V c) 4 t (idleR0_4 t (fun h => h1 ((last_iffR0 t).mp h))) (noFlushR0_4 t (fun h => h1 ((last_iffR0 t).mp h)))]
      rw [accAtR0_B V c t h0 h1]
      unfold accB_R0; (try dsimp only)
      rw [invR0_castSucc V c t, invR0_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runB_R0 c (grid0.coords t) _ _ _ _ _ _ _ _ _ _ _ _ (fun h => h0 ((first_iffR0 t).mp h)) (fun h => h1 ((last_iffR0 t).mp h)) (blkR0 V c 0 t) (blkR0 V c 1 t) (blkR0 V c 2 t) (blkR0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverB_R0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem obligationR0 (c : Dev nD) : BodyObligation (datR0 (F := F) V c) (defs₀ (F := F)) Variants.none () Set.univ := fun t => by
  rw [bigSep_W0, bigSep_W0]
  exact sound_bodyR0 V c t

/-- After any point the invariant gives the class's back: the scratch's named contents are forgotten. -/
theorem inv_outR0 (c : Dev nD) (t : Fin (cfg0.N + 1)) (ht : t.val ≠ 0) : (datR0 V c).Φ t ⊢ Pipeline.ΦA spec0 c := by
  rw [show (datR0 V c).Φ t = invR0 V c t.val (Nat.le_of_lt_succ t.isLt) from rfl, invR0_pos V c _ _ ht, classInvR0]
  iintro ⟨⟨HS, Hoth⟩, Hg⟩
  isplitl [HS Hoth]
  · isplitl [HS]
    · iexists _; iexact HS
    iexact Hoth
  iexact Hg

end Cert.Kernel.Fr

end
-- ==== Proof.Kernel.Base1.lean ====
/-
  Region 1 (the second nearest-point call), what every later module of the region is stated over.

  The grid is 16 × 4: point t has row tile t / 4 and column tile t % 4. The two query windows (their blocks
  [8, 256, 1]) move with the row tile, the two database windows (blocks [8, 1, 1024]) with the column tile, the
  result window (block [8, 256]) with the row tile; a scratch [8, 256] holds the running minimum of a row tile.
  The body resets the scratch to +∞ at column tile 0, lowers it by the tile's minimum at every point, and stores
  its square root into the result block at column tile 3. So the result window is idle except at the points
  t % 4 = 3, which are also the only points where its block is written back.
-/
import proofs.«100872_j40888088658143_1_alg».proof.Proof.Gen.Kernel.Launch
import proofs.«100872_j40888088658143_1_alg».proof.Proof.Gen.Kernel.Skeleton
import proofs.«100872_j40888088658143_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement of the region is made at this parameter
variable (V : (c : Dev nD) → (b : Ref sig .tc) → Buf (Elt F) ((c : Thread nD τ).loc b))

/-! ## The windows' blocks -/

/-- Window `w`'s block at point `t`, read off its array as the region finds it. -/
def blkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetches it or not (a point
    that does not fetch has the same block index as the one before it). -/
theorem inBufR1_0 {c : Dev nD} (dat : Dat τ (Elt F) Unit ℕ (UR sig nD τ) ℕ cfg1 c) (hA : dat.A 0 = V c (Pipeline.arrRef spec1 0))
    (hafter : ∀ t, dat.after 0 t = blkR1 V c 0 t) (t : Fin cfg1.N) (d) : dat.before 0 t d = blkR1 V c 0 t :=
  (dat.before_in_eq_fetched 0 rfl (fun _ => rfl) (fun _ _ _ => rfl) (fun t => by rw [hafter]; unfold Dat.blockOf blkR1; rw [hA]; try rfl) t d).trans
    (by unfold Dat.fetched Dat.blockOf blkR1; rw [hA]; try rfl)
theorem inBufR1_1 {c : Dev nD} (dat : Dat τ (Elt F) Unit ℕ (UR sig nD τ) ℕ cfg1 c) (hA : dat.A 1 = V c (Pipeline.arrRef spec1 1))
    (hafter : ∀ t, dat.after 1 t = blkR1 V c 1 t) (t : Fin cfg1.N) (d) : dat.before 1 t d = blkR1 V c 1 t :=
  (dat.before_in_eq_fetched 1 rfl (fun _ => rfl) (fun _ _ _ => rfl) (fun t => by rw [hafter]; unfold Dat.blockOf blkR1; rw [hA]; try rfl) t d).trans
    (by unfold Dat.fetched Dat.blockOf blkR1; rw [hA]; try rfl)
theorem inBufR1_2 {c : Dev nD} (dat : Dat τ (Elt F) Unit ℕ (UR sig nD τ) ℕ cfg1 c) (hA : dat.A 2 = V c (Pipeline.arrRef spec1 2))
    (hafter : ∀ t, dat.after 2 t = blkR1 V c 2 t) (t : Fin cfg1.N) (d) : dat.before 2 t d = blkR1 V c 2 t :=
  (dat.before_in_eq_fetched 2 rfl (fun _ => rfl) (fun _ _ _ => rfl) (fun t => by rw [hafter]; unfold Dat.blockOf blkR1; rw [hA]; try rfl) t d).trans
    (by unfold Dat.fetched Dat.blockOf blkR1; rw [hA]; try rfl)
theorem inBufR1_3 {c : Dev nD} (dat : Dat τ (Elt F) Unit ℕ (UR sig nD τ) ℕ cfg1 c) (hA : dat.A 3 = V c (Pipeline.arrRef spec1 3))
    (hafter : ∀ t, dat.after 3 t = blkR1 V c 3 t) (t : Fin cfg1.N) (d) : dat.before 3 t d = blkR1 V c 3 t :=
  (dat.before_in_eq_fetched 3 rfl (fun _ => rfl) (fun _ _ _ => rfl) (fun t => by rw [hafter]; unfold Dat.blockOf blkR1; rw [hA]; try rfl) t d).trans
    (by unfold Dat.fetched Dat.blockOf blkR1; rw [hA]; try rfl)

/-! ## The body's two branches, decided over the grid -/

/-- "This is column tile 0": the body resets the running minimum. -/
abbrev firstR1 (i : grid1.Coords) : Prop := (Scalar.cmpi .ne (Scalar.extui (Scalar.cmpi .eq (BitVec.ofNat 32 (i 1).val) 0#32)) 0#32) = 1#1
theorem first_iffR1 : ∀ t : Fin cfg1.N, firstR1 (grid1.coords t) ↔ t.val % 4 = 0 :=
  (by decide +kernel : ∀ t : Fin grid1.N, firstR1 (grid1.coords t) ↔ t.val % 4 = 0)

/-- "This is column tile 3": the body stores the square root of the running minimum into the result block. -/
abbrev lastR1 (i : grid1.Coords) : Prop := k1_cond2 i = 1#1
theorem last_iffR1 : ∀ t : Fin cfg1.N, lastR1 (grid1.coords t) ↔ t.val % 4 = 3 :=
  (by decide +kernel : ∀ t : Fin grid1.N, lastR1 (grid1.coords t) ↔ t.val % 4 = 3)

/-! ## Where the windows are idle -/

theorem liveR1_0 : ∀ t : Fin cfg1.N, cfg1.idle 0 (grid1.coords t) = false := by decide +kernel
theorem liveR1_1 : ∀ t : Fin cfg1.N, cfg1.idle 1 (grid1.coords t) = false := by decide +kernel
theorem liveR1_2 : ∀ t : Fin cfg1.N, cfg1.idle 2 (grid1.coords t) = false := by decide +kernel
theorem liveR1_3 : ∀ t : Fin cfg1.N, cfg1.idle 3 (grid1.coords t) = false := by decide +kernel
/-- Away from column tile 3 the result window is idle and its block is not written back. -/
theorem idleR1_4 : ∀ t : Fin cfg1.N, ¬lastR1 (grid1.coords t) → cfg1.idle 4 (grid1.coords t) = true := by decide +kernel
theorem noFlushR1_4 : ∀ t : Fin cfg1.N, ¬lastR1 (grid1.coords t) → (cfg1.win 4).flush t = false := by decide +kernel
/-- At column tile 3 it is live. -/
theorem liveR1_4 : ∀ t : Fin cfg1.N, lastR1 (grid1.coords t) → cfg1.idle 4 (grid1.coords t) = false := by decide +kernel

/-! ## The memrefs the body is called with -/

abbrev mR1_0 (t : Fin cfg1.N) : Memref sig .tc .vmem S8x256x1 .f32 := win1_0.stage (cfg1.slots t 0)
abbrev hR1_0 (t : Fin cfg1.N) : (mR1_0 t).IsWhole := hstage1_0 ((cfg1.slots t 0).cast nbuf1_0)
abbrev mR1_1 (t : Fin cfg1.N) : Memref sig .tc .vmem S8x256x1 .f32 := win1_1.stage (cfg1.slots t 1)
abbrev hR1_1 (t : Fin cfg1.N) : (mR1_1 t).IsWhole := hstage1_1 ((cfg1.slots t 1).cast nbuf1_1)
abbrev mR1_2 (t : Fin cfg1.N) : Memref sig .tc .vmem S8x1x1024 .f32 := win1_2.stage (cfg1.slots t 2)
abbrev hR1_2 (t : Fin cfg1.N) : (mR1_2 t).IsWhole := hstage1_2 ((cfg1.slots t 2).cast nbuf1_2)
abbrev mR1_3 (t : Fin cfg1.N) : Memref sig .tc .vmem S8x1x1024 .f32 := win1_3.stage (cfg1.slots t 3)
abbrev hR1_3 (t : Fin cfg1.N) : (mR1_3 t).IsWhole := hstage1_3 ((cfg1.slots t 3).cast nbuf1_3)
abbrev mR1_4 (t : Fin cfg1.N) : Memref sig .tc .vmem S8x256 .f32 := win1_4.stage (cfg1.slots t 4)
abbrev hR1_4 (t : Fin cfg1.N) : (mR1_4 t).IsWhole := hstage1_4 ((cfg1.slots t 4).cast nbuf1_4)
/-- The scratch that holds the running minimum, and the view its contents are stated through. -/
abbrev accMR1 : Memref sig .tc .vmem S8x256 .f32 := Memref.whole cc1_scratch0
abbrev accVR1 : View sig .tc .vmem S8x256 .f32 := accMR1.view
/-- One staging buffer of the result window, through which its contents are stated. -/
abbrev outVR1 : View sig .tc .vmem S8x256 .f32 := (Memref.whole cc1_stg4_0 : Memref sig .tc .vmem S8x256 .f32).view

/-- The scoped buffers the region never names: the other call's staging buffers and scratch. -/
abbrev othersR1 (c : Dev nD) : sProp 𝕄 :=
  Pipeline.scopedRestBut (Ix := Unit) (Name := ℕ) (U := UR sig nD τ) (Lvl := ℕ) (Val := Elt F) spec1 c [cc1_scratch0]

/-- What a region is handed besides its windows: its own scratch at some contents, the scoped buffers it never
    names, the generator register at some state. -/
theorem classInvR1 (c : Dev nD) :
    (Pipeline.ΦA spec1 c : sProp 𝕄)
      = iprop(iprop((∃ d, owns (c : Thread nD τ) accMR1 fullShare d) ∗ othersR1 c) ∗ (∃ r, prngReg c r)) := by
  unfold Pipeline.ΦA
  rw [Pipeline.scopedRest_split_of_list spec1 c [cc1_scratch0] (by decide) (by decide)]
  simp only [accMR1, owns_whole]
  rfl

end Cert.Kernel.Fr

end
-- ==== Proof.Kernel.RunA1.lean ====
/-
  Region 1: the body run whole at a point of column tile 0 (the running minimum is reset, then lowered; the result block is not touched).
  The stores it makes are found by the run itself and kept as a list of pieces (last store first); what the
  buffers then hold is read off that list in the module that states the region's data.
-/
import proofs.«100872_j40888088658143_1_alg».proof.Proof.Kernel.Base1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tile 0: on whole memrefs, the four input blocks at their contents, the result buffer at contents it hands
    back untouched, the scratch at anything, the body runs to its end leaving the inputs as they were and the scratch
    with the pieces `LS` written. -/
noncomputable def runA_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR1 i) (hc1 : ¬lastR1 i)
    (x0 : Vec F S8x256x1 .f32) (x1 : Vec F S8x256x1 .f32) (x2 : Vec F S8x1x1024 .f32) (x3 : Vec F S8x1x1024 .f32) :
    { LS : List (View.Piece (Elt F) S8x256 .f32) //
      ∀ (xo : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__nearest_min_sqdist_kernel i arg2 harg2 arg3 harg3 arg4 harg4 arg5 harg5 arg6 harg6 arg7 harg7) K } := by
  refine ⟨?_, fun xo E K => ?run⟩
  case run =>
    simp only [cc1__nearest_min_sqdist_kernel_eq_skeleton]; unfold cc1__nearest_min_sqdist_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Fr

end
-- ==== Proof.Kernel.RunB1.lean ====
/-
  Region 1: the body run whole at a point of column tile 1 or 2 (the running minimum is lowered; the result block is not touched).
  The stores it makes are found by the run itself and kept as a list of pieces (last store first); what the
  buffers then hold is read off that list in the module that states the region's data.
-/
import proofs.«100872_j40888088658143_1_alg».proof.Proof.Kernel.RunA1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tiles 1 and 2: on whole memrefs, the four input blocks at their contents, the result buffer at contents it
    hands back untouched, the scratch at the running minimum `xs` the point before left, the body runs to its end
    leaving the inputs as they were and the scratch with the pieces `LS` written. -/
noncomputable def runB_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : ¬lastR1 i)
    (x0 : Vec F S8x256x1 .f32) (x1 : Vec F S8x256x1 .f32) (x2 : Vec F S8x1x1024 .f32) (x3 : Vec F S8x1x1024 .f32) (xs : Vec F S8x256 .f32) :
    { LS : List (View.Piece (Elt F) S8x256 .f32) //
      ∀ (xo : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__nearest_min_sqdist_kernel i arg2 harg2 arg3 harg3 arg4 harg4 arg5 harg5 arg6 harg6 arg7 harg7) K } := by
  refine ⟨?_, fun xo E K => ?run⟩
  case run =>
    simp only [cc1__nearest_min_sqdist_kernel_eq_skeleton]; unfold cc1__nearest_min_sqdist_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Fr

end
-- ==== Proof.Kernel.RunC1.lean ====
/-
  Region 1: the body run whole at a point of column tile 3 (the running minimum is lowered a last time and its square root stored into the result block).
  The stores it makes are found by the run itself and kept as a list of pieces (last store first); what the
  buffers then hold is read off that list in the module that states the region's data.
-/
import proofs.«100872_j40888088658143_1_alg».proof.Proof.Kernel.RunB1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tile 3: on whole memrefs, the four input blocks at their contents, the result buffer at anything, the
    scratch at the running minimum `xs` the point before left, the body runs to its end leaving the inputs as they
    were, the result buffer with the pieces `LO` written and the scratch with the pieces `LS` written. -/
noncomputable def runC_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) :
    Σ' (LO : List (View.Piece (Elt F) S8x256 .f32)), { LS : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__nearest_min_sqdist_kernel i arg2 harg2 arg3 harg3 arg4 harg4 arg5 harg5 arg6 harg6 arg7 harg7) K } := by
  refine ⟨?_, ?_, fun E K => ?run⟩
  case run =>
    simp only [cc1__nearest_min_sqdist_kernel_eq_skeleton]; unfold cc1__nearest_min_sqdist_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Fr

end
-- ==== Proof.Kernel.Region1.lean ====
/-
  Region 1: what its buffers hold point by point, its invariant, its proof data and the body obligation.

  After point t the scratch holds the running minimum of row tile t / 4 over the column tiles 0 … t % 4: at column
  tile 0 the body's stores over a reset scratch, at a later tile the body's stores over what the point before left.
  At column tile 3 the result buffer holds what the body stored there, computed from the same running minimum; at
  the other points the result window is idle, its buffer handed back as found and not written back, and nothing
  consults what the data say of it there.
  The invariant before point 0 is the class's (every scoped buffer the region does not stage at anything, the
  generator register at some state); after point n it names the scratch's contents and leaves the rest as it was.
-/
import proofs.«100872_j40888088658143_1_alg».proof.Proof.Kernel.RunC1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its stores -/

theorem scoverA_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR1 i) (hc1 : ¬lastR1 i)
    (x0 : Vec F S8x256x1 .f32) (x1 : Vec F S8x256x1 .f32) (x2 : Vec F S8x1x1024 .f32) (x3 : Vec F S8x1x1024 .f32) (y : S8x256.Idx) :
    ∃ pc ∈ (runA_R1 c i arg2 harg2 arg3 harg3 arg4 harg4 arg5 harg5 arg6 harg6 arg7 harg7 hc0 hc1 x0 x1 x2 x3).1, y ∈ pc.1.set :=
  View.cover_of_tiledL (runA_R1 c i arg2 harg2 arg3 harg3 arg4 harg4 arg5 harg5 arg6 harg6 arg7 harg7 hc0 hc1 x0 x1 x2 x3).1 S8x256.size (by sl_kernel_rfl) y
/-- The running minimum after a point of column tile 0. -/
def accA_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR1 i) (hc1 : ¬lastR1 i)
    (x0 : Vec F S8x256x1 .f32) (x1 : Vec F S8x256x1 .f32) (x2 : Vec F S8x1x1024 .f32) (x3 : Vec F S8x1x1024 .f32) : Vec F S8x256 .f32 :=
  accVR1.read (Elt F) (accVR1.writes (Elt F) accVR1.junk (runA_R1 c i arg2 harg2 arg3 harg3 arg4 harg4 arg5 harg5 arg6 harg6 arg7 harg7 hc0 hc1 x0 x1 x2 x3).1)

theorem scoverB_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : ¬lastR1 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runB_R1 c i arg2 harg2 arg3 harg3 arg4 harg4 arg5 harg5 arg6 harg6 arg7 harg7 hc0 hc1 x0 x1 x2 x3 xs).1, y ∈ pc.1.set :=
  View.cover_of_tiledL (runB_R1 c i arg2 harg2 arg3 harg3 arg4 harg4 arg5 harg5 arg6 harg6 arg7 harg7 hc0 hc1 x0 x1 x2 x3 xs).1 S8x256.size (by sl_kernel_rfl) y
/-- The running minimum after a point of column tile 1 or 2, over what the point before left. -/
def accB_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : ¬lastR1 i)
    (x0 : Vec F S8x256x1 .f32) (x1 : Vec F S8x256x1 .f32) (x2 : Vec F S8x1x1024 .f32) (x3 : Vec F S8x1x1024 .f32) (xs : Vec F S8x256 .f32) : Vec F S8x256 .f32 :=
  accVR1.read (Elt F) (accVR1.writes (Elt F) accVR1.junk (runB_R1 c i arg2 harg2 arg3 harg3 arg4 harg4 arg5 harg5 arg6 harg6 arg7 harg7 hc0 hc1 x0 x1 x2 x3 xs).1)

theorem scoverC_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runC_R1 c i arg2 harg2 arg3 harg3 arg4 harg4 arg5 harg5 arg6 harg6 arg7 harg7 hc0 hc1 x0 x1 x2 x3 xs).2.1, y ∈ pc.1.set :=
  View.cover_of_tiledL (runC_R1 c i arg2 harg2 arg3 harg3 arg4 harg4 arg5 harg5 arg6 harg6 arg7 harg7 hc0 hc1 x0 x1 x2 x3 xs).2.1 S8x256.size (by sl_kernel_rfl) y
/-- The running minimum after a point of column tile 3, over what the point before left. -/
def accC_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) : Vec F S8x256 .f32 :=
  accVR1.read (Elt F) (accVR1.writes (Elt F) accVR1.junk (runC_R1 c i arg2 harg2 arg3 harg3 arg4 harg4 arg5 harg5 arg6 harg6 arg7 harg7 hc0 hc1 x0 x1 x2 x3 xs).2.1)
theorem ocoverC_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runC_R1 c i arg2 harg2 arg3 harg3 arg4 harg4 arg5 harg5 arg6 harg6 arg7 harg7 hc0 hc1 x0 x1 x2 x3 xs).1, y ∈ pc.1.set :=
  View.cover_of_tiledL (runC_R1 c i arg2 harg2 arg3 harg3 arg4 harg4 arg5 harg5 arg6 harg6 arg7 harg7 hc0 hc1 x0 x1 x2 x3 xs).1 S8x256.size (by sl_kernel_rfl) y
/-- The result block a point of column tile 3 stores. -/
def outC_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) : Vec F S8x256 .f32 :=
  outVR1.read (Elt F) (outVR1.writes (Elt F) outVR1.junk (runC_R1 c i arg2 harg2 arg3 harg3 arg4 harg4 arg5 harg5 arg6 harg6 arg7 harg7 hc0 hc1 x0 x1 x2 x3 xs).1)

/-! ## Point by point -/

/-- The running minimum the scratch holds after the body at position `n`. -/
def accAtR1 (c : Dev nD) : (n : ℕ) → n < cfg1.N → Vec F S8x256 .f32
  | 0, hn => accA_R1 c (grid1.coords ⟨0, hn⟩) (mR1_0 ⟨0, hn⟩) (hR1_0 ⟨0, hn⟩) (mR1_1 ⟨0, hn⟩) (hR1_1 ⟨0, hn⟩) (mR1_2 ⟨0, hn⟩) (hR1_2 ⟨0, hn⟩) (mR1_3 ⟨0, hn⟩) (hR1_3 ⟨0, hn⟩) (mR1_4 ⟨0, hn⟩) (hR1_4 ⟨0, hn⟩) accMR1 (Memref.isWhole_whole _) ((first_iffR1 ⟨0, hn⟩).mpr (Nat.zero_mod _)) (fun h => (fun h => by (try dsimp only at h); omega) ((last_iffR1 ⟨0, hn⟩).mp h)) (blkR1 V c 0 ⟨0, hn⟩) (blkR1 V c 1 ⟨0, hn⟩) (blkR1 V c 2 ⟨0, hn⟩) (blkR1 V c 3 ⟨0, hn⟩)
  | n + 1, hn =>
    if h0 : (n + 1) % 4 = 0 then
      if h1 : (n + 1) % 4 = 3 then False.elim (by omega)
      else accA_R1 c (grid1.coords ⟨n + 1, hn⟩) (mR1_0 ⟨n + 1, hn⟩) (hR1_0 ⟨n + 1, hn⟩) (mR1_1 ⟨n + 1, hn⟩) (hR1_1 ⟨n + 1, hn⟩) (mR1_2 ⟨n + 1, hn⟩) (hR1_2 ⟨n + 1, hn⟩) (mR1_3 ⟨n + 1, hn⟩) (hR1_3 ⟨n + 1, hn⟩) (mR1_4 ⟨n + 1, hn⟩) (hR1_4 ⟨n + 1, hn⟩) accMR1 (Memref.isWhole_whole _) ((first_iffR1 ⟨n + 1, hn⟩).mpr h0) (fun h => h1 ((last_iffR1 ⟨n + 1, hn⟩).mp h)) (blkR1 V c 0 ⟨n + 1, hn⟩) (blkR1 V c 1 ⟨n + 1, hn⟩) (blkR1 V c 2 ⟨n + 1, hn⟩) (blkR1 V c 3 ⟨n + 1, hn⟩)
    else
      if h1 : (n + 1) % 4 = 3 then
        accC_R1 c (grid1.coords ⟨n + 1, hn⟩) (mR1_0 ⟨n + 1, hn⟩) (hR1_0 ⟨n + 1, hn⟩) (mR1_1 ⟨n + 1, hn⟩) (hR1_1 ⟨n + 1, hn⟩) (mR1_2 ⟨n + 1, hn⟩) (hR1_2 ⟨n + 1, hn⟩) (mR1_3 ⟨n + 1, hn⟩) (hR1_3 ⟨n + 1, hn⟩) (mR1_4 ⟨n + 1, hn⟩) (hR1_4 ⟨n + 1, hn⟩) accMR1 (Memref.isWhole_whole _) (fun h => h0 ((first_iffR1 ⟨n + 1, hn⟩).mp h)) ((last_iffR1 ⟨n + 1, hn⟩).mpr h1) (blkR1 V c 0 ⟨n + 1, hn⟩) (blkR1 V c 1 ⟨n + 1, hn⟩) (blkR1 V c 2 ⟨n + 1, hn⟩) (blkR1 V c 3 ⟨n + 1, hn⟩) (accAtR1 c n (Nat.lt_of_succ_lt hn))
      else
        accB_R1 c (grid1.coords ⟨n + 1, hn⟩) (mR1_0 ⟨n + 1, hn⟩) (hR1_0 ⟨n + 1, hn⟩) (mR1_1 ⟨n + 1, hn⟩) (hR1_1 ⟨n + 1, hn⟩) (mR1_2 ⟨n + 1, hn⟩) (hR1_2 ⟨n + 1, hn⟩) (mR1_3 ⟨n + 1, hn⟩) (hR1_3 ⟨n + 1, hn⟩) (mR1_4 ⟨n + 1, hn⟩) (hR1_4 ⟨n + 1, hn⟩) accMR1 (Memref.isWhole_whole _) (fun h => h0 ((first_iffR1 ⟨n + 1, hn⟩).mp h)) (fun h => h1 ((last_iffR1 ⟨n + 1, hn⟩).mp h)) (blkR1 V c 0 ⟨n + 1, hn⟩) (blkR1 V c 1 ⟨n + 1, hn⟩) (blkR1 V c 2 ⟨n + 1, hn⟩) (blkR1 V c 3 ⟨n + 1, hn⟩) (accAtR1 c n (Nat.lt_of_succ_lt hn))

theorem accAtR1_A (c : Dev nD) (t : Fin cfg1.N) (h0 : t.val % 4 = 0) (h1 : ¬t.val % 4 = 3) :
    accAtR1 V c t.val t.isLt = accA_R1 c (grid1.coords t) (mR1_0 t) (hR1_0 t) (mR1_1 t) (hR1_1 t) (mR1_2 t) (hR1_2 t) (mR1_3 t) (hR1_3 t) (mR1_4 t) (hR1_4 t) accMR1 (Memref.isWhole_whole _) ((first_iffR1 t).mpr h0) (fun h => h1 ((last_iffR1 t).mp h)) (blkR1 V c 0 t) (blkR1 V c 1 t) (blkR1 V c 2 t) (blkR1 V c 3 t) := by
  obtain ⟨n, hn⟩ := t
  cases n with
  | zero => exact rfl
  | succ n => exact (dif_pos h0).trans ((dif_neg h1).trans rfl)

theorem accAtR1_B (c : Dev nD) (t : Fin cfg1.N) (h0 : ¬t.val % 4 = 0) (h1 : ¬t.val % 4 = 3) :
    accAtR1 V c t.val t.isLt = accB_R1 c (grid1.coords t) (mR1_0 t) (hR1_0 t) (mR1_1 t) (hR1_1 t) (mR1_2 t) (hR1_2 t) (mR1_3 t) (hR1_3 t) (mR1_4 t) (hR1_4 t) accMR1 (Memref.isWhole_whole _) (fun h => h0 ((first_iffR1 t).mp h)) (fun h => h1 ((last_iffR1 t).mp h)) (blkR1 V c 0 t) (blkR1 V c 1 t) (blkR1 V c 2 t) (blkR1 V c 3 t) (accAtR1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAtR1_C (c : Dev nD) (t : Fin cfg1.N) (h0 : ¬t.val % 4 = 0) (h1 : t.val % 4 = 3) :
    accAtR1 V c t.val t.isLt = accC_R1 c (grid1.coords t) (mR1_0 t) (hR1_0 t) (mR1_1 t) (hR1_1 t) (mR1_2 t) (hR1_2 t) (mR1_3 t) (hR1_3 t) (mR1_4 t) (hR1_4 t) accMR1 (Memref.isWhole_whole _) (fun h => h0 ((first_iffR1 t).mp h)) ((last_iffR1 t).mpr h1) (blkR1 V c 0 t) (blkR1 V c 1 t) (blkR1 V c 2 t) (blkR1 V c 3 t) (accAtR1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result window's buffer holds after the body at point `t`: at column tile 3 the block the body stored; elsewhere
    the window is idle and this value is consulted by nothing. -/
def outAtR1 (c : Dev nD) (t : Fin cfg1.N) : Vec F S8x256 .f32 :=
  if h1 : t.val % 4 = 3 then
    outC_R1 c (grid1.coords t) (mR1_0 t) (hR1_0 t) (mR1_1 t) (hR1_1 t) (mR1_2 t) (hR1_2 t) (mR1_3 t) (hR1_3 t) (mR1_4 t) (hR1_4 t) accMR1 (Memref.isWhole_whole _) (fun h => (by omega : ¬t.val % 4 = 0) ((first_iffR1 t).mp h)) ((last_iffR1 t).mpr h1) (blkR1 V c 0 t) (blkR1 V c 1 t) (blkR1 V c 2 t) (blkR1 V c 3 t) (accAtR1 V c (t.val - 1) (Nat.lt_of_le_of_lt (Nat.sub_le _ _) t.isLt))
  else outVR1.read (Elt F) outVR1.junk

theorem outAtR1_C (c : Dev nD) (t : Fin cfg1.N) (h0 : ¬t.val % 4 = 0) (h1 : t.val % 4 = 3) :
    outAtR1 V c t = outC_R1 c (grid1.coords t) (mR1_0 t) (hR1_0 t) (mR1_1 t) (hR1_1 t) (mR1_2 t) (hR1_2 t) (mR1_3 t) (hR1_3 t) (mR1_4 t) (hR1_4 t) accMR1 (Memref.isWhole_whole _) (fun h => h0 ((first_iffR1 t).mp h)) ((last_iffR1 t).mpr h1) (blkR1 V c 0 t) (blkR1 V c 1 t) (blkR1 V c 2 t) (blkR1 V c 3 t) (accAtR1 V c (t.val - 1) (Nat.lt_of_le_of_lt (Nat.sub_le _ _) t.isLt)) := by
  unfold outAtR1; rw [dif_pos h1]

/-! ## The invariant -/

/-- Before position `n`: at the start what the launch hands the region; afterwards the scratch at the running minimum the
    point before left, the scoped buffers the region never names, the generator register at some state. -/
def invR1 (c : Dev nD) : (n : ℕ) → n ≤ cfg1.N → sProp 𝕄
  | 0, _ => Pipeline.ΦA spec1 c
  | n + 1, hn => iprop(iprop(owns (c : Thread nD τ) accMR1 fullShare (accAtR1 V c n hn) ∗ othersR1 c) ∗ (∃ r, prngReg c r))

theorem invR1_zero (c : Dev nD) (n : ℕ) (h : n ≤ cfg1.N) (hz : n = 0) : invR1 V c n h = Pipeline.ΦA spec1 c := by
  subst hz; rfl
theorem invR1_succ (c : Dev nD) (n : ℕ) (hn : n < cfg1.N) :
    invR1 V c (n + 1) hn = iprop(iprop(owns (c : Thread nD τ) accMR1 fullShare (accAtR1 V c n hn) ∗ othersR1 c) ∗ (∃ r, prngReg c r)) := rfl
theorem invR1_pos (c : Dev nD) (n : ℕ) (h : n ≤ cfg1.N) (hz : n ≠ 0) :
    invR1 V c n h = iprop(iprop(owns (c : Thread nD τ) accMR1 fullShare (accAtR1 V c (n - 1) (by omega)) ∗ othersR1 c) ∗ (∃ r, prngReg c r)) := by
  cases n with
  | zero => exact absurd rfl hz
  | succ n => rfl

/-! ## The proof data -/

def datR1 (c : Dev nD) : Dat τ (Elt F) Unit ℕ (UR sig nD τ) ℕ cfg1 c where
  A w := V c (Pipeline.arrRef spec1 w)
  after w t := match w with
    | ⟨0, _⟩ => blkR1 V c 0 t
    | ⟨1, _⟩ => blkR1 V c 1 t
    | ⟨2, _⟩ => blkR1 V c 2 t
    | ⟨3, _⟩ => blkR1 V c 3 t
    | ⟨4, _⟩ => outAtR1 V c t
  Φ t := invR1 V c t.val (Nat.le_of_lt_succ t.isLt)
  q _ := fullShare
  owed _ := 0

theorem datR1_A (c : Dev nD) (w : Fin cfg1.W) : (datR1 V c).A w = V c (Pipeline.arrRef spec1 w) := by
  dsimp only [datR1]
theorem invR1_castSucc (c : Dev nD) (t : Fin cfg1.N) :
    (datR1 V c).Φ t.castSucc = invR1 V c t.val (Nat.le_of_lt t.isLt) := by
  dsimp only [datR1]; simp only [Fin.coe_castSucc]
theorem afterR1_0 (c : Dev nD) (t : Fin cfg1.N) : (datR1 V c).after 0 t = blkR1 V c 0 t := by dsimp only [datR1]
theorem afterR1_1 (c : Dev nD) (t : Fin cfg1.N) : (datR1 V c).after 1 t = blkR1 V c 1 t := by dsimp only [datR1]
theorem afterR1_2 (c : Dev nD) (t : Fin cfg1.N) : (datR1 V c).after 2 t = blkR1 V c 2 t := by dsimp only [datR1]
theorem afterR1_3 (c : Dev nD) (t : Fin cfg1.N) : (datR1 V c).after 3 t = blkR1 V c 3 t := by dsimp only [datR1]
theorem afterR1_4 (c : Dev nD) (t : Fin cfg1.N) : (datR1 V c).after 4 t = outAtR1 V c t := by dsimp only [datR1]

theorem beforeR1_0 (c : Dev nD) (t : Fin cfg1.N) (d) : (datR1 V c).before 0 t d = blkR1 V c 0 t :=
  inBufR1_0 V (datR1 V c) (datR1_A V c 0) (afterR1_0 V c) t d
theorem beforeR1_1 (c : Dev nD) (t : Fin cfg1.N) (d) : (datR1 V c).before 1 t d = blkR1 V c 1 t :=
  inBufR1_1 V (datR1 V c) (datR1_A V c 1) (afterR1_1 V c) t d
theorem beforeR1_2 (c : Dev nD) (t : Fin cfg1.N) (d) : (datR1 V c).before 2 t d = blkR1 V c 2 t :=
  inBufR1_2 V (datR1 V c) (datR1_A V c 2) (afterR1_2 V c) t d
theorem beforeR1_3 (c : Dev nD) (t : Fin cfg1.N) (d) : (datR1 V c).before 3 t d = blkR1 V c 3 t :=
  inBufR1_3 V (datR1 V c) (datR1_A V c 3) (afterR1_3 V c) t d

/-! ## The body obligation -/

def bodyPreR1 (c : Dev nD) (t : Fin cfg1.N) : sProp 𝕄 :=
  iprop((datR1 V c).Φ t.castSucc ∗ (datR1 V c).owesAt () t.castSucc
    ∗ (∃ d, owns (c : Thread nD τ) (mR1_0 t) fullShare ((datR1 V c).before 0 t d))
    ∗ (∃ d, owns (c : Thread nD τ) (mR1_1 t) fullShare ((datR1 V c).before 1 t d))
    ∗ (∃ d, owns (c : Thread nD τ) (mR1_2 t) fullShare ((datR1 V c).before 2 t d))
    ∗ (∃ d, owns (c : Thread nD τ) (mR1_3 t) fullShare ((datR1 V c).before 3 t d))
    ∗ (∃ d, owns (c : Thread nD τ) (mR1_4 t) fullShare ((datR1 V c).before 4 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t
    ∗ (datR1 V c).leavesExact 4 t)

theorem leavesR1_0 (c : Dev nD) (t : Fin cfg1.N) : (datR1 V c).leavesExact 0 t = owns (c : Thread nD τ) (mR1_0 t) fullShare (blkR1 V c 0 t) := by
  unfold Dat.leavesExact; rw [liveR1_0 t, afterR1_0]
theorem leavesR1_1 (c : Dev nD) (t : Fin cfg1.N) : (datR1 V c).leavesExact 1 t = owns (c : Thread nD τ) (mR1_1 t) fullShare (blkR1 V c 1 t) := by
  unfold Dat.leavesExact; rw [liveR1_1 t, afterR1_1]
theorem leavesR1_2 (c : Dev nD) (t : Fin cfg1.N) : (datR1 V c).leavesExact 2 t = owns (c : Thread nD τ) (mR1_2 t) fullShare (blkR1 V c 2 t) := by
  unfold Dat.leavesExact; rw [liveR1_2 t, afterR1_2]
theorem leavesR1_3 (c : Dev nD) (t : Fin cfg1.N) : (datR1 V c).leavesExact 3 t = owns (c : Thread nD τ) (mR1_3 t) fullShare (blkR1 V c 3 t) := by
  unfold Dat.leavesExact; rw [liveR1_3 t, afterR1_3]

set_option maxHeartbeats 4800000 in
/-- The body at any point. The input buffers hold their blocks; the column tile says which case the point is in; the
    invariant hands the body the scratch (at anything at the very first point, at what the point before left afterwards)
    and takes it back at this point's running minimum; the result buffer is handed back as found except at column tile 3,
    where it takes the stored block. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2, beforeR1_3]
  rw [show (datR1 V c).owesAt () t.succ = (datR1 V c).owesAt () t.castSucc from rfl]
  rw [show (datR1 V c).Φ t.succ = invR1 V c (t.val + 1) t.isLt from rfl, invR1_succ]
  rw [leavesR1_0, leavesR1_1, leavesR1_2, leavesR1_3]
  have hN : t.val < 64 := lt_of_lt_of_eq t.isLt (show cfg1.N = 64 from N_1)
  by_cases h0 : t.val % 4 = 0
  · have h1 : ¬t.val % 4 = 3 := by omega
    rw [Dat.leavesExact_idle (datR1 V c) 4 t (idleR1_4 t (fun h => h1 ((last_iffR1 t).mp h))) (noFlushR1_4 t (fun h => h1 ((last_iffR1 t).mp h)))]
    rw [accAtR1_A V c t h0 h1]
    unfold accA_R1; (try dsimp only)
    by_cases hz : t.val = 0
    · rw [invR1_castSucc V c t, invR1_zero V c _ _ hz, classInvR1]
      iintro ⟨⟨⟨HS, Hoth⟩, Hg⟩, Ho, ⟨%d0, H0⟩, ⟨%d1, H1⟩, ⟨%d2, H2⟩, ⟨%d3, H3⟩, ⟨%d4, H4⟩⟩
      iapply ((runA_R1 c (grid1.coords t) _ _ _ _ _ _ _ _ _ _ _ _ ((first_iffR1 t).mpr h0) (fun h => h1 ((last_iffR1 t).mp h)) (blkR1 V c 0 t) (blkR1 V c 1 t) (blkR1 V c 2 t) (blkR1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverA_R1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [invR1_castSucc V c t, invR1_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runA_R1 c (grid1.coords t) _ _ _ _ _ _ _ _ _ _ _ _ ((first_iffR1 t).mpr h0) (fun h => h1 ((last_iffR1 t).mp h)) (blkR1 V c 0 t) (blkR1 V c 1 t) (blkR1 V c 2 t) (blkR1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverA_R1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (datR1 V c).leavesExact 4 t = owns (c : Thread nD τ) (mR1_4 t) fullShare ((datR1 V c).after 4 t) from by
        unfold Dat.leavesExact; rw [liveR1_4 t ((last_iffR1 t).mpr h1)], afterR1_4]
      rw [accAtR1_C V c t h0 h1, outAtR1_C V c t h0 h1]
      unfold outC_R1 accC_R1; (try dsimp only)
      rw [invR1_castSucc V c t, invR1_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runC_R1 c (grid1.coords t) _ _ _ _ _ _ _ _ _ _ _ _ (fun h => h0 ((first_iffR1 t).mp h)) ((last_iffR1 t).mpr h1) (blkR1 V c 0 t) (blkR1 V c 1 t) (blkR1 V c 2 t) (blkR1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC_R1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocoverC_R1 c _ _ _ _ _ _ _ _ _ _ _ _ _ _ _ _ _ _ _ _)
    · rw [Dat.leavesExact_idle (datR1 V c) 4 t (idleR1_4 t (fun h => h1 ((last_iffR1 t).mp h))) (noFlushR1_4 t (fun h => h1 ((last_iffR1 t).mp h)))]
      rw [accAtR1_B V c t h0 h1]
      unfold accB_R1; (try dsimp only)
      rw [invR1_castSucc V c t, invR1_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runB_R1 c (grid1.coords t) _ _ _ _ _ _ _ _ _ _ _ _ (fun h => h0 ((first_iffR1 t).mp h)) (fun h => h1 ((last_iffR1 t).mp h)) (blkR1 V c 0 t) (blkR1 V c 1 t) (blkR1 V c 2 t) (blkR1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverB_R1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem obligationR1 (c : Dev nD) : BodyObligation (datR1 (F := F) V c) (defs₀ (F := F)) Variants.none () Set.univ := fun t => by
  rw [bigSep_W1, bigSep_W1]
  exact sound_bodyR1 V c t

/-- After any point the invariant gives the class's back: the scratch's named contents are forgotten. -/
theorem inv_outR1 (c : Dev nD) (t : Fin (cfg1.N + 1)) (ht : t.val ≠ 0) : (datR1 V c).Φ t ⊢ Pipeline.ΦA spec1 c := by
  rw [show (datR1 V c).Φ t = invR1 V c t.val (Nat.le_of_lt_succ t.isLt) from rfl, invR1_pos V c _ _ ht, classInvR1]
  iintro ⟨⟨HS, Hoth⟩, Hg⟩
  isplitl [HS Hoth]
  · isplitl [HS]
    · iexists _; iexact HS
    iexact Hoth
  iexact Hg

end Cert.Kernel.Fr

end
-- ==== Proof.Kernel.MainRun.lean ====
/-
  The whole program run: @main is five items — host operations, the first nearest-point call, host operations, the
  second call, host operations — and between two items every unscoped buffer of the core holds named contents:
  the launch memory, then each host stretch's operations applied, then, after a call, the call's arrays at what its
  write-backs leave and every other buffer as the call found it. Every weakly fair execution terminates with every
  unscoped buffer at the last of these; the argument arrays are never written, so they end as launched.
-/
import proofs.«100872_j40888088658143_1_alg».proof.Proof.Kernel.Region0
import proofs.«100872_j40888088658143_1_alg».proof.Proof.Kernel.Region1
import proofs.«100872_j40888088658143_1_alg».proof.Proof.Gen.Kernel.Regions
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items -/

/-- At launch. -/
abbrev bufs0 : Dev nD → Valuation τ sig (Elt F) := fun c b => (s₀ m ρ).mem ((c : Dev nD), b)
/-- After the first host stretch: the first call's entry. -/
abbrev bufs1 : Dev nD → Valuation τ sig (Elt F) := fun c => StableHlo.after hostOps0 (bufs0 m ρ c)
abbrev entry1 : (c : Dev nD) → (b : Ref sig .tc) → Buf (Elt F) ((c : Thread nD τ).loc b) := fun c b => bufs1 m ρ c b
/-- After the first call: its arrays at what its write-backs leave, the rest as entered. -/
def bufs2 (c : Dev nD) : Valuation τ sig (Elt F) :=
  Pipeline.withArrays spec0 c (bufs1 m ρ c) fun w => (datR0 (entry1 m ρ) c).arrAt w cfg0.N
theorem bufs2_arr (c : Dev nD) (w : Fin cfg0.W) :
    bufs2 m ρ c (Proc.devRef .tc (Pipeline.arrRef spec0 w)) = (datR0 (entry1 m ρ) c).arrAt w cfg0.N := by
  unfold bufs2; exact Pipeline.withArrays_arr spec0 launch0.win.arr_inj c _ _ w
theorem bufs2_of_ne (c : Dev nD) (b : Ref sig .tc) (hb : ∀ w, Pipeline.arrRef spec0 w ≠ b) :
    bufs2 m ρ c (Proc.devRef .tc b) = bufs1 m ρ c (Proc.devRef .tc b) := by
  unfold bufs2; exact Pipeline.withArrays_of_ne spec0 c _ _ b hb
abbrev exit2 : (c : Dev nD) → (b : Ref sig .tc) → Buf (Elt F) ((c : Thread nD τ).loc b) := fun c b => bufs2 m ρ c b
theorem hfinal0 (c : Dev nD) (w : Fin cfg0.W) : (datR0 (entry1 m ρ) c).arrAt w cfg0.N = exit2 m ρ c (Pipeline.arrRef spec0 w) :=
  (bufs2_arr m ρ c w).symm
theorem hrest0 (c : Dev nD) : ∀ b, b ∉ Finset.univ.image (Pipeline.arrRef spec0) → exit2 m ρ c b = entry1 m ρ c b :=
  fun b hb => bufs2_of_ne m ρ c b fun w e => hb (Finset.mem_image.mpr ⟨w, Finset.mem_univ _, e⟩)
/-- After the second host stretch: the second call's entry. -/
abbrev bufs3 : Dev nD → Valuation τ sig (Elt F) := fun c => StableHlo.after hostOps1 (bufs2 m ρ c)
abbrev entry3 : (c : Dev nD) → (b : Ref sig .tc) → Buf (Elt F) ((c : Thread nD τ).loc b) := fun c b => bufs3 m ρ c b
/-- After the second call. -/
def bufs4 (c : Dev nD) : Valuation τ sig (Elt F) :=
  Pipeline.withArrays spec1 c (bufs3 m ρ c) fun w => (datR1 (entry3 m ρ) c).arrAt w cfg1.N
theorem bufs4_arr (c : Dev nD) (w : Fin cfg1.W) :
    bufs4 m ρ c (Proc.devRef .tc (Pipeline.arrRef spec1 w)) = (datR1 (entry3 m ρ) c).arrAt w cfg1.N := by
  unfold bufs4; exact Pipeline.withArrays_arr spec1 launch1.win.arr_inj c _ _ w
theorem bufs4_of_ne (c : Dev nD) (b : Ref sig .tc) (hb : ∀ w, Pipeline.arrRef spec1 w ≠ b) :
    bufs4 m ρ c (Proc.devRef .tc b) = bufs3 m ρ c (Proc.devRef .tc b) := by
  unfold bufs4; exact Pipeline.withArrays_of_ne spec1 c _ _ b hb
abbrev exit4 : (c : Dev nD) → (b : Ref sig .tc) → Buf (Elt F) ((c : Thread nD τ).loc b) := fun c b => bufs4 m ρ c b
theorem hfinal1 (c : Dev nD) (w : Fin cfg1.W) : (datR1 (entry3 m ρ) c).arrAt w cfg1.N = exit4 m ρ c (Pipeline.arrRef spec1 w) :=
  (bufs4_arr m ρ c w).symm
theorem hrest1 (c : Dev nD) : ∀ b, b ∉ Finset.univ.image (Pipeline.arrRef spec1) → exit4 m ρ c b = entry3 m ρ c b :=
  fun b hb => bufs4_of_ne m ρ c b fun w e => hb (Finset.mem_image.mpr ⟨w, Finset.mem_univ _, e⟩)
/-- After the last host stretch: the end. -/
abbrev bufs5 : Dev nD → Valuation τ sig (Elt F) := fun c => StableHlo.after hostOps2 (bufs4 m ρ c)

/-- `main_arg0` reaches the end as launched: no host operation writes it and no call's result array is it. -/
theorem bufs5_main_arg0 (c : Dev nD) : bufs5 m ρ c (Proc.devRef .tc main_arg0) = m ((c : Thread nD τ).loc main_arg0) :=
  calc bufs5 m ρ c (Proc.devRef .tc main_arg0)
    _ = bufs4 m ρ c (Proc.devRef .tc main_arg0) := StableHlo.after_of_writes_sub hostOps2 _ hostOps2_writes (r := main_arg0) (by decide)
    _ = bufs3 m ρ c (Proc.devRef .tc main_arg0) := bufs4_of_ne m ρ c main_arg0 (by decide)
    _ = bufs2 m ρ c (Proc.devRef .tc main_arg0) := StableHlo.after_of_writes_sub hostOps1 _ hostOps1_writes (r := main_arg0) (by decide)
    _ = bufs1 m ρ c (Proc.devRef .tc main_arg0) := bufs2_of_ne m ρ c main_arg0 (by decide)
    _ = bufs0 m ρ c (Proc.devRef .tc main_arg0) := StableHlo.after_of_writes_sub hostOps0 _ hostOps0_writes (r := main_arg0) (by decide)
    _ = m ((c : Thread nD τ).loc main_arg0) := rfl

/-- `main_arg1` reaches the end as launched: no host operation writes it and no call's result array is it. -/
theorem bufs5_main_arg1 (c : Dev nD) : bufs5 m ρ c (Proc.devRef .tc main_arg1) = m ((c : Thread nD τ).loc main_arg1) :=
  calc bufs5 m ρ c (Proc.devRef .tc main_arg1)
    _ = bufs4 m ρ c (Proc.devRef .tc main_arg1) := StableHlo.after_of_writes_sub hostOps2 _ hostOps2_writes (r := main_arg1) (by decide)
    _ = bufs3 m ρ c (Proc.devRef .tc main_arg1) := bufs4_of_ne m ρ c main_arg1 (by decide)
    _ = bufs2 m ρ c (Proc.devRef .tc main_arg1) := StableHlo.after_of_writes_sub hostOps1 _ hostOps1_writes (r := main_arg1) (by decide)
    _ = bufs1 m ρ c (Proc.devRef .tc main_arg1) := bufs2_of_ne m ρ c main_arg1 (by decide)
    _ = bufs0 m ρ c (Proc.devRef .tc main_arg1) := StableHlo.after_of_writes_sub hostOps0 _ hostOps0_writes (r := main_arg1) (by decide)
    _ = m ((c : Thread nD τ).loc main_arg1) := rfl

/-! ## The proof data of the two calls, and what rides beside the buffers -/

abbrev kadm : (p : Fin 2) → (pcfgs (F := F) p).Adm := fun p => (cfgs p).toPCfg_adm
/-- Each call's proof data at its own entry contents: a literal match on the call's number. -/
def kdat : (p : Fin 2) → (c : Dev nD) → Dat τ (Elt F) Unit ℕ (UR sig nD τ) ℕ (Pipeline.pin (pcfgs (F := F)) kadm p) c
  | ⟨0, _⟩ => fun c => datR0 (entry1 m ρ) c
  | ⟨1, _⟩ => fun c => datR1 (entry3 m ρ) c
abbrev 𝒱none : Variants := Variants.none
abbrev Lnone : GSem nD τ sig → Finset Unit := fun _ => ∅
abbrev lvnone : GSem nD τ sig → Unit → ℕ := fun _ _ => 0
/-- Beside the buffers, through every item: the generator register at some state and the core owing nothing. -/
abbrev rides (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱none Lnone lvnone :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the end contents, the generator register at some state. -/
abbrev endState (c : Dev nD) : sProp 𝕄 := iprop(StableHlo.held (c : Thread nD τ) (Pipeline.ucRefs τ sig) (bufs5 m ρ c) ∗ ∃ r, prngReg c r)

/-! ## The calls as items -/

-- a library lemma stated over the pinned configuration unifies with the printed one only when unification may unfold
-- plain definitions in a metavariable's type
set_option backward.isDefEq.respectTransparency.types false in
/-- Call 0 as an item of @main: entered with every unscoped buffer at `bufs1`, left with them at `bufs2`. Its arrays
    are split out of the unscoped buffers on entry and put back at their final contents on exit; the generator register
    goes into the invariant and comes back; nothing is owed; the kernel has no semaphore of its own. -/
def call0 : Pipeline.RegionSeg (pcfgs (F := F)) kadm (kdat m ρ) () defs₀ 𝒱none Lnone lvnone 0 where
  win := launch0.win.to₀
  block_pos := launch0.block_pos
  stage_whole := launch0.stage_whole
  K := PEmpty
  osem k := k.elim
  ho := Pipeline.OwnSemFacts.none _
  hbody c := (obligationR0 (entry1 m ρ) c).loose
  hwaits := Pipeline.hwaits_of_owed_zero _ _ _ _ Lnone lvnone 0 fun _ _ => rfl
  pre c := iprop(StableHlo.held (c : Thread nD τ) (Pipeline.ucRefs τ sig) (bufs1 m ρ c) ∗ rides c)
  post c := iprop(StableHlo.held (c : Thread nD τ) (Pipeline.ucRefs τ sig) (bufs2 m ρ c) ∗ rides c)
  X c := iprop(∃ r, prngReg c r)
  Y c := iprop(∃ r, prngReg c r)
  Z c := Pipeline.unscopedRest (Ix := Unit) (Name := ℕ) (U := UR sig nD τ) (Lvl := ℕ) spec0 c (entry1 m ρ c)
  hentry c := by
    rw [Pipeline.ownSems0_none]
    have hsplit := Pipeline.arrays_of_unscopedBufs (p := 0) (pcfgs (F := F)) kadm (kdat m ρ) launch0.win launch0.arr_whole c
      ((kdat m ρ 0 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (inv_outR0 (entry1 m ρ) c (Fin.last _) (by rw [Fin.val_last]; have : cfg0.N = 64 := N_0; omega)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) kadm (Ix := Unit) (Name := ℕ) (U := UR sig nD τ) (Lvl := ℕ)
      launch0.win launch0.arr_whole c (kdat m ρ) ((kdat m ρ 0 c).share_full fun _ => rfl)
      (entry1 m ρ c) (exit2 m ρ c) ((kdat m ρ 0 c).arrAt · cfg0.N) (hfinal0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 as an item of @main: entered with every unscoped buffer at `bufs3`, left with them at `bufs4`. Its arrays
    are split out of the unscoped buffers on entry and put back at their final contents on exit; the generator register
    goes into the invariant and comes back; nothing is owed; the kernel has no semaphore of its own. -/
def call1 : Pipeline.RegionSeg (pcfgs (F := F)) kadm (kdat m ρ) () defs₀ 𝒱none Lnone lvnone 1 where
  win := launch1.win.to₀
  block_pos := launch1.block_pos
  stage_whole := launch1.stage_whole
  K := PEmpty
  osem k := k.elim
  ho := Pipeline.OwnSemFacts.none _
  hbody c := (obligationR1 (entry3 m ρ) c).loose
  hwaits := Pipeline.hwaits_of_owed_zero _ _ _ _ Lnone lvnone 1 fun _ _ => rfl
  pre c := iprop(StableHlo.held (c : Thread nD τ) (Pipeline.ucRefs τ sig) (bufs3 m ρ c) ∗ rides c)
  post c := iprop(StableHlo.held (c : Thread nD τ) (Pipeline.ucRefs τ sig) (bufs4 m ρ c) ∗ rides c)
  X c := iprop(∃ r, prngReg c r)
  Y c := iprop(∃ r, prngReg c r)
  Z c := Pipeline.unscopedRest (Ix := Unit) (Name := ℕ) (U := UR sig nD τ) (Lvl := ℕ) spec1 c (entry3 m ρ c)
  hentry c := by
    rw [Pipeline.ownSems0_none]
    have hsplit := Pipeline.arrays_of_unscopedBufs (p := 1) (pcfgs (F := F)) kadm (kdat m ρ) launch1.win launch1.arr_whole c
      ((kdat m ρ 1 c).share_full fun _ => rfl) (entry3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (inv_outR1 (entry3 m ρ) c (Fin.last _) (by rw [Fin.val_last]; have : cfg1.N = 64 := N_1; omega)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) kadm (Ix := Unit) (Name := ℕ) (U := UR sig nD τ) (Lvl := ℕ)
      launch1.win launch1.arr_whole c (kdat m ρ) ((kdat m ρ 1 c).share_full fun _ => rfl)
      (entry3 m ρ c) (exit4 m ρ c) ((kdat m ρ 1 c).arrAt · cfg1.N) (hfinal1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev items : List (Pipeline.Seg (pcfgs (F := F)) kadm (kdat m ρ) () defs₀ 𝒱none Lnone lvnone) :=
  [ .host (hostItem hostOps0 hostOps0_sub hostOps0_fresh (bufs0 m ρ)),
    .region (call0 m ρ),
    .host (hostItem hostOps1 hostOps1_sub hostOps1_fresh (bufs2 m ρ)),
    .region (call1 m ρ),
    .host (hostItem hostOps2 hostOps2_sub hostOps2_fresh (bufs4 m ρ)) ]
theorem main_items (c : Dev nD) : main (F := F) c = Pipeline.Seg.run (items m ρ) := (main_chain c).trans (by chain_rfl)

set_option backward.isDefEq.respectTransparency.types false in
/-- Every weakly fair execution of @main from memory `m` with zero counters terminates, nothing faulting, and in every
    final state every unscoped buffer of every core holds the end contents `bufs5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bufs5 m ρ c b) :=
  Pipeline.θ_run_regions_kit (pcfgs (F := F)) kadm (kdat m ρ) () cellOf_inj emb₁ defs₀ 𝒱none Lnone lvnone m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m ρ c) ∗ rides c)) (Tₙ := endState m ρ)
    (hch := ⟨fun _ => .rfl, fun _ => .rfl, fun _ => .rfl, fun _ => .rfl, fun _ => .rfl, fun c => by
      show iprop(StableHlo.held (c : Thread nD τ) (Pipeline.ucRefs τ sig) (bufs5 m ρ c) ∗ rides c) ⊢ _
      iintro ⟨Hh, Hp, HO⟩
      isplitl [Hh Hp]
      · isplitl [Hh]; · iexact Hh
        iexact Hp
      iexact HO⟩)
    (hinit := by
      refine Pipeline.initEach Lnone lvnone fun c => ?_
      rw [show unscopedBufs c (fun b => m ((c : Thread nD τ).loc b)) = StableHlo.held (c : Thread nD τ) (Pipeline.ucRefs τ sig) (bufs0 m ρ c)
        from Pipeline.unscopedBufs_held c (bufs0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs5 m ρ c b)
    (hfin := fun c s' => by
      iintro ⟨⟨Hh, -⟩, HSI⟩
      unfold StableHlo.held
      imodintro
      iapply (pointsTo_read_all (Pipeline.ucRefs τ sig) (fun b => (((c : Thread nD τ)).1, b)) (bufs5 m ρ c) s')
      isplitl [Hh] <;> iassumption)
    (hQ := fun s h c => h c)

/-- The frame: both argument arrays end as launched. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_ucRefs main_arg0 (by decide))).trans (bufs5_main_arg0 m ρ c),
     (h c _ (mem_ucRefs main_arg1 (by decide))).trans (bufs5_main_arg1 m ρ c)⟩) (run_all m ρ)

end Cert.Kernel.Fr

end
-- ==== Proof.KernelIdeal.Base0.lean ====
/-
  Region 0 (the first nearest-point call), what every later module of the region is stated over.

  The grid is 16 × 4: point t has row tile t / 4 and column tile t % 4. The two query windows (their blocks
  [8, 256, 1]) move with the row tile, the two database windows (blocks [8, 1, 1024]) with the column tile, the
  result window (block [8, 256]) with the row tile; a scratch [8, 256] holds the running minimum of a row tile.
  The body resets the scratch to +∞ at column tile 0, lowers it by the tile's minimum at every point, and stores
  its square root into the result block at column tile 3. So the result window is idle except at the points
  t % 4 = 3, which are also the only points where its block is written back.
-/
import proofs.«100872_j40888088658143_1_alg».proof.Proof.Gen.KernelIdeal.Launch
import proofs.«100872_j40888088658143_1_alg».proof.Proof.Gen.KernelIdeal.Skeleton
import proofs.«100872_j40888088658143_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement of the region is made at this parameter
variable (V : (c : Dev nD) → (b : Ref sig .tc) → Buf (Elt F) ((c : Thread nD τ).loc b))

/-! ## The windows' blocks -/

/-- Window `w`'s block at point `t`, read off its array as the region finds it. -/
def blkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetches it or not (a point
    that does not fetch has the same block index as the one before it). -/
theorem inBufR0_0 {c : Dev nD} (dat : Dat τ (Elt F) Unit ℕ (UR sig nD τ) ℕ cfg0 c) (hA : dat.A 0 = V c (Pipeline.arrRef spec0 0))
    (hafter : ∀ t, dat.after 0 t = blkR0 V c 0 t) (t : Fin cfg0.N) (d) : dat.before 0 t d = blkR0 V c 0 t :=
  (dat.before_in_eq_fetched 0 rfl (fun _ => rfl) (fun _ _ _ => rfl) (fun t => by rw [hafter]; unfold Dat.blockOf blkR0; rw [hA]; try rfl) t d).trans
    (by unfold Dat.fetched Dat.blockOf blkR0; rw [hA]; try rfl)
theorem inBufR0_1 {c : Dev nD} (dat : Dat τ (Elt F) Unit ℕ (UR sig nD τ) ℕ cfg0 c) (hA : dat.A 1 = V c (Pipeline.arrRef spec0 1))
    (hafter : ∀ t, dat.after 1 t = blkR0 V c 1 t) (t : Fin cfg0.N) (d) : dat.before 1 t d = blkR0 V c 1 t :=
  (dat.before_in_eq_fetched 1 rfl (fun _ => rfl) (fun _ _ _ => rfl) (fun t => by rw [hafter]; unfold Dat.blockOf blkR0; rw [hA]; try rfl) t d).trans
    (by unfold Dat.fetched Dat.blockOf blkR0; rw [hA]; try rfl)
theorem inBufR0_2 {c : Dev nD} (dat : Dat τ (Elt F) Unit ℕ (UR sig nD τ) ℕ cfg0 c) (hA : dat.A 2 = V c (Pipeline.arrRef spec0 2))
    (hafter : ∀ t, dat.after 2 t = blkR0 V c 2 t) (t : Fin cfg0.N) (d) : dat.before 2 t d = blkR0 V c 2 t :=
  (dat.before_in_eq_fetched 2 rfl (fun _ => rfl) (fun _ _ _ => rfl) (fun t => by rw [hafter]; unfold Dat.blockOf blkR0; rw [hA]; try rfl) t d).trans
    (by unfold Dat.fetched Dat.blockOf blkR0; rw [hA]; try rfl)
theorem inBufR0_3 {c : Dev nD} (dat : Dat τ (Elt F) Unit ℕ (UR sig nD τ) ℕ cfg0 c) (hA : dat.A 3 = V c (Pipeline.arrRef spec0 3))
    (hafter : ∀ t, dat.after 3 t = blkR0 V c 3 t) (t : Fin cfg0.N) (d) : dat.before 3 t d = blkR0 V c 3 t :=
  (dat.before_in_eq_fetched 3 rfl (fun _ => rfl) (fun _ _ _ => rfl) (fun t => by rw [hafter]; unfold Dat.blockOf blkR0; rw [hA]; try rfl) t d).trans
    (by unfold Dat.fetched Dat.blockOf blkR0; rw [hA]; try rfl)

/-! ## The body's two branches, decided over the grid -/

/-- "This is column tile 0": the body resets the running minimum. -/
abbrev firstR0 (i : grid0.Coords) : Prop := (Scalar.cmpi .ne (Scalar.extui (Scalar.cmpi .eq (BitVec.ofNat 32 (i 1).val) 0#32)) 0#32) = 1#1
theorem first_iffR0 : ∀ t : Fin cfg0.N, firstR0 (grid0.coords t) ↔ t.val % 4 = 0 :=
  (by decide +kernel : ∀ t : Fin grid0.N, firstR0 (grid0.coords t) ↔ t.val % 4 = 0)

/-- "This is column tile 3": the body stores the square root of the running minimum into the result block. -/
abbrev lastR0 (i : grid0.Coords) : Prop := k0_cond2 i = 1#1
theorem last_iffR0 : ∀ t : Fin cfg0.N, lastR0 (grid0.coords t) ↔ t.val % 4 = 3 :=
  (by decide +kernel : ∀ t : Fin grid0.N, lastR0 (grid0.coords t) ↔ t.val % 4 = 3)

/-! ## Where the windows are idle -/

theorem liveR0_0 : ∀ t : Fin cfg0.N, cfg0.idle 0 (grid0.coords t) = false := by decide +kernel
theorem liveR0_1 : ∀ t : Fin cfg0.N, cfg0.idle 1 (grid0.coords t) = false := by decide +kernel
theorem liveR0_2 : ∀ t : Fin cfg0.N, cfg0.idle 2 (grid0.coords t) = false := by decide +kernel
theorem liveR0_3 : ∀ t : Fin cfg0.N, cfg0.idle 3 (grid0.coords t) = false := by decide +kernel
/-- Away from column tile 3 the result window is idle and its block is not written back. -/
theorem idleR0_4 : ∀ t : Fin cfg0.N, ¬lastR0 (grid0.coords t) → cfg0.idle 4 (grid0.coords t) = true := by decide +kernel
theorem noFlushR0_4 : ∀ t : Fin cfg0.N, ¬lastR0 (grid0.coords t) → (cfg0.win 4).flush t = false := by decide +kernel
/-- At column tile 3 it is live. -/
theorem liveR0_4 : ∀ t : Fin cfg0.N, lastR0 (grid0.coords t) → cfg0.idle 4 (grid0.coords t) = false := by decide +kernel

/-! ## The memrefs the body is called with -/

abbrev mR0_0 (t : Fin cfg0.N) : Memref sig .tc .vmem S8x256x1 .f32 := win0_0.stage (cfg0.slots t 0)
abbrev hR0_0 (t : Fin cfg0.N) : (mR0_0 t).IsWhole := hstage0_0 ((cfg0.slots t 0).cast nbuf0_0)
abbrev mR0_1 (t : Fin cfg0.N) : Memref sig .tc .vmem S8x256x1 .f32 := win0_1.stage (cfg0.slots t 1)
abbrev hR0_1 (t : Fin cfg0.N) : (mR0_1 t).IsWhole := hstage0_1 ((cfg0.slots t 1).cast nbuf0_1)
abbrev mR0_2 (t : Fin cfg0.N) : Memref sig .tc .vmem S8x1x1024 .f32 := win0_2.stage (cfg0.slots t 2)
abbrev hR0_2 (t : Fin cfg0.N) : (mR0_2 t).IsWhole := hstage0_2 ((cfg0.slots t 2).cast nbuf0_2)
abbrev mR0_3 (t : Fin cfg0.N) : Memref sig .tc .vmem S8x1x1024 .f32 := win0_3.stage (cfg0.slots t 3)
abbrev hR0_3 (t : Fin cfg0.N) : (mR0_3 t).IsWhole := hstage0_3 ((cfg0.slots t 3).cast nbuf0_3)
abbrev mR0_4 (t : Fin cfg0.N) : Memref sig .tc .vmem S8x256 .f32 := win0_4.stage (cfg0.slots t 4)
abbrev hR0_4 (t : Fin cfg0.N) : (mR0_4 t).IsWhole := hstage0_4 ((cfg0.slots t 4).cast nbuf0_4)
/-- The scratch that holds the running minimum, and the view its contents are stated through. -/
abbrev accMR0 : Memref sig .tc .vmem S8x256 .f32 := Memref.whole cc0_scratch0
abbrev accVR0 : View sig .tc .vmem S8x256 .f32 := accMR0.view
/-- One staging buffer of the result window, through which its contents are stated. -/
abbrev outVR0 : View sig .tc .vmem S8x256 .f32 := (Memref.whole cc0_stg4_0 : Memref sig .tc .vmem S8x256 .f32).view

/-- The scoped buffers the region never names: the other call's staging buffers and scratch. -/
abbrev othersR0 (c : Dev nD) : sProp 𝕄 :=
  Pipeline.scopedRestBut (Ix := Unit) (Name := ℕ) (U := UR sig nD τ) (Lvl := ℕ) (Val := Elt F) spec0 c [cc0_scratch0]

/-- What a region is handed besides its windows: its own scratch at some contents, the scoped buffers it never
    names, the generator register at some state. -/
theorem classInvR0 (c : Dev nD) :
    (Pipeline.ΦA spec0 c : sProp 𝕄)
      = iprop(iprop((∃ d, owns (c : Thread nD τ) accMR0 fullShare d) ∗ othersR0 c) ∗ (∃ r, prngReg c r)) := by
  unfold Pipeline.ΦA
  rw [Pipeline.scopedRest_split_of_list spec0 c [cc0_scratch0] (by decide) (by decide)]
  simp only [accMR0, owns_whole]
  rfl

end Cert.KernelIdeal.Fr

end
-- ==== Proof.KernelIdeal.RunA0.lean ====
/-
  Region 0: the body run whole at a point of column tile 0 (the running minimum is reset, then lowered; the result block is not touched).
  The stores it makes are found by the run itself and kept as a list of pieces (last store first); what the
  buffers then hold is read off that list in the module that states the region's data.
-/
import proofs.«100872_j40888088658143_1_alg».proof.Proof.KernelIdeal.Base0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tile 0: on whole memrefs, the four input blocks at their contents, the result buffer at contents it hands
    back untouched, the scratch at anything, the body runs to its end leaving the inputs as they were and the scratch
    with the pieces `LS` written. -/
noncomputable def runA_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR0 i) (hc1 : ¬lastR0 i)
    (x0 : Vec F S8x256x1 .f32) (x1 : Vec F S8x256x1 .f32) (x2 : Vec F S8x1x1024 .f32) (x3 : Vec F S8x1x1024 .f32) :
    { LS : List (View.Piece (Elt F) S8x256 .f32) //
      ∀ (xo : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__nearest_min_sqdist_kernel i arg2 harg2 arg3 harg3 arg4 harg4 arg5 harg5 arg6 harg6 arg7 harg7) K } := by
  refine ⟨?_, fun xo E K => ?run⟩
  case run =>
    simp only [cc0__nearest_min_sqdist_kernel_eq_skeleton]; unfold cc0__nearest_min_sqdist_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Fr

end
-- ==== Proof.KernelIdeal.RunB0.lean ====
/-
  Region 0: the body run whole at a point of column tile 1 or 2 (the running minimum is lowered; the result block is not touched).
  The stores it makes are found by the run itself and kept as a list of pieces (last store first); what the
  buffers then hold is read off that list in the module that states the region's data.
-/
import proofs.«100872_j40888088658143_1_alg».proof.Proof.KernelIdeal.RunA0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tiles 1 and 2: on whole memrefs, the four input blocks at their contents, the result buffer at contents it
    hands back untouched, the scratch at the running minimum `xs` the point before left, the body runs to its end
    leaving the inputs as they were and the scratch with the pieces `LS` written. -/
noncomputable def runB_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : ¬lastR0 i)
    (x0 : Vec F S8x256x1 .f32) (x1 : Vec F S8x256x1 .f32) (x2 : Vec F S8x1x1024 .f32) (x3 : Vec F S8x1x1024 .f32) (xs : Vec F S8x256 .f32) :
    { LS : List (View.Piece (Elt F) S8x256 .f32) //
      ∀ (xo : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc0__nearest_min_sqdist_kernel i arg2 harg2 arg3 harg3 arg4 harg4 arg5 harg5 arg6 harg6 arg7 harg7) K } := by
  refine ⟨?_, fun xo E K => ?run⟩
  case run =>
    simp only [cc0__nearest_min_sqdist_kernel_eq_skeleton]; unfold cc0__nearest_min_sqdist_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Fr

end
-- ==== Proof.KernelIdeal.RunC0.lean ====
/-
  Region 0: the body run whole at a point of column tile 3 (the running minimum is lowered a last time and its square root stored into the result block).
  The stores it makes are found by the run itself and kept as a list of pieces (last store first); what the
  buffers then hold is read off that list in the module that states the region's data.
-/
import proofs.«100872_j40888088658143_1_alg».proof.Proof.KernelIdeal.RunB0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tile 3: on whole memrefs, the four input blocks at their contents, the result buffer at anything, the
    scratch at the running minimum `xs` the point before left, the body runs to its end leaving the inputs as they
    were, the result buffer with the pieces `LO` written and the scratch with the pieces `LS` written. -/
noncomputable def runC_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) :
    Σ' (LO : List (View.Piece (Elt F) S8x256 .f32)), { LS : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc0__nearest_min_sqdist_kernel i arg2 harg2 arg3 harg3 arg4 harg4 arg5 harg5 arg6 harg6 arg7 harg7) K } := by
  refine ⟨?_, ?_, fun E K => ?run⟩
  case run =>
    simp only [cc0__nearest_min_sqdist_kernel_eq_skeleton]; unfold cc0__nearest_min_sqdist_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Fr

end
-- ==== Proof.KernelIdeal.Region0.lean ====
/-
  Region 0: what its buffers hold point by point, its invariant, its proof data and the body obligation.

  After point t the scratch holds the running minimum of row tile t / 4 over the column tiles 0 … t % 4: at column
  tile 0 the body's stores over a reset scratch, at a later tile the body's stores over what the point before left.
  At column tile 3 the result buffer holds what the body stored there, computed from the same running minimum; at
  the other points the result window is idle, its buffer handed back as found and not written back, and nothing
  consults what the data say of it there.
  The invariant before point 0 is the class's (every scoped buffer the region does not stage at anything, the
  generator register at some state); after point n it names the scratch's contents and leaves the rest as it was.
-/
import proofs.«100872_j40888088658143_1_alg».proof.Proof.KernelIdeal.RunC0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its stores -/

theorem scoverA_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR0 i) (hc1 : ¬lastR0 i)
    (x0 : Vec F S8x256x1 .f32) (x1 : Vec F S8x256x1 .f32) (x2 : Vec F S8x1x1024 .f32) (x3 : Vec F S8x1x1024 .f32) (y : S8x256.Idx) :
    ∃ pc ∈ (runA_R0 c i arg2 harg2 arg3 harg3 arg4 harg4 arg5 harg5 arg6 harg6 arg7 harg7 hc0 hc1 x0 x1 x2 x3).1, y ∈ pc.1.set :=
  View.cover_of_tiledL (runA_R0 c i arg2 harg2 arg3 harg3 arg4 harg4 arg5 harg5 arg6 harg6 arg7 harg7 hc0 hc1 x0 x1 x2 x3).1 S8x256.size (by sl_kernel_rfl) y
/-- The running minimum after a point of column tile 0. -/
def accA_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR0 i) (hc1 : ¬lastR0 i)
    (x0 : Vec F S8x256x1 .f32) (x1 : Vec F S8x256x1 .f32) (x2 : Vec F S8x1x1024 .f32) (x3 : Vec F S8x1x1024 .f32) : Vec F S8x256 .f32 :=
  accVR0.read (Elt F) (accVR0.writes (Elt F) accVR0.junk (runA_R0 c i arg2 harg2 arg3 harg3 arg4 harg4 arg5 harg5 arg6 harg6 arg7 harg7 hc0 hc1 x0 x1 x2 x3).1)

theorem scoverB_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : ¬lastR0 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runB_R0 c i arg2 harg2 arg3 harg3 arg4 harg4 arg5 harg5 arg6 harg6 arg7 harg7 hc0 hc1 x0 x1 x2 x3 xs).1, y ∈ pc.1.set :=
  View.cover_of_tiledL (runB_R0 c i arg2 harg2 arg3 harg3 arg4 harg4 arg5 harg5 arg6 harg6 arg7 harg7 hc0 hc1 x0 x1 x2 x3 xs).1 S8x256.size (by sl_kernel_rfl) y
/-- The running minimum after a point of column tile 1 or 2, over what the point before left. -/
def accB_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : ¬lastR0 i)
    (x0 : Vec F S8x256x1 .f32) (x1 : Vec F S8x256x1 .f32) (x2 : Vec F S8x1x1024 .f32) (x3 : Vec F S8x1x1024 .f32) (xs : Vec F S8x256 .f32) : Vec F S8x256 .f32 :=
  accVR0.read (Elt F) (accVR0.writes (Elt F) accVR0.junk (runB_R0 c i arg2 harg2 arg3 harg3 arg4 harg4 arg5 harg5 arg6 harg6 arg7 harg7 hc0 hc1 x0 x1 x2 x3 xs).1)

theorem scoverC_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runC_R0 c i arg2 harg2 arg3 harg3 arg4 harg4 arg5 harg5 arg6 harg6 arg7 harg7 hc0 hc1 x0 x1 x2 x3 xs).2.1, y ∈ pc.1.set :=
  View.cover_of_tiledL (runC_R0 c i arg2 harg2 arg3 harg3 arg4 harg4 arg5 harg5 arg6 harg6 arg7 harg7 hc0 hc1 x0 x1 x2 x3 xs).2.1 S8x256.size (by sl_kernel_rfl) y
/-- The running minimum after a point of column tile 3, over what the point before left. -/
def accC_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) : Vec F S8x256 .f32 :=
  accVR0.read (Elt F) (accVR0.writes (Elt F) accVR0.junk (runC_R0 c i arg2 harg2 arg3 harg3 arg4 harg4 arg5 harg5 arg6 harg6 arg7 harg7 hc0 hc1 x0 x1 x2 x3 xs).2.1)
theorem ocoverC_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runC_R0 c i arg2 harg2 arg3 harg3 arg4 harg4 arg5 harg5 arg6 harg6 arg7 harg7 hc0 hc1 x0 x1 x2 x3 xs).1, y ∈ pc.1.set :=
  View.cover_of_tiledL (runC_R0 c i arg2 harg2 arg3 harg3 arg4 harg4 arg5 harg5 arg6 harg6 arg7 harg7 hc0 hc1 x0 x1 x2 x3 xs).1 S8x256.size (by sl_kernel_rfl) y
/-- The result block a point of column tile 3 stores. -/
def outC_R0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) : Vec F S8x256 .f32 :=
  outVR0.read (Elt F) (outVR0.writes (Elt F) outVR0.junk (runC_R0 c i arg2 harg2 arg3 harg3 arg4 harg4 arg5 harg5 arg6 harg6 arg7 harg7 hc0 hc1 x0 x1 x2 x3 xs).1)

/-! ## Point by point -/

/-- The running minimum the scratch holds after the body at position `n`. -/
def accAtR0 (c : Dev nD) : (n : ℕ) → n < cfg0.N → Vec F S8x256 .f32
  | 0, hn => accA_R0 c (grid0.coords ⟨0, hn⟩) (mR0_0 ⟨0, hn⟩) (hR0_0 ⟨0, hn⟩) (mR0_1 ⟨0, hn⟩) (hR0_1 ⟨0, hn⟩) (mR0_2 ⟨0, hn⟩) (hR0_2 ⟨0, hn⟩) (mR0_3 ⟨0, hn⟩) (hR0_3 ⟨0, hn⟩) (mR0_4 ⟨0, hn⟩) (hR0_4 ⟨0, hn⟩) accMR0 (Memref.isWhole_whole _) ((first_iffR0 ⟨0, hn⟩).mpr (Nat.zero_mod _)) (fun h => (fun h => by (try dsimp only at h); omega) ((last_iffR0 ⟨0, hn⟩).mp h)) (blkR0 V c 0 ⟨0, hn⟩) (blkR0 V c 1 ⟨0, hn⟩) (blkR0 V c 2 ⟨0, hn⟩) (blkR0 V c 3 ⟨0, hn⟩)
  | n + 1, hn =>
    if h0 : (n + 1) % 4 = 0 then
      if h1 : (n + 1) % 4 = 3 then False.elim (by omega)
      else accA_R0 c (grid0.coords ⟨n + 1, hn⟩) (mR0_0 ⟨n + 1, hn⟩) (hR0_0 ⟨n + 1, hn⟩) (mR0_1 ⟨n + 1, hn⟩) (hR0_1 ⟨n + 1, hn⟩) (mR0_2 ⟨n + 1, hn⟩) (hR0_2 ⟨n + 1, hn⟩) (mR0_3 ⟨n + 1, hn⟩) (hR0_3 ⟨n + 1, hn⟩) (mR0_4 ⟨n + 1, hn⟩) (hR0_4 ⟨n + 1, hn⟩) accMR0 (Memref.isWhole_whole _) ((first_iffR0 ⟨n + 1, hn⟩).mpr h0) (fun h => h1 ((last_iffR0 ⟨n + 1, hn⟩).mp h)) (blkR0 V c 0 ⟨n + 1, hn⟩) (blkR0 V c 1 ⟨n + 1, hn⟩) (blkR0 V c 2 ⟨n + 1, hn⟩) (blkR0 V c 3 ⟨n + 1, hn⟩)
    else
      if h1 : (n + 1) % 4 = 3 then
        accC_R0 c (grid0.coords ⟨n + 1, hn⟩) (mR0_0 ⟨n + 1, hn⟩) (hR0_0 ⟨n + 1, hn⟩) (mR0_1 ⟨n + 1, hn⟩) (hR0_1 ⟨n + 1, hn⟩) (mR0_2 ⟨n + 1, hn⟩) (hR0_2 ⟨n + 1, hn⟩) (mR0_3 ⟨n + 1, hn⟩) (hR0_3 ⟨n + 1, hn⟩) (mR0_4 ⟨n + 1, hn⟩) (hR0_4 ⟨n + 1, hn⟩) accMR0 (Memref.isWhole_whole _) (fun h => h0 ((first_iffR0 ⟨n + 1, hn⟩).mp h)) ((last_iffR0 ⟨n + 1, hn⟩).mpr h1) (blkR0 V c 0 ⟨n + 1, hn⟩) (blkR0 V c 1 ⟨n + 1, hn⟩) (blkR0 V c 2 ⟨n + 1, hn⟩) (blkR0 V c 3 ⟨n + 1, hn⟩) (accAtR0 c n (Nat.lt_of_succ_lt hn))
      else
        accB_R0 c (grid0.coords ⟨n + 1, hn⟩) (mR0_0 ⟨n + 1, hn⟩) (hR0_0 ⟨n + 1, hn⟩) (mR0_1 ⟨n + 1, hn⟩) (hR0_1 ⟨n + 1, hn⟩) (mR0_2 ⟨n + 1, hn⟩) (hR0_2 ⟨n + 1, hn⟩) (mR0_3 ⟨n + 1, hn⟩) (hR0_3 ⟨n + 1, hn⟩) (mR0_4 ⟨n + 1, hn⟩) (hR0_4 ⟨n + 1, hn⟩) accMR0 (Memref.isWhole_whole _) (fun h => h0 ((first_iffR0 ⟨n + 1, hn⟩).mp h)) (fun h => h1 ((last_iffR0 ⟨n + 1, hn⟩).mp h)) (blkR0 V c 0 ⟨n + 1, hn⟩) (blkR0 V c 1 ⟨n + 1, hn⟩) (blkR0 V c 2 ⟨n + 1, hn⟩) (blkR0 V c 3 ⟨n + 1, hn⟩) (accAtR0 c n (Nat.lt_of_succ_lt hn))

theorem accAtR0_A (c : Dev nD) (t : Fin cfg0.N) (h0 : t.val % 4 = 0) (h1 : ¬t.val % 4 = 3) :
    accAtR0 V c t.val t.isLt = accA_R0 c (grid0.coords t) (mR0_0 t) (hR0_0 t) (mR0_1 t) (hR0_1 t) (mR0_2 t) (hR0_2 t) (mR0_3 t) (hR0_3 t) (mR0_4 t) (hR0_4 t) accMR0 (Memref.isWhole_whole _) ((first_iffR0 t).mpr h0) (fun h => h1 ((last_iffR0 t).mp h)) (blkR0 V c 0 t) (blkR0 V c 1 t) (blkR0 V c 2 t) (blkR0 V c 3 t) := by
  obtain ⟨n, hn⟩ := t
  cases n with
  | zero => exact rfl
  | succ n => exact (dif_pos h0).trans ((dif_neg h1).trans rfl)

theorem accAtR0_B (c : Dev nD) (t : Fin cfg0.N) (h0 : ¬t.val % 4 = 0) (h1 : ¬t.val % 4 = 3) :
    accAtR0 V c t.val t.isLt = accB_R0 c (grid0.coords t) (mR0_0 t) (hR0_0 t) (mR0_1 t) (hR0_1 t) (mR0_2 t) (hR0_2 t) (mR0_3 t) (hR0_3 t) (mR0_4 t) (hR0_4 t) accMR0 (Memref.isWhole_whole _) (fun h => h0 ((first_iffR0 t).mp h)) (fun h => h1 ((last_iffR0 t).mp h)) (blkR0 V c 0 t) (blkR0 V c 1 t) (blkR0 V c 2 t) (blkR0 V c 3 t) (accAtR0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAtR0_C (c : Dev nD) (t : Fin cfg0.N) (h0 : ¬t.val % 4 = 0) (h1 : t.val % 4 = 3) :
    accAtR0 V c t.val t.isLt = accC_R0 c (grid0.coords t) (mR0_0 t) (hR0_0 t) (mR0_1 t) (hR0_1 t) (mR0_2 t) (hR0_2 t) (mR0_3 t) (hR0_3 t) (mR0_4 t) (hR0_4 t) accMR0 (Memref.isWhole_whole _) (fun h => h0 ((first_iffR0 t).mp h)) ((last_iffR0 t).mpr h1) (blkR0 V c 0 t) (blkR0 V c 1 t) (blkR0 V c 2 t) (blkR0 V c 3 t) (accAtR0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result window's buffer holds after the body at point `t`: at column tile 3 the block the body stored; elsewhere
    the window is idle and this value is consulted by nothing. -/
def outAtR0 (c : Dev nD) (t : Fin cfg0.N) : Vec F S8x256 .f32 :=
  if h1 : t.val % 4 = 3 then
    outC_R0 c (grid0.coords t) (mR0_0 t) (hR0_0 t) (mR0_1 t) (hR0_1 t) (mR0_2 t) (hR0_2 t) (mR0_3 t) (hR0_3 t) (mR0_4 t) (hR0_4 t) accMR0 (Memref.isWhole_whole _) (fun h => (by omega : ¬t.val % 4 = 0) ((first_iffR0 t).mp h)) ((last_iffR0 t).mpr h1) (blkR0 V c 0 t) (blkR0 V c 1 t) (blkR0 V c 2 t) (blkR0 V c 3 t) (accAtR0 V c (t.val - 1) (Nat.lt_of_le_of_lt (Nat.sub_le _ _) t.isLt))
  else outVR0.read (Elt F) outVR0.junk

theorem outAtR0_C (c : Dev nD) (t : Fin cfg0.N) (h0 : ¬t.val % 4 = 0) (h1 : t.val % 4 = 3) :
    outAtR0 V c t = outC_R0 c (grid0.coords t) (mR0_0 t) (hR0_0 t) (mR0_1 t) (hR0_1 t) (mR0_2 t) (hR0_2 t) (mR0_3 t) (hR0_3 t) (mR0_4 t) (hR0_4 t) accMR0 (Memref.isWhole_whole _) (fun h => h0 ((first_iffR0 t).mp h)) ((last_iffR0 t).mpr h1) (blkR0 V c 0 t) (blkR0 V c 1 t) (blkR0 V c 2 t) (blkR0 V c 3 t) (accAtR0 V c (t.val - 1) (Nat.lt_of_le_of_lt (Nat.sub_le _ _) t.isLt)) := by
  unfold outAtR0; rw [dif_pos h1]

/-! ## The invariant -/

/-- Before position `n`: at the start what the launch hands the region; afterwards the scratch at the running minimum the
    point before left, the scoped buffers the region never names, the generator register at some state. -/
def invR0 (c : Dev nD) : (n : ℕ) → n ≤ cfg0.N → sProp 𝕄
  | 0, _ => Pipeline.ΦA spec0 c
  | n + 1, hn => iprop(iprop(owns (c : Thread nD τ) accMR0 fullShare (accAtR0 V c n hn) ∗ othersR0 c) ∗ (∃ r, prngReg c r))

theorem invR0_zero (c : Dev nD) (n : ℕ) (h : n ≤ cfg0.N) (hz : n = 0) : invR0 V c n h = Pipeline.ΦA spec0 c := by
  subst hz; rfl
theorem invR0_succ (c : Dev nD) (n : ℕ) (hn : n < cfg0.N) :
    invR0 V c (n + 1) hn = iprop(iprop(owns (c : Thread nD τ) accMR0 fullShare (accAtR0 V c n hn) ∗ othersR0 c) ∗ (∃ r, prngReg c r)) := rfl
theorem invR0_pos (c : Dev nD) (n : ℕ) (h : n ≤ cfg0.N) (hz : n ≠ 0) :
    invR0 V c n h = iprop(iprop(owns (c : Thread nD τ) accMR0 fullShare (accAtR0 V c (n - 1) (by omega)) ∗ othersR0 c) ∗ (∃ r, prngReg c r)) := by
  cases n with
  | zero => exact absurd rfl hz
  | succ n => rfl

/-! ## The proof data -/

def datR0 (c : Dev nD) : Dat τ (Elt F) Unit ℕ (UR sig nD τ) ℕ cfg0 c where
  A w := V c (Pipeline.arrRef spec0 w)
  after w t := match w with
    | ⟨0, _⟩ => blkR0 V c 0 t
    | ⟨1, _⟩ => blkR0 V c 1 t
    | ⟨2, _⟩ => blkR0 V c 2 t
    | ⟨3, _⟩ => blkR0 V c 3 t
    | ⟨4, _⟩ => outAtR0 V c t
  Φ t := invR0 V c t.val (Nat.le_of_lt_succ t.isLt)
  q _ := fullShare
  owed _ := 0

theorem datR0_A (c : Dev nD) (w : Fin cfg0.W) : (datR0 V c).A w = V c (Pipeline.arrRef spec0 w) := by
  dsimp only [datR0]
theorem invR0_castSucc (c : Dev nD) (t : Fin cfg0.N) :
    (datR0 V c).Φ t.castSucc = invR0 V c t.val (Nat.le_of_lt t.isLt) := by
  dsimp only [datR0]; simp only [Fin.coe_castSucc]
theorem afterR0_0 (c : Dev nD) (t : Fin cfg0.N) : (datR0 V c).after 0 t = blkR0 V c 0 t := by dsimp only [datR0]
theorem afterR0_1 (c : Dev nD) (t : Fin cfg0.N) : (datR0 V c).after 1 t = blkR0 V c 1 t := by dsimp only [datR0]
theorem afterR0_2 (c : Dev nD) (t : Fin cfg0.N) : (datR0 V c).after 2 t = blkR0 V c 2 t := by dsimp only [datR0]
theorem afterR0_3 (c : Dev nD) (t : Fin cfg0.N) : (datR0 V c).after 3 t = blkR0 V c 3 t := by dsimp only [datR0]
theorem afterR0_4 (c : Dev nD) (t : Fin cfg0.N) : (datR0 V c).after 4 t = outAtR0 V c t := by dsimp only [datR0]

theorem beforeR0_0 (c : Dev nD) (t : Fin cfg0.N) (d) : (datR0 V c).before 0 t d = blkR0 V c 0 t :=
  inBufR0_0 V (datR0 V c) (datR0_A V c 0) (afterR0_0 V c) t d
theorem beforeR0_1 (c : Dev nD) (t : Fin cfg0.N) (d) : (datR0 V c).before 1 t d = blkR0 V c 1 t :=
  inBufR0_1 V (datR0 V c) (datR0_A V c 1) (afterR0_1 V c) t d
theorem beforeR0_2 (c : Dev nD) (t : Fin cfg0.N) (d) : (datR0 V c).before 2 t d = blkR0 V c 2 t :=
  inBufR0_2 V (datR0 V c) (datR0_A V c 2) (afterR0_2 V c) t d
theorem beforeR0_3 (c : Dev nD) (t : Fin cfg0.N) (d) : (datR0 V c).before 3 t d = blkR0 V c 3 t :=
  inBufR0_3 V (datR0 V c) (datR0_A V c 3) (afterR0_3 V c) t d

/-! ## The body obligation -/

def bodyPreR0 (c : Dev nD) (t : Fin cfg0.N) : sProp 𝕄 :=
  iprop((datR0 V c).Φ t.castSucc ∗ (datR0 V c).owesAt () t.castSucc
    ∗ (∃ d, owns (c : Thread nD τ) (mR0_0 t) fullShare ((datR0 V c).before 0 t d))
    ∗ (∃ d, owns (c : Thread nD τ) (mR0_1 t) fullShare ((datR0 V c).before 1 t d))
    ∗ (∃ d, owns (c : Thread nD τ) (mR0_2 t) fullShare ((datR0 V c).before 2 t d))
    ∗ (∃ d, owns (c : Thread nD τ) (mR0_3 t) fullShare ((datR0 V c).before 3 t d))
    ∗ (∃ d, owns (c : Thread nD τ) (mR0_4 t) fullShare ((datR0 V c).before 4 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t
    ∗ (datR0 V c).leavesExact 3 t
    ∗ (datR0 V c).leavesExact 4 t)

theorem leavesR0_0 (c : Dev nD) (t : Fin cfg0.N) : (datR0 V c).leavesExact 0 t = owns (c : Thread nD τ) (mR0_0 t) fullShare (blkR0 V c 0 t) := by
  unfold Dat.leavesExact; rw [liveR0_0 t, afterR0_0]
theorem leavesR0_1 (c : Dev nD) (t : Fin cfg0.N) : (datR0 V c).leavesExact 1 t = owns (c : Thread nD τ) (mR0_1 t) fullShare (blkR0 V c 1 t) := by
  unfold Dat.leavesExact; rw [liveR0_1 t, afterR0_1]
theorem leavesR0_2 (c : Dev nD) (t : Fin cfg0.N) : (datR0 V c).leavesExact 2 t = owns (c : Thread nD τ) (mR0_2 t) fullShare (blkR0 V c 2 t) := by
  unfold Dat.leavesExact; rw [liveR0_2 t, afterR0_2]
theorem leavesR0_3 (c : Dev nD) (t : Fin cfg0.N) : (datR0 V c).leavesExact 3 t = owns (c : Thread nD τ) (mR0_3 t) fullShare (blkR0 V c 3 t) := by
  unfold Dat.leavesExact; rw [liveR0_3 t, afterR0_3]

set_option maxHeartbeats 4800000 in
/-- The body at any point. The input buffers hold their blocks; the column tile says which case the point is in; the
    invariant hands the body the scratch (at anything at the very first point, at what the point before left afterwards)
    and takes it back at this point's running minimum; the result buffer is handed back as found except at column tile 3,
    where it takes the stored block. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1, beforeR0_2, beforeR0_3]
  rw [show (datR0 V c).owesAt () t.succ = (datR0 V c).owesAt () t.castSucc from rfl]
  rw [show (datR0 V c).Φ t.succ = invR0 V c (t.val + 1) t.isLt from rfl, invR0_succ]
  rw [leavesR0_0, leavesR0_1, leavesR0_2, leavesR0_3]
  have hN : t.val < 64 := lt_of_lt_of_eq t.isLt (show cfg0.N = 64 from N_0)
  by_cases h0 : t.val % 4 = 0
  · have h1 : ¬t.val % 4 = 3 := by omega
    rw [Dat.leavesExact_idle (datR0 V c) 4 t (idleR0_4 t (fun h => h1 ((last_iffR0 t).mp h))) (noFlushR0_4 t (fun h => h1 ((last_iffR0 t).mp h)))]
    rw [accAtR0_A V c t h0 h1]
    unfold accA_R0; (try dsimp only)
    by_cases hz : t.val = 0
    · rw [invR0_castSucc V c t, invR0_zero V c _ _ hz, classInvR0]
      iintro ⟨⟨⟨HS, Hoth⟩, Hg⟩, Ho, ⟨%d0, H0⟩, ⟨%d1, H1⟩, ⟨%d2, H2⟩, ⟨%d3, H3⟩, ⟨%d4, H4⟩⟩
      iapply ((runA_R0 c (grid0.coords t) _ _ _ _ _ _ _ _ _ _ _ _ ((first_iffR0 t).mpr h0) (fun h => h1 ((last_iffR0 t).mp h)) (blkR0 V c 0 t) (blkR0 V c 1 t) (blkR0 V c 2 t) (blkR0 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverA_R0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [invR0_castSucc V c t, invR0_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runA_R0 c (grid0.coords t) _ _ _ _ _ _ _ _ _ _ _ _ ((first_iffR0 t).mpr h0) (fun h => h1 ((last_iffR0 t).mp h)) (blkR0 V c 0 t) (blkR0 V c 1 t) (blkR0 V c 2 t) (blkR0 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverA_R0 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (datR0 V c).leavesExact 4 t = owns (c : Thread nD τ) (mR0_4 t) fullShare ((datR0 V c).after 4 t) from by
        unfold Dat.leavesExact; rw [liveR0_4 t ((last_iffR0 t).mpr h1)], afterR0_4]
      rw [accAtR0_C V c t h0 h1, outAtR0_C V c t h0 h1]
      unfold outC_R0 accC_R0; (try dsimp only)
      rw [invR0_castSucc V c t, invR0_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runC_R0 c (grid0.coords t) _ _ _ _ _ _ _ _ _ _ _ _ (fun h => h0 ((first_iffR0 t).mp h)) ((last_iffR0 t).mpr h1) (blkR0 V c 0 t) (blkR0 V c 1 t) (blkR0 V c 2 t) (blkR0 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC_R0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocoverC_R0 c _ _ _ _ _ _ _ _ _ _ _ _ _ _ _ _ _ _ _ _)
    · rw [Dat.leavesExact_idle (datR0 V c) 4 t (idleR0_4 t (fun h => h1 ((last_iffR0 t).mp h))) (noFlushR0_4 t (fun h => h1 ((last_iffR0 t).mp h)))]
      rw [accAtR0_B V c t h0 h1]
      unfold accB_R0; (try dsimp only)
      rw [invR0_castSucc V c t, invR0_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runB_R0 c (grid0.coords t) _ _ _ _ _ _ _ _ _ _ _ _ (fun h => h0 ((first_iffR0 t).mp h)) (fun h => h1 ((last_iffR0 t).mp h)) (blkR0 V c 0 t) (blkR0 V c 1 t) (blkR0 V c 2 t) (blkR0 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverB_R0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem obligationR0 (c : Dev nD) : BodyObligation (datR0 (F := F) V c) (defs₀ (F := F)) Variants.none () Set.univ := fun t => by
  rw [bigSep_W0, bigSep_W0]
  exact sound_bodyR0 V c t

/-- After any point the invariant gives the class's back: the scratch's named contents are forgotten. -/
theorem inv_outR0 (c : Dev nD) (t : Fin (cfg0.N + 1)) (ht : t.val ≠ 0) : (datR0 V c).Φ t ⊢ Pipeline.ΦA spec0 c := by
  rw [show (datR0 V c).Φ t = invR0 V c t.val (Nat.le_of_lt_succ t.isLt) from rfl, invR0_pos V c _ _ ht, classInvR0]
  iintro ⟨⟨HS, Hoth⟩, Hg⟩
  isplitl [HS Hoth]
  · isplitl [HS]
    · iexists _; iexact HS
    iexact Hoth
  iexact Hg

end Cert.KernelIdeal.Fr

end
-- ==== Proof.KernelIdeal.Base1.lean ====
/-
  Region 1 (the second nearest-point call), what every later module of the region is stated over.

  The grid is 16 × 4: point t has row tile t / 4 and column tile t % 4. The two query windows (their blocks
  [8, 256, 1]) move with the row tile, the two database windows (blocks [8, 1, 1024]) with the column tile, the
  result window (block [8, 256]) with the row tile; a scratch [8, 256] holds the running minimum of a row tile.
  The body resets the scratch to +∞ at column tile 0, lowers it by the tile's minimum at every point, and stores
  its square root into the result block at column tile 3. So the result window is idle except at the points
  t % 4 = 3, which are also the only points where its block is written back.
-/
import proofs.«100872_j40888088658143_1_alg».proof.Proof.Gen.KernelIdeal.Launch
import proofs.«100872_j40888088658143_1_alg».proof.Proof.Gen.KernelIdeal.Skeleton
import proofs.«100872_j40888088658143_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement of the region is made at this parameter
variable (V : (c : Dev nD) → (b : Ref sig .tc) → Buf (Elt F) ((c : Thread nD τ).loc b))

/-! ## The windows' blocks -/

/-- Window `w`'s block at point `t`, read off its array as the region finds it. -/
def blkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the point fetches it or not (a point
    that does not fetch has the same block index as the one before it). -/
theorem inBufR1_0 {c : Dev nD} (dat : Dat τ (Elt F) Unit ℕ (UR sig nD τ) ℕ cfg1 c) (hA : dat.A 0 = V c (Pipeline.arrRef spec1 0))
    (hafter : ∀ t, dat.after 0 t = blkR1 V c 0 t) (t : Fin cfg1.N) (d) : dat.before 0 t d = blkR1 V c 0 t :=
  (dat.before_in_eq_fetched 0 rfl (fun _ => rfl) (fun _ _ _ => rfl) (fun t => by rw [hafter]; unfold Dat.blockOf blkR1; rw [hA]; try rfl) t d).trans
    (by unfold Dat.fetched Dat.blockOf blkR1; rw [hA]; try rfl)
theorem inBufR1_1 {c : Dev nD} (dat : Dat τ (Elt F) Unit ℕ (UR sig nD τ) ℕ cfg1 c) (hA : dat.A 1 = V c (Pipeline.arrRef spec1 1))
    (hafter : ∀ t, dat.after 1 t = blkR1 V c 1 t) (t : Fin cfg1.N) (d) : dat.before 1 t d = blkR1 V c 1 t :=
  (dat.before_in_eq_fetched 1 rfl (fun _ => rfl) (fun _ _ _ => rfl) (fun t => by rw [hafter]; unfold Dat.blockOf blkR1; rw [hA]; try rfl) t d).trans
    (by unfold Dat.fetched Dat.blockOf blkR1; rw [hA]; try rfl)
theorem inBufR1_2 {c : Dev nD} (dat : Dat τ (Elt F) Unit ℕ (UR sig nD τ) ℕ cfg1 c) (hA : dat.A 2 = V c (Pipeline.arrRef spec1 2))
    (hafter : ∀ t, dat.after 2 t = blkR1 V c 2 t) (t : Fin cfg1.N) (d) : dat.before 2 t d = blkR1 V c 2 t :=
  (dat.before_in_eq_fetched 2 rfl (fun _ => rfl) (fun _ _ _ => rfl) (fun t => by rw [hafter]; unfold Dat.blockOf blkR1; rw [hA]; try rfl) t d).trans
    (by unfold Dat.fetched Dat.blockOf blkR1; rw [hA]; try rfl)
theorem inBufR1_3 {c : Dev nD} (dat : Dat τ (Elt F) Unit ℕ (UR sig nD τ) ℕ cfg1 c) (hA : dat.A 3 = V c (Pipeline.arrRef spec1 3))
    (hafter : ∀ t, dat.after 3 t = blkR1 V c 3 t) (t : Fin cfg1.N) (d) : dat.before 3 t d = blkR1 V c 3 t :=
  (dat.before_in_eq_fetched 3 rfl (fun _ => rfl) (fun _ _ _ => rfl) (fun t => by rw [hafter]; unfold Dat.blockOf blkR1; rw [hA]; try rfl) t d).trans
    (by unfold Dat.fetched Dat.blockOf blkR1; rw [hA]; try rfl)

/-! ## The body's two branches, decided over the grid -/

/-- "This is column tile 0": the body resets the running minimum. -/
abbrev firstR1 (i : grid1.Coords) : Prop := (Scalar.cmpi .ne (Scalar.extui (Scalar.cmpi .eq (BitVec.ofNat 32 (i 1).val) 0#32)) 0#32) = 1#1
theorem first_iffR1 : ∀ t : Fin cfg1.N, firstR1 (grid1.coords t) ↔ t.val % 4 = 0 :=
  (by decide +kernel : ∀ t : Fin grid1.N, firstR1 (grid1.coords t) ↔ t.val % 4 = 0)

/-- "This is column tile 3": the body stores the square root of the running minimum into the result block. -/
abbrev lastR1 (i : grid1.Coords) : Prop := k1_cond2 i = 1#1
theorem last_iffR1 : ∀ t : Fin cfg1.N, lastR1 (grid1.coords t) ↔ t.val % 4 = 3 :=
  (by decide +kernel : ∀ t : Fin grid1.N, lastR1 (grid1.coords t) ↔ t.val % 4 = 3)

/-! ## Where the windows are idle -/

theorem liveR1_0 : ∀ t : Fin cfg1.N, cfg1.idle 0 (grid1.coords t) = false := by decide +kernel
theorem liveR1_1 : ∀ t : Fin cfg1.N, cfg1.idle 1 (grid1.coords t) = false := by decide +kernel
theorem liveR1_2 : ∀ t : Fin cfg1.N, cfg1.idle 2 (grid1.coords t) = false := by decide +kernel
theorem liveR1_3 : ∀ t : Fin cfg1.N, cfg1.idle 3 (grid1.coords t) = false := by decide +kernel
/-- Away from column tile 3 the result window is idle and its block is not written back. -/
theorem idleR1_4 : ∀ t : Fin cfg1.N, ¬lastR1 (grid1.coords t) → cfg1.idle 4 (grid1.coords t) = true := by decide +kernel
theorem noFlushR1_4 : ∀ t : Fin cfg1.N, ¬lastR1 (grid1.coords t) → (cfg1.win 4).flush t = false := by decide +kernel
/-- At column tile 3 it is live. -/
theorem liveR1_4 : ∀ t : Fin cfg1.N, lastR1 (grid1.coords t) → cfg1.idle 4 (grid1.coords t) = false := by decide +kernel

/-! ## The memrefs the body is called with -/

abbrev mR1_0 (t : Fin cfg1.N) : Memref sig .tc .vmem S8x256x1 .f32 := win1_0.stage (cfg1.slots t 0)
abbrev hR1_0 (t : Fin cfg1.N) : (mR1_0 t).IsWhole := hstage1_0 ((cfg1.slots t 0).cast nbuf1_0)
abbrev mR1_1 (t : Fin cfg1.N) : Memref sig .tc .vmem S8x256x1 .f32 := win1_1.stage (cfg1.slots t 1)
abbrev hR1_1 (t : Fin cfg1.N) : (mR1_1 t).IsWhole := hstage1_1 ((cfg1.slots t 1).cast nbuf1_1)
abbrev mR1_2 (t : Fin cfg1.N) : Memref sig .tc .vmem S8x1x1024 .f32 := win1_2.stage (cfg1.slots t 2)
abbrev hR1_2 (t : Fin cfg1.N) : (mR1_2 t).IsWhole := hstage1_2 ((cfg1.slots t 2).cast nbuf1_2)
abbrev mR1_3 (t : Fin cfg1.N) : Memref sig .tc .vmem S8x1x1024 .f32 := win1_3.stage (cfg1.slots t 3)
abbrev hR1_3 (t : Fin cfg1.N) : (mR1_3 t).IsWhole := hstage1_3 ((cfg1.slots t 3).cast nbuf1_3)
abbrev mR1_4 (t : Fin cfg1.N) : Memref sig .tc .vmem S8x256 .f32 := win1_4.stage (cfg1.slots t 4)
abbrev hR1_4 (t : Fin cfg1.N) : (mR1_4 t).IsWhole := hstage1_4 ((cfg1.slots t 4).cast nbuf1_4)
/-- The scratch that holds the running minimum, and the view its contents are stated through. -/
abbrev accMR1 : Memref sig .tc .vmem S8x256 .f32 := Memref.whole cc1_scratch0
abbrev accVR1 : View sig .tc .vmem S8x256 .f32 := accMR1.view
/-- One staging buffer of the result window, through which its contents are stated. -/
abbrev outVR1 : View sig .tc .vmem S8x256 .f32 := (Memref.whole cc1_stg4_0 : Memref sig .tc .vmem S8x256 .f32).view

/-- The scoped buffers the region never names: the other call's staging buffers and scratch. -/
abbrev othersR1 (c : Dev nD) : sProp 𝕄 :=
  Pipeline.scopedRestBut (Ix := Unit) (Name := ℕ) (U := UR sig nD τ) (Lvl := ℕ) (Val := Elt F) spec1 c [cc1_scratch0]

/-- What a region is handed besides its windows: its own scratch at some contents, the scoped buffers it never
    names, the generator register at some state. -/
theorem classInvR1 (c : Dev nD) :
    (Pipeline.ΦA spec1 c : sProp 𝕄)
      = iprop(iprop((∃ d, owns (c : Thread nD τ) accMR1 fullShare d) ∗ othersR1 c) ∗ (∃ r, prngReg c r)) := by
  unfold Pipeline.ΦA
  rw [Pipeline.scopedRest_split_of_list spec1 c [cc1_scratch0] (by decide) (by decide)]
  simp only [accMR1, owns_whole]
  rfl

end Cert.KernelIdeal.Fr

end
-- ==== Proof.KernelIdeal.RunA1.lean ====
/-
  Region 1: the body run whole at a point of column tile 0 (the running minimum is reset, then lowered; the result block is not touched).
  The stores it makes are found by the run itself and kept as a list of pieces (last store first); what the
  buffers then hold is read off that list in the module that states the region's data.
-/
import proofs.«100872_j40888088658143_1_alg».proof.Proof.KernelIdeal.Base1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tile 0: on whole memrefs, the four input blocks at their contents, the result buffer at contents it hands
    back untouched, the scratch at anything, the body runs to its end leaving the inputs as they were and the scratch
    with the pieces `LS` written. -/
noncomputable def runA_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR1 i) (hc1 : ¬lastR1 i)
    (x0 : Vec F S8x256x1 .f32) (x1 : Vec F S8x256x1 .f32) (x2 : Vec F S8x1x1024 .f32) (x3 : Vec F S8x1x1024 .f32) :
    { LS : List (View.Piece (Elt F) S8x256 .f32) //
      ∀ (xo : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__nearest_min_sqdist_kernel i arg2 harg2 arg3 harg3 arg4 harg4 arg5 harg5 arg6 harg6 arg7 harg7) K } := by
  refine ⟨?_, fun xo E K => ?run⟩
  case run =>
    simp only [cc1__nearest_min_sqdist_kernel_eq_skeleton]; unfold cc1__nearest_min_sqdist_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Fr

end
-- ==== Proof.KernelIdeal.RunB1.lean ====
/-
  Region 1: the body run whole at a point of column tile 1 or 2 (the running minimum is lowered; the result block is not touched).
  The stores it makes are found by the run itself and kept as a list of pieces (last store first); what the
  buffers then hold is read off that list in the module that states the region's data.
-/
import proofs.«100872_j40888088658143_1_alg».proof.Proof.KernelIdeal.RunA1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tiles 1 and 2: on whole memrefs, the four input blocks at their contents, the result buffer at contents it
    hands back untouched, the scratch at the running minimum `xs` the point before left, the body runs to its end
    leaving the inputs as they were and the scratch with the pieces `LS` written. -/
noncomputable def runB_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : ¬lastR1 i)
    (x0 : Vec F S8x256x1 .f32) (x1 : Vec F S8x256x1 .f32) (x2 : Vec F S8x1x1024 .f32) (x3 : Vec F S8x1x1024 .f32) (xs : Vec F S8x256 .f32) :
    { LS : List (View.Piece (Elt F) S8x256 .f32) //
      ∀ (xo : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo ∗ (∃ f, arg7.view.loc (c : Thread nD τ) ↦[arg7.view.set]{fullShare} arg7.view.writes (Elt F) f LS)) -∗ K ⟨⟩))
          ⊢ wp frame (wpE (defs₀ (F := F)) Variants.none c none) E (cc1__nearest_min_sqdist_kernel i arg2 harg2 arg3 harg3 arg4 harg4 arg5 harg5 arg6 harg6 arg7 harg7) K } := by
  refine ⟨?_, fun xo E K => ?run⟩
  case run =>
    simp only [cc1__nearest_min_sqdist_kernel_eq_skeleton]; unfold cc1__nearest_min_sqdist_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Fr

end
-- ==== Proof.KernelIdeal.RunC1.lean ====
/-
  Region 1: the body run whole at a point of column tile 3 (the running minimum is lowered a last time and its square root stored into the result block).
  The stores it makes are found by the run itself and kept as a list of pieces (last store first); what the
  buffers then hold is read off that list in the module that states the region's data.
-/
import proofs.«100872_j40888088658143_1_alg».proof.Proof.KernelIdeal.RunB1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At column tile 3: on whole memrefs, the four input blocks at their contents, the result buffer at anything, the
    scratch at the running minimum `xs` the point before left, the body runs to its end leaving the inputs as they
    were, the result buffer with the pieces `LO` written and the scratch with the pieces `LS` written. -/
noncomputable def runC_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) :
    Σ' (LO : List (View.Piece (Elt F) S8x256 .f32)), { LS : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LS)) -∗ K ⟨⟩))
          ⊢ wp frame (wpE (defs₀ (F := F)) Variants.none c none) E (cc1__nearest_min_sqdist_kernel i arg2 harg2 arg3 harg3 arg4 harg4 arg5 harg5 arg6 harg6 arg7 harg7) K } := by
  refine ⟨?_, ?_, fun E K => ?run⟩
  case run =>
    simp only [cc1__nearest_min_sqdist_kernel_eq_skeleton]; unfold cc1__nearest_min_sqdist_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Fr

end
-- ==== Proof.KernelIdeal.Region1.lean ====
/-
  Region 1: what its buffers hold point by point, its invariant, its proof data and the body obligation.

  After point t the scratch holds the running minimum of row tile t / 4 over the column tiles 0 … t % 4: at column
  tile 0 the body's stores over a reset scratch, at a later tile the body's stores over what the point before left.
  At column tile 3 the result buffer holds what the body stored there, computed from the same running minimum; at
  the other points the result window is idle, its buffer handed back as found and not written back, and nothing
  consults what the data say of it there.
  The invariant before point 0 is the class's (every scoped buffer the region does not stage at anything, the
  generator register at some state); after point n it names the scratch's contents and leaves the rest as it was.
-/
import proofs.«100872_j40888088658143_1_alg».proof.Proof.KernelIdeal.RunC1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves, read back from its stores -/

theorem scoverA_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR1 i) (hc1 : ¬lastR1 i)
    (x0 : Vec F S8x256x1 .f32) (x1 : Vec F S8x256x1 .f32) (x2 : Vec F S8x1x1024 .f32) (x3 : Vec F S8x1x1024 .f32) (y : S8x256.Idx) :
    ∃ pc ∈ (runA_R1 c i arg2 harg2 arg3 harg3 arg4 harg4 arg5 harg5 arg6 harg6 arg7 harg7 hc0 hc1 x0 x1 x2 x3).1, y ∈ pc.1.set :=
  View.cover_of_tiledL (runA_R1 c i arg2 harg2 arg3 harg3 arg4 harg4 arg5 harg5 arg6 harg6 arg7 harg7 hc0 hc1 x0 x1 x2 x3).1 S8x256.size (by sl_kernel_rfl) y
/-- The running minimum after a point of column tile 0. -/
def accA_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR1 i) (hc1 : ¬lastR1 i)
    (x0 : Vec F S8x256x1 .f32) (x1 : Vec F S8x256x1 .f32) (x2 : Vec F S8x1x1024 .f32) (x3 : Vec F S8x1x1024 .f32) : Vec F S8x256 .f32 :=
  accVR1.read (Elt F) (accVR1.writes (Elt F) accVR1.junk (runA_R1 c i arg2 harg2 arg3 harg3 arg4 harg4 arg5 harg5 arg6 harg6 arg7 harg7 hc0 hc1 x0 x1 x2 x3).1)

theorem scoverB_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : ¬lastR1 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runB_R1 c i arg2 harg2 arg3 harg3 arg4 harg4 arg5 harg5 arg6 harg6 arg7 harg7 hc0 hc1 x0 x1 x2 x3 xs).1, y ∈ pc.1.set :=
  View.cover_of_tiledL (runB_R1 c i arg2 harg2 arg3 harg3 arg4 harg4 arg5 harg5 arg6 harg6 arg7 harg7 hc0 hc1 x0 x1 x2 x3 xs).1 S8x256.size (by sl_kernel_rfl) y
/-- The running minimum after a point of column tile 1 or 2, over what the point before left. -/
def accB_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : ¬lastR1 i)
    (x0 : Vec F S8x256x1 .f32) (x1 : Vec F S8x256x1 .f32) (x2 : Vec F S8x1x1024 .f32) (x3 : Vec F S8x1x1024 .f32) (xs : Vec F S8x256 .f32) : Vec F S8x256 .f32 :=
  accVR1.read (Elt F) (accVR1.writes (Elt F) accVR1.junk (runB_R1 c i arg2 harg2 arg3 harg3 arg4 harg4 arg5 harg5 arg6 harg6 arg7 harg7 hc0 hc1 x0 x1 x2 x3 xs).1)

theorem scoverC_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runC_R1 c i arg2 harg2 arg3 harg3 arg4 harg4 arg5 harg5 arg6 harg6 arg7 harg7 hc0 hc1 x0 x1 x2 x3 xs).2.1, y ∈ pc.1.set :=
  View.cover_of_tiledL (runC_R1 c i arg2 harg2 arg3 harg3 arg4 harg4 arg5 harg5 arg6 harg6 arg7 harg7 hc0 hc1 x0 x1 x2 x3 xs).2.1 S8x256.size (by sl_kernel_rfl) y
/-- The running minimum after a point of column tile 3, over what the point before left. -/
def accC_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) : Vec F S8x256 .f32 :=
  accVR1.read (Elt F) (accVR1.writes (Elt F) accVR1.junk (runC_R1 c i arg2 harg2 arg3 harg3 arg4 harg4 arg5 harg5 arg6 harg6 arg7 harg7 hc0 hc1 x0 x1 x2 x3 xs).2.1)
theorem ocoverC_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) (y : S8x256.Idx) :
    ∃ pc ∈ (runC_R1 c i arg2 harg2 arg3 harg3 arg4 harg4 arg5 harg5 arg6 harg6 arg7 harg7 hc0 hc1 x0 x1 x2 x3 xs).1, y ∈ pc.1.set :=
  View.cover_of_tiledL (runC_R1 c i arg2 harg2 arg3 harg3 arg4 harg4 arg5 harg5 arg6 harg6 arg7 harg7 hc0 hc1 x0 x1 x2 x3 xs).1 S8x256.size (by sl_kernel_rfl) y
/-- The result block a point of column tile 3 stores. -/
def outC_R1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) : Vec F S8x256 .f32 :=
  outVR1.read (Elt F) (outVR1.writes (Elt F) outVR1.junk (runC_R1 c i arg2 harg2 arg3 harg3 arg4 harg4 arg5 harg5 arg6 harg6 arg7 harg7 hc0 hc1 x0 x1 x2 x3 xs).1)

/-! ## Point by point -/

/-- The running minimum the scratch holds after the body at position `n`. -/
def accAtR1 (c : Dev nD) : (n : ℕ) → n < cfg1.N → Vec F S8x256 .f32
  | 0, hn => accA_R1 c (grid1.coords ⟨0, hn⟩) (mR1_0 ⟨0, hn⟩) (hR1_0 ⟨0, hn⟩) (mR1_1 ⟨0, hn⟩) (hR1_1 ⟨0, hn⟩) (mR1_2 ⟨0, hn⟩) (hR1_2 ⟨0, hn⟩) (mR1_3 ⟨0, hn⟩) (hR1_3 ⟨0, hn⟩) (mR1_4 ⟨0, hn⟩) (hR1_4 ⟨0, hn⟩) accMR1 (Memref.isWhole_whole _) ((first_iffR1 ⟨0, hn⟩).mpr (Nat.zero_mod _)) (fun h => (fun h => by (try dsimp only at h); omega) ((last_iffR1 ⟨0, hn⟩).mp h)) (blkR1 V c 0 ⟨0, hn⟩) (blkR1 V c 1 ⟨0, hn⟩) (blkR1 V c 2 ⟨0, hn⟩) (blkR1 V c 3 ⟨0, hn⟩)
  | n + 1, hn =>
    if h0 : (n + 1) % 4 = 0 then
      if h1 : (n + 1) % 4 = 3 then False.elim (by omega)
      else accA_R1 c (grid1.coords ⟨n + 1, hn⟩) (mR1_0 ⟨n + 1, hn⟩) (hR1_0 ⟨n + 1, hn⟩) (mR1_1 ⟨n + 1, hn⟩) (hR1_1 ⟨n + 1, hn⟩) (mR1_2 ⟨n + 1, hn⟩) (hR1_2 ⟨n + 1, hn⟩) (mR1_3 ⟨n + 1, hn⟩) (hR1_3 ⟨n + 1, hn⟩) (mR1_4 ⟨n + 1, hn⟩) (hR1_4 ⟨n + 1, hn⟩) accMR1 (Memref.isWhole_whole _) ((first_iffR1 ⟨n + 1, hn⟩).mpr h0) (fun h => h1 ((last_iffR1 ⟨n + 1, hn⟩).mp h)) (blkR1 V c 0 ⟨n + 1, hn⟩) (blkR1 V c 1 ⟨n + 1, hn⟩) (blkR1 V c 2 ⟨n + 1, hn⟩) (blkR1 V c 3 ⟨n + 1, hn⟩)
    else
      if h1 : (n + 1) % 4 = 3 then
        accC_R1 c (grid1.coords ⟨n + 1, hn⟩) (mR1_0 ⟨n + 1, hn⟩) (hR1_0 ⟨n + 1, hn⟩) (mR1_1 ⟨n + 1, hn⟩) (hR1_1 ⟨n + 1, hn⟩) (mR1_2 ⟨n + 1, hn⟩) (hR1_2 ⟨n + 1, hn⟩) (mR1_3 ⟨n + 1, hn⟩) (hR1_3 ⟨n + 1, hn⟩) (mR1_4 ⟨n + 1, hn⟩) (hR1_4 ⟨n + 1, hn⟩) accMR1 (Memref.isWhole_whole _) (fun h => h0 ((first_iffR1 ⟨n + 1, hn⟩).mp h)) ((last_iffR1 ⟨n + 1, hn⟩).mpr h1) (blkR1 V c 0 ⟨n + 1, hn⟩) (blkR1 V c 1 ⟨n + 1, hn⟩) (blkR1 V c 2 ⟨n + 1, hn⟩) (blkR1 V c 3 ⟨n + 1, hn⟩) (accAtR1 c n (Nat.lt_of_succ_lt hn))
      else
        accB_R1 c (grid1.coords ⟨n + 1, hn⟩) (mR1_0 ⟨n + 1, hn⟩) (hR1_0 ⟨n + 1, hn⟩) (mR1_1 ⟨n + 1, hn⟩) (hR1_1 ⟨n + 1, hn⟩) (mR1_2 ⟨n + 1, hn⟩) (hR1_2 ⟨n + 1, hn⟩) (mR1_3 ⟨n + 1, hn⟩) (hR1_3 ⟨n + 1, hn⟩) (mR1_4 ⟨n + 1, hn⟩) (hR1_4 ⟨n + 1, hn⟩) accMR1 (Memref.isWhole_whole _) (fun h => h0 ((first_iffR1 ⟨n + 1, hn⟩).mp h)) (fun h => h1 ((last_iffR1 ⟨n + 1, hn⟩).mp h)) (blkR1 V c 0 ⟨n + 1, hn⟩) (blkR1 V c 1 ⟨n + 1, hn⟩) (blkR1 V c 2 ⟨n + 1, hn⟩) (blkR1 V c 3 ⟨n + 1, hn⟩) (accAtR1 c n (Nat.lt_of_succ_lt hn))

theorem accAtR1_A (c : Dev nD) (t : Fin cfg1.N) (h0 : t.val % 4 = 0) (h1 : ¬t.val % 4 = 3) :
    accAtR1 V c t.val t.isLt = accA_R1 c (grid1.coords t) (mR1_0 t) (hR1_0 t) (mR1_1 t) (hR1_1 t) (mR1_2 t) (hR1_2 t) (mR1_3 t) (hR1_3 t) (mR1_4 t) (hR1_4 t) accMR1 (Memref.isWhole_whole _) ((first_iffR1 t).mpr h0) (fun h => h1 ((last_iffR1 t).mp h)) (blkR1 V c 0 t) (blkR1 V c 1 t) (blkR1 V c 2 t) (blkR1 V c 3 t) := by
  obtain ⟨n, hn⟩ := t
  cases n with
  | zero => exact rfl
  | succ n => exact (dif_pos h0).trans ((dif_neg h1).trans rfl)

theorem accAtR1_B (c : Dev nD) (t : Fin cfg1.N) (h0 : ¬t.val % 4 = 0) (h1 : ¬t.val % 4 = 3) :
    accAtR1 V c t.val t.isLt = accB_R1 c (grid1.coords t) (mR1_0 t) (hR1_0 t) (mR1_1 t) (hR1_1 t) (mR1_2 t) (hR1_2 t) (mR1_3 t) (hR1_3 t) (mR1_4 t) (hR1_4 t) accMR1 (Memref.isWhole_whole _) (fun h => h0 ((first_iffR1 t).mp h)) (fun h => h1 ((last_iffR1 t).mp h)) (blkR1 V c 0 t) (blkR1 V c 1 t) (blkR1 V c 2 t) (blkR1 V c 3 t) (accAtR1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAtR1_C (c : Dev nD) (t : Fin cfg1.N) (h0 : ¬t.val % 4 = 0) (h1 : t.val % 4 = 3) :
    accAtR1 V c t.val t.isLt = accC_R1 c (grid1.coords t) (mR1_0 t) (hR1_0 t) (mR1_1 t) (hR1_1 t) (mR1_2 t) (hR1_2 t) (mR1_3 t) (hR1_3 t) (mR1_4 t) (hR1_4 t) accMR1 (Memref.isWhole_whole _) (fun h => h0 ((first_iffR1 t).mp h)) ((last_iffR1 t).mpr h1) (blkR1 V c 0 t) (blkR1 V c 1 t) (blkR1 V c 2 t) (blkR1 V c 3 t) (accAtR1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the result window's buffer holds after the body at point `t`: at column tile 3 the block the body stored; elsewhere
    the window is idle and this value is consulted by nothing. -/
def outAtR1 (c : Dev nD) (t : Fin cfg1.N) : Vec F S8x256 .f32 :=
  if h1 : t.val % 4 = 3 then
    outC_R1 c (grid1.coords t) (mR1_0 t) (hR1_0 t) (mR1_1 t) (hR1_1 t) (mR1_2 t) (hR1_2 t) (mR1_3 t) (hR1_3 t) (mR1_4 t) (hR1_4 t) accMR1 (Memref.isWhole_whole _) (fun h => (by omega : ¬t.val % 4 = 0) ((first_iffR1 t).mp h)) ((last_iffR1 t).mpr h1) (blkR1 V c 0 t) (blkR1 V c 1 t) (blkR1 V c 2 t) (blkR1 V c 3 t) (accAtR1 V c (t.val - 1) (Nat.lt_of_le_of_lt (Nat.sub_le _ _) t.isLt))
  else outVR1.read (Elt F) outVR1.junk

theorem outAtR1_C (c : Dev nD) (t : Fin cfg1.N) (h0 : ¬t.val % 4 = 0) (h1 : t.val % 4 = 3) :
    outAtR1 V c t = outC_R1 c (grid1.coords t) (mR1_0 t) (hR1_0 t) (mR1_1 t) (hR1_1 t) (mR1_2 t) (hR1_2 t) (mR1_3 t) (hR1_3 t) (mR1_4 t) (hR1_4 t) accMR1 (Memref.isWhole_whole _) (fun h => h0 ((first_iffR1 t).mp h)) ((last_iffR1 t).mpr h1) (blkR1 V c 0 t) (blkR1 V c 1 t) (blkR1 V c 2 t) (blkR1 V c 3 t) (accAtR1 V c (t.val - 1) (Nat.lt_of_le_of_lt (Nat.sub_le _ _) t.isLt)) := by
  unfold outAtR1; rw [dif_pos h1]

/-! ## The invariant -/

/-- Before position `n`: at the start what the launch hands the region; afterwards the scratch at the running minimum the
    point before left, the scoped buffers the region never names, the generator register at some state. -/
def invR1 (c : Dev nD) : (n : ℕ) → n ≤ cfg1.N → sProp 𝕄
  | 0, _ => Pipeline.ΦA spec1 c
  | n + 1, hn => iprop(iprop(owns (c : Thread nD τ) accMR1 fullShare (accAtR1 V c n hn) ∗ othersR1 c) ∗ (∃ r, prngReg c r))

theorem invR1_zero (c : Dev nD) (n : ℕ) (h : n ≤ cfg1.N) (hz : n = 0) : invR1 V c n h = Pipeline.ΦA spec1 c := by
  subst hz; rfl
theorem invR1_succ (c : Dev nD) (n : ℕ) (hn : n < cfg1.N) :
    invR1 V c (n + 1) hn = iprop(iprop(owns (c : Thread nD τ) accMR1 fullShare (accAtR1 V c n hn) ∗ othersR1 c) ∗ (∃ r, prngReg c r)) := rfl
theorem invR1_pos (c : Dev nD) (n : ℕ) (h : n ≤ cfg1.N) (hz : n ≠ 0) :
    invR1 V c n h = iprop(iprop(owns (c : Thread nD τ) accMR1 fullShare (accAtR1 V c (n - 1) (by omega)) ∗ othersR1 c) ∗ (∃ r, prngReg c r)) := by
  cases n with
  | zero => exact absurd rfl hz
  | succ n => rfl

/-! ## The proof data -/

def datR1 (c : Dev nD) : Dat τ (Elt F) Unit ℕ (UR sig nD τ) ℕ cfg1 c where
  A w := V c (Pipeline.arrRef spec1 w)
  after w t := match w with
    | ⟨0, _⟩ => blkR1 V c 0 t
    | ⟨1, _⟩ => blkR1 V c 1 t
    | ⟨2, _⟩ => blkR1 V c 2 t
    | ⟨3, _⟩ => blkR1 V c 3 t
    | ⟨4, _⟩ => outAtR1 V c t
  Φ t := invR1 V c t.val (Nat.le_of_lt_succ t.isLt)
  q _ := fullShare
  owed _ := 0

theorem datR1_A (c : Dev nD) (w : Fin cfg1.W) : (datR1 V c).A w = V c (Pipeline.arrRef spec1 w) := by
  dsimp only [datR1]
theorem invR1_castSucc (c : Dev nD) (t : Fin cfg1.N) :
    (datR1 V c).Φ t.castSucc = invR1 V c t.val (Nat.le_of_lt t.isLt) := by
  dsimp only [datR1]; simp only [Fin.coe_castSucc]
theorem afterR1_0 (c : Dev nD) (t : Fin cfg1.N) : (datR1 V c).after 0 t = blkR1 V c 0 t := by dsimp only [datR1]
theorem afterR1_1 (c : Dev nD) (t : Fin cfg1.N) : (datR1 V c).after 1 t = blkR1 V c 1 t := by dsimp only [datR1]
theorem afterR1_2 (c : Dev nD) (t : Fin cfg1.N) : (datR1 V c).after 2 t = blkR1 V c 2 t := by dsimp only [datR1]
theorem afterR1_3 (c : Dev nD) (t : Fin cfg1.N) : (datR1 V c).after 3 t = blkR1 V c 3 t := by dsimp only [datR1]
theorem afterR1_4 (c : Dev nD) (t : Fin cfg1.N) : (datR1 V c).after 4 t = outAtR1 V c t := by dsimp only [datR1]

theorem beforeR1_0 (c : Dev nD) (t : Fin cfg1.N) (d) : (datR1 V c).before 0 t d = blkR1 V c 0 t :=
  inBufR1_0 V (datR1 V c) (datR1_A V c 0) (afterR1_0 V c) t d
theorem beforeR1_1 (c : Dev nD) (t : Fin cfg1.N) (d) : (datR1 V c).before 1 t d = blkR1 V c 1 t :=
  inBufR1_1 V (datR1 V c) (datR1_A V c 1) (afterR1_1 V c) t d
theorem beforeR1_2 (c : Dev nD) (t : Fin cfg1.N) (d) : (datR1 V c).before 2 t d = blkR1 V c 2 t :=
  inBufR1_2 V (datR1 V c) (datR1_A V c 2) (afterR1_2 V c) t d
theorem beforeR1_3 (c : Dev nD) (t : Fin cfg1.N) (d) : (datR1 V c).before 3 t d = blkR1 V c 3 t :=
  inBufR1_3 V (datR1 V c) (datR1_A V c 3) (afterR1_3 V c) t d

/-! ## The body obligation -/

def bodyPreR1 (c : Dev nD) (t : Fin cfg1.N) : sProp 𝕄 :=
  iprop((datR1 V c).Φ t.castSucc ∗ (datR1 V c).owesAt () t.castSucc
    ∗ (∃ d, owns (c : Thread nD τ) (mR1_0 t) fullShare ((datR1 V c).before 0 t d))
    ∗ (∃ d, owns (c : Thread nD τ) (mR1_1 t) fullShare ((datR1 V c).before 1 t d))
    ∗ (∃ d, owns (c : Thread nD τ) (mR1_2 t) fullShare ((datR1 V c).before 2 t d))
    ∗ (∃ d, owns (c : Thread nD τ) (mR1_3 t) fullShare ((datR1 V c).before 3 t d))
    ∗ (∃ d, owns (c : Thread nD τ) (mR1_4 t) fullShare ((datR1 V c).before 4 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t
    ∗ (datR1 V c).leavesExact 3 t
    ∗ (datR1 V c).leavesExact 4 t)

theorem leavesR1_0 (c : Dev nD) (t : Fin cfg1.N) : (datR1 V c).leavesExact 0 t = owns (c : Thread nD τ) (mR1_0 t) fullShare (blkR1 V c 0 t) := by
  unfold Dat.leavesExact; rw [liveR1_0 t, afterR1_0]
theorem leavesR1_1 (c : Dev nD) (t : Fin cfg1.N) : (datR1 V c).leavesExact 1 t = owns (c : Thread nD τ) (mR1_1 t) fullShare (blkR1 V c 1 t) := by
  unfold Dat.leavesExact; rw [liveR1_1 t, afterR1_1]
theorem leavesR1_2 (c : Dev nD) (t : Fin cfg1.N) : (datR1 V c).leavesExact 2 t = owns (c : Thread nD τ) (mR1_2 t) fullShare (blkR1 V c 2 t) := by
  unfold Dat.leavesExact; rw [liveR1_2 t, afterR1_2]
theorem leavesR1_3 (c : Dev nD) (t : Fin cfg1.N) : (datR1 V c).leavesExact 3 t = owns (c : Thread nD τ) (mR1_3 t) fullShare (blkR1 V c 3 t) := by
  unfold Dat.leavesExact; rw [liveR1_3 t, afterR1_3]

set_option maxHeartbeats 4800000 in
/-- The body at any point. The input buffers hold their blocks; the column tile says which case the point is in; the
    invariant hands the body the scratch (at anything at the very first point, at what the point before left afterwards)
    and takes it back at this point's running minimum; the result buffer is handed back as found except at column tile 3,
    where it takes the stored block. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1, beforeR1_2, beforeR1_3]
  rw [show (datR1 V c).owesAt () t.succ = (datR1 V c).owesAt () t.castSucc from rfl]
  rw [show (datR1 V c).Φ t.succ = invR1 V c (t.val + 1) t.isLt from rfl, invR1_succ]
  rw [leavesR1_0, leavesR1_1, leavesR1_2, leavesR1_3]
  have hN : t.val < 64 := lt_of_lt_of_eq t.isLt (show cfg1.N = 64 from N_1)
  by_cases h0 : t.val % 4 = 0
  · have h1 : ¬t.val % 4 = 3 := by omega
    rw [Dat.leavesExact_idle (datR1 V c) 4 t (idleR1_4 t (fun h => h1 ((last_iffR1 t).mp h))) (noFlushR1_4 t (fun h => h1 ((last_iffR1 t).mp h)))]
    rw [accAtR1_A V c t h0 h1]
    unfold accA_R1; (try dsimp only)
    by_cases hz : t.val = 0
    · rw [invR1_castSucc V c t, invR1_zero V c _ _ hz, classInvR1]
      iintro ⟨⟨⟨HS, Hoth⟩, Hg⟩, Ho, ⟨%d0, H0⟩, ⟨%d1, H1⟩, ⟨%d2, H2⟩, ⟨%d3, H3⟩, ⟨%d4, H4⟩⟩
      iapply ((runA_R1 c (grid1.coords t) _ _ _ _ _ _ _ _ _ _ _ _ ((first_iffR1 t).mpr h0) (fun h => h1 ((last_iffR1 t).mp h)) (blkR1 V c 0 t) (blkR1 V c 1 t) (blkR1 V c 2 t) (blkR1 V c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverA_R1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
    · rw [invR1_castSucc V c t, invR1_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runA_R1 c (grid1.coords t) _ _ _ _ _ _ _ _ _ _ _ _ ((first_iffR1 t).mpr h0) (fun h => h1 ((last_iffR1 t).mp h)) (blkR1 V c 0 t) (blkR1 V c 1 t) (blkR1 V c 2 t) (blkR1 V c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverA_R1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h1 : t.val % 4 = 3
    · rw [show (datR1 V c).leavesExact 4 t = owns (c : Thread nD τ) (mR1_4 t) fullShare ((datR1 V c).after 4 t) from by
        unfold Dat.leavesExact; rw [liveR1_4 t ((last_iffR1 t).mpr h1)], afterR1_4]
      rw [accAtR1_C V c t h0 h1, outAtR1_C V c t h0 h1]
      unfold outC_R1 accC_R1; (try dsimp only)
      rw [invR1_castSucc V c t, invR1_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runC_R1 c (grid1.coords t) _ _ _ _ _ _ _ _ _ _ _ _ (fun h => h0 ((first_iffR1 t).mp h)) ((last_iffR1 t).mpr h1) (blkR1 V c 0 t) (blkR1 V c 1 t) (blkR1 V c 2 t) (blkR1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hoth Hg]
      · isplitl [HS Hoth]
        · isplitl [HS]
          · unfold owns; iexists _; isplitr
            swap; · iexact HS
            ipureintro; exact View.read_writes_of_cover _ _ _ _ _ (scoverC_R1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocoverC_R1 c _ _ _ _ _ _ _ _ _ _ _ _ _ _ _ _ _ _ _ _)
    · rw [Dat.leavesExact_idle (datR1 V c) 4 t (idleR1_4 t (fun h => h1 ((last_iffR1 t).mp h))) (noFlushR1_4 t (fun h => h1 ((last_iffR1 t).mp h)))]
      rw [accAtR1_B V c t h0 h1]
      unfold accB_R1; (try dsimp only)
      rw [invR1_castSucc V c t, invR1_pos V c _ _ hz]
      iintro ⟨⟨⟨HS, Hoth⟩, Hg⟩, Ho, ⟨%d0, H0⟩, ⟨%d1, H1⟩, ⟨%d2, H2⟩, ⟨%d3, H3⟩, ⟨%d4, H4⟩⟩
      iapply ((runB_R1 c (grid1.coords t) _ _ _ _ _ _ _ _ _ _ _ _ (fun h => h0 ((first_iffR1 t).mp h)) (fun h => h1 ((last_iffR1 t).mp h)) (blkR1 V c 0 t) (blkR1 V c 1 t) (blkR1 V c 2 t) (blkR1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hoth Hg]
      · isplitl [HS Hoth]
        · isplitl [HS]
          · unfold owns; iexists _; isplitr
            swap; · iexact HS
            ipureintro; exact View.read_writes_of_cover _ _ _ _ _ (scoverB_R1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem obligationR1 (c : Dev nD) : BodyObligation (datR1 (F := F) V c) (defs₀ (F := F)) Variants.none () Set.univ := fun t => by
  rw [bigSep_W1, bigSep_W1]
  exact sound_bodyR1 V c t

/-- After any point the invariant gives the class's back: the scratch's named contents are forgotten. -/
theorem inv_outR1 (c : Dev nD) (t : Fin (cfg1.N + 1)) (ht : t.val ≠ 0) : (datR1 V c).Φ t ⊢ Pipeline.ΦA spec1 c := by
  rw [show (datR1 V c).Φ t = invR1 V c t.val (Nat.le_of_lt_succ t.isLt) from rfl, invR1_pos V c _ _ ht, classInvR1]
  iintro ⟨⟨HS, Hoth⟩, Hg⟩
  isplitl [HS Hoth]
  · isplitl [HS]
    · iexists _; iexact HS
    iexact Hoth
  iexact Hg

end Cert.KernelIdeal.Fr

end
-- ==== Proof.KernelIdeal.MainRun.lean ====
/-
  The whole program run: @main is five items — host operations, the first nearest-point call, host operations, the
  second call, host operations — and between two items every unscoped buffer of the core holds named contents:
  the launch memory, then each host stretch's operations applied, then, after a call, the call's arrays at what its
  write-backs leave and every other buffer as the call found it. Every weakly fair execution terminates with every
  unscoped buffer at the last of these; the argument arrays are never written, so they end as launched.
-/
import proofs.«100872_j40888088658143_1_alg».proof.Proof.KernelIdeal.Region0
import proofs.«100872_j40888088658143_1_alg».proof.Proof.KernelIdeal.Region1
import proofs.«100872_j40888088658143_1_alg».proof.Proof.Gen.KernelIdeal.Regions
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between the items -/

/-- At launch. -/
abbrev bufs0 : Dev nD → Valuation τ sig (Elt F) := fun c b => (s₀ m ρ).mem ((c : Dev nD), b)
/-- After the first host stretch: the first call's entry. -/
abbrev bufs1 : Dev nD → Valuation τ sig (Elt F) := fun c => StableHlo.after hostOps0 (bufs0 m ρ c)
abbrev entry1 : (c : Dev nD) → (b : Ref sig .tc) → Buf (Elt F) ((c : Thread nD τ).loc b) := fun c b => bufs1 m ρ c b
/-- After the first call: its arrays at what its write-backs leave, the rest as entered. -/
def bufs2 (c : Dev nD) : Valuation τ sig (Elt F) :=
  Pipeline.withArrays spec0 c (bufs1 m ρ c) fun w => (datR0 (entry1 m ρ) c).arrAt w cfg0.N
theorem bufs2_arr (c : Dev nD) (w : Fin cfg0.W) :
    bufs2 m ρ c (Proc.devRef .tc (Pipeline.arrRef spec0 w)) = (datR0 (entry1 m ρ) c).arrAt w cfg0.N := by
  unfold bufs2; exact Pipeline.withArrays_arr spec0 launch0.win.arr_inj c _ _ w
theorem bufs2_of_ne (c : Dev nD) (b : Ref sig .tc) (hb : ∀ w, Pipeline.arrRef spec0 w ≠ b) :
    bufs2 m ρ c (Proc.devRef .tc b) = bufs1 m ρ c (Proc.devRef .tc b) := by
  unfold bufs2; exact Pipeline.withArrays_of_ne spec0 c _ _ b hb
abbrev exit2 : (c : Dev nD) → (b : Ref sig .tc) → Buf (Elt F) ((c : Thread nD τ).loc b) := fun c b => bufs2 m ρ c b
theorem hfinal0 (c : Dev nD) (w : Fin cfg0.W) : (datR0 (entry1 m ρ) c).arrAt w cfg0.N = exit2 m ρ c (Pipeline.arrRef spec0 w) :=
  (bufs2_arr m ρ c w).symm
theorem hrest0 (c : Dev nD) : ∀ b, b ∉ Finset.univ.image (Pipeline.arrRef spec0) → exit2 m ρ c b = entry1 m ρ c b :=
  fun b hb => bufs2_of_ne m ρ c b fun w e => hb (Finset.mem_image.mpr ⟨w, Finset.mem_univ _, e⟩)
/-- After the second host stretch: the second call's entry. -/
abbrev bufs3 : Dev nD → Valuation τ sig (Elt F) := fun c => StableHlo.after hostOps1 (bufs2 m ρ c)
abbrev entry3 : (c : Dev nD) → (b : Ref sig .tc) → Buf (Elt F) ((c : Thread nD τ).loc b) := fun c b => bufs3 m ρ c b
/-- After the second call. -/
def bufs4 (c : Dev nD) : Valuation τ sig (Elt F) :=
  Pipeline.withArrays spec1 c (bufs3 m ρ c) fun w => (datR1 (entry3 m ρ) c).arrAt w cfg1.N
theorem bufs4_arr (c : Dev nD) (w : Fin cfg1.W) :
    bufs4 m ρ c (Proc.devRef .tc (Pipeline.arrRef spec1 w)) = (datR1 (entry3 m ρ) c).arrAt w cfg1.N := by
  unfold bufs4; exact Pipeline.withArrays_arr spec1 launch1.win.arr_inj c _ _ w
theorem bufs4_of_ne (c : Dev nD) (b : Ref sig .tc) (hb : ∀ w, Pipeline.arrRef spec1 w ≠ b) :
    bufs4 m ρ c (Proc.devRef .tc b) = bufs3 m ρ c (Proc.devRef .tc b) := by
  unfold bufs4; exact Pipeline.withArrays_of_ne spec1 c _ _ b hb
abbrev exit4 : (c : Dev nD) → (b : Ref sig .tc) → Buf (Elt F) ((c : Thread nD τ).loc b) := fun c b => bufs4 m ρ c b
theorem hfinal1 (c : Dev nD) (w : Fin cfg1.W) : (datR1 (entry3 m ρ) c).arrAt w cfg1.N = exit4 m ρ c (Pipeline.arrRef spec1 w) :=
  (bufs4_arr m ρ c w).symm
theorem hrest1 (c : Dev nD) : ∀ b, b ∉ Finset.univ.image (Pipeline.arrRef spec1) → exit4 m ρ c b = entry3 m ρ c b :=
  fun b hb => bufs4_of_ne m ρ c b fun w e => hb (Finset.mem_image.mpr ⟨w, Finset.mem_univ _, e⟩)
/-- After the last host stretch: the end. -/
abbrev bufs5 : Dev nD → Valuation τ sig (Elt F) := fun c => StableHlo.after hostOps2 (bufs4 m ρ c)

/-- `main_arg0` reaches the end as launched: no host operation writes it and no call's result array is it. -/
theorem bufs5_main_arg0 (c : Dev nD) : bufs5 m ρ c (Proc.devRef .tc main_arg0) = m ((c : Thread nD τ).loc main_arg0) :=
  calc bufs5 m ρ c (Proc.devRef .tc main_arg0)
    _ = bufs4 m ρ c (Proc.devRef .tc main_arg0) := StableHlo.after_of_writes_sub hostOps2 _ hostOps2_writes (r := main_arg0) (by decide)
    _ = bufs3 m ρ c (Proc.devRef .tc main_arg0) := bufs4_of_ne m ρ c main_arg0 (by decide)
    _ = bufs2 m ρ c (Proc.devRef .tc main_arg0) := StableHlo.after_of_writes_sub hostOps1 _ hostOps1_writes (r := main_arg0) (by decide)
    _ = bufs1 m ρ c (Proc.devRef .tc main_arg0) := bufs2_of_ne m ρ c main_arg0 (by decide)
    _ = bufs0 m ρ c (Proc.devRef .tc main_arg0) := StableHlo.after_of_writes_sub hostOps0 _ hostOps0_writes (r := main_arg0) (by decide)
    _ = m ((c : Thread nD τ).loc main_arg0) := rfl

/-- `main_arg1` reaches the end as launched: no host operation writes it and no call's result array is it. -/
theorem bufs5_main_arg1 (c : Dev nD) : bufs5 m ρ c (Proc.devRef .tc main_arg1) = m ((c : Thread nD τ).loc main_arg1) :=
  calc bufs5 m ρ c (Proc.devRef .tc main_arg1)
    _ = bufs4 m ρ c (Proc.devRef .tc main_arg1) := StableHlo.after_of_writes_sub hostOps2 _ hostOps2_writes (r := main_arg1) (by decide)
    _ = bufs3 m ρ c (Proc.devRef .tc main_arg1) := bufs4_of_ne m ρ c main_arg1 (by decide)
    _ = bufs2 m ρ c (Proc.devRef .tc main_arg1) := StableHlo.after_of_writes_sub hostOps1 _ hostOps1_writes (r := main_arg1) (by decide)
    _ = bufs1 m ρ c (Proc.devRef .tc main_arg1) := bufs2_of_ne m ρ c main_arg1 (by decide)
    _ = bufs0 m ρ c (Proc.devRef .tc main_arg1) := StableHlo.after_of_writes_sub hostOps0 _ hostOps0_writes (r := main_arg1) (by decide)
    _ = m ((c : Thread nD τ).loc main_arg1) := rfl

/-! ## The proof data of the two calls, and what rides beside the buffers -/

abbrev kadm : (p : Fin 2) → (pcfgs (F := F) p).Adm := fun p => (cfgs p).toPCfg_adm
/-- Each call's proof data at its own entry contents: a literal match on the call's number. -/
def kdat : (p : Fin 2) → (c : Dev nD) → Dat τ (Elt F) Unit ℕ (UR sig nD τ) ℕ (Pipeline.pin (pcfgs (F := F)) kadm p) c
  | ⟨0, _⟩ => fun c => datR0 (entry1 m ρ) c
  | ⟨1, _⟩ => fun c => datR1 (entry3 m ρ) c
abbrev 𝒱none : Variants := Variants.none
abbrev Lnone : GSem nD τ sig → Finset Unit := fun _ => ∅
abbrev lvnone : GSem nD τ sig → Unit → ℕ := fun _ _ => 0
/-- Beside the buffers, through every item: the generator register at some state and the core owing nothing. -/
abbrev rides (c : Dev nD) : sProp 𝕄 := iprop((∃ r, prngReg c r) ∗ ∃ W, owes (c : Thread nD τ) (0 : CellTallies nD τ sig Unit) W)
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱none Lnone lvnone :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rides
theorem mem_ucRefs (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the end contents, the generator register at some state. -/
abbrev endState (c : Dev nD) : sProp 𝕄 := iprop(StableHlo.held (c : Thread nD τ) (Pipeline.ucRefs τ sig) (bufs5 m ρ c) ∗ ∃ r, prngReg c r)

/-! ## The calls as items -/

-- a library lemma stated over the pinned configuration unifies with the printed one only when unification may unfold
-- plain definitions in a metavariable's type
set_option backward.isDefEq.respectTransparency.types false in
/-- Call 0 as an item of @main: entered with every unscoped buffer at `bufs1`, left with them at `bufs2`. Its arrays
    are split out of the unscoped buffers on entry and put back at their final contents on exit; the generator register
    goes into the invariant and comes back; nothing is owed; the kernel has no semaphore of its own. -/
def call0 : Pipeline.RegionSeg (pcfgs (F := F)) kadm (kdat m ρ) () defs₀ 𝒱none Lnone lvnone 0 where
  win := launch0.win.to₀
  block_pos := launch0.block_pos
  stage_whole := launch0.stage_whole
  K := PEmpty
  osem k := k.elim
  ho := Pipeline.OwnSemFacts.none _
  hbody c := (obligationR0 (entry1 m ρ) c).loose
  hwaits := Pipeline.hwaits_of_owed_zero _ _ _ _ Lnone lvnone 0 fun _ _ => rfl
  pre c := iprop(StableHlo.held (c : Thread nD τ) (Pipeline.ucRefs τ sig) (bufs1 m ρ c) ∗ rides c)
  post c := iprop(StableHlo.held (c : Thread nD τ) (Pipeline.ucRefs τ sig) (bufs2 m ρ c) ∗ rides c)
  X c := iprop(∃ r, prngReg c r)
  Y c := iprop(∃ r, prngReg c r)
  Z c := Pipeline.unscopedRest (Ix := Unit) (Name := ℕ) (U := UR sig nD τ) (Lvl := ℕ) spec0 c (entry1 m ρ c)
  hentry c := by
    rw [Pipeline.ownSems0_none]
    have hsplit := Pipeline.arrays_of_unscopedBufs (p := 0) (pcfgs (F := F)) kadm (kdat m ρ) launch0.win launch0.arr_whole c
      ((kdat m ρ 0 c).share_full fun _ => rfl) (entry1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (inv_outR0 (entry1 m ρ) c (Fin.last _) (by rw [Fin.val_last]; have : cfg0.N = 64 := N_0; omega)).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) kadm (Ix := Unit) (Name := ℕ) (U := UR sig nD τ) (Lvl := ℕ)
      launch0.win launch0.arr_whole c (kdat m ρ) ((kdat m ρ 0 c).share_full fun _ => rfl)
      (entry1 m ρ c) (exit2 m ρ c) ((kdat m ρ 0 c).arrAt · cfg0.N) (hfinal0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Call 1 as an item of @main: entered with every unscoped buffer at `bufs3`, left with them at `bufs4`. Its arrays
    are split out of the unscoped buffers on entry and put back at their final contents on exit; the generator register
    goes into the invariant and comes back; nothing is owed; the kernel has no semaphore of its own. -/
def call1 : Pipeline.RegionSeg (pcfgs (F := F)) kadm (kdat m ρ) () defs₀ 𝒱none Lnone lvnone 1 where
  win := launch1.win.to₀
  block_pos := launch1.block_pos
  stage_whole := launch1.stage_whole
  K := PEmpty
  osem k := k.elim
  ho := Pipeline.OwnSemFacts.none _
  hbody c := (obligationR1 (entry3 m ρ) c).loose
  hwaits := Pipeline.hwaits_of_owed_zero _ _ _ _ Lnone lvnone 1 fun _ _ => rfl
  pre c := iprop(StableHlo.held (c : Thread nD τ) (Pipeline.ucRefs τ sig) (bufs3 m ρ c) ∗ rides c)
  post c := iprop(StableHlo.held (c : Thread nD τ) (Pipeline.ucRefs τ sig) (bufs4 m ρ c) ∗ rides c)
  X c := iprop(∃ r, prngReg c r)
  Y c := iprop(∃ r, prngReg c r)
  Z c := Pipeline.unscopedRest (Ix := Unit) (Name := ℕ) (U := UR sig nD τ) (Lvl := ℕ) spec1 c (entry3 m ρ c)
  hentry c := by
    rw [Pipeline.ownSems0_none]
    have hsplit := Pipeline.arrays_of_unscopedBufs (p := 1) (pcfgs (F := F)) kadm (kdat m ρ) launch1.win launch1.arr_whole c
      ((kdat m ρ 1 c).share_full fun _ => rfl) (entry3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (kdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (inv_outR1 (entry3 m ρ) c (Fin.last _) (by rw [Fin.val_last]; have : cfg1.N = 64 := N_1; omega)).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) kadm (Ix := Unit) (Name := ℕ) (U := UR sig nD τ) (Lvl := ℕ)
      launch1.win launch1.arr_whole c (kdat m ρ) ((kdat m ρ 1 c).share_full fun _ => rfl)
      (entry3 m ρ c) (exit4 m ρ c) ((kdat m ρ 1 c).arrAt · cfg1.N) (hfinal1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its items, and the run -/

abbrev items : List (Pipeline.Seg (pcfgs (F := F)) kadm (kdat m ρ) () defs₀ 𝒱none Lnone lvnone) :=
  [ .host (hostItem hostOps0 hostOps0_sub hostOps0_fresh (bufs0 m ρ)),
    .region (call0 m ρ),
    .host (hostItem hostOps1 hostOps1_sub hostOps1_fresh (bufs2 m ρ)),
    .region (call1 m ρ),
    .host (hostItem hostOps2 hostOps2_sub hostOps2_fresh (bufs4 m ρ)) ]
theorem main_items (c : Dev nD) : main (F := F) c = Pipeline.Seg.run (items m ρ) := (main_chain c).trans (by chain_rfl)

set_option backward.isDefEq.respectTransparency.types false in
/-- Every weakly fair execution of @main from memory `m` with zero counters terminates, nothing faulting, and in every
    final state every unscoped buffer of every core holds the end contents `bufs5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bufs5 m ρ c b) :=
  Pipeline.θ_run_regions_kit (pcfgs (F := F)) kadm (kdat m ρ) () cellOf_inj emb₁ defs₀ 𝒱none Lnone lvnone m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m ρ c) ∗ rides c)) (Tₙ := endState m ρ)
    (hch := ⟨fun _ => .rfl, fun _ => .rfl, fun _ => .rfl, fun _ => .rfl, fun _ => .rfl, fun c => by
      show iprop(StableHlo.held (c : Thread nD τ) (Pipeline.ucRefs τ sig) (bufs5 m ρ c) ∗ rides c) ⊢ _
      iintro ⟨Hh, Hp, HO⟩
      isplitl [Hh Hp]
      · isplitl [Hh]; · iexact Hh
        iexact Hp
      iexact HO⟩)
    (hinit := by
      refine Pipeline.initEach Lnone lvnone fun c => ?_
      rw [show unscopedBufs c (fun b => m ((c : Thread nD τ).loc b)) = StableHlo.held (c : Thread nD τ) (Pipeline.ucRefs τ sig) (bufs0 m ρ c)
        from Pipeline.unscopedBufs_held c (bufs0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs5 m ρ c b)
    (hfin := fun c s' => by
      iintro ⟨⟨Hh, -⟩, HSI⟩
      unfold StableHlo.held
      imodintro
      iapply (pointsTo_read_all (Pipeline.ucRefs τ sig) (fun b => (((c : Thread nD τ)).1, b)) (bufs5 m ρ c) s')
      isplitl [Hh] <;> iassumption)
    (hQ := fun s h c => h c)

/-- The frame: both argument arrays end as launched. -/
theorem frame_args : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_ucRefs main_arg0 (by decide))).trans (bufs5_main_arg0 m ρ c),
     (h c _ (mem_ucRefs main_arg1 (by decide))).trans (bufs5_main_arg1 m ρ c)⟩) (run_all m ρ)

end Cert.KernelIdeal.Fr

end
-- ==== Proof.Spec.lean ====
/-
  The mathematics both programs compute, stated once over the extended reals and over no program.

  Two clouds of planar points per batch, `q` and `d` (8 batches, 4096 points, 2 coordinates). For point `n` of `q`
  and point `j` of `d` in batch `b`, `sqd q d b n j` is the squared Euclidean distance
  (q₀ − d₀)² + (q₁ − d₁)², floored at 0; `near q d` is, for every point of `q`, the distance to the nearest point
  of `d` in its batch: the square root of the infimum over `j` of `sqd`. The infimum of the empty family is +∞,
  which is what a running minimum started at +∞ computes.
-/
import Idealize.ShloMosaic.PureOps.Ideal
import Idealize.ShloMosaic.Lib.ValueIdx

noncomputable section

namespace Cert.Spec

open Idealize.ShloMosaic Idealize.ShloMosaic.ValueIdx

/-- A cloud: 8 batches of 4096 planar points. -/
abbrev Pts : Shape := ⟨3, ![8, 4096, 2]⟩
/-- One number per point of a cloud. -/
abbrev PerPt : Shape := ⟨2, ![8, 4096]⟩

/-- The squared planar distance between point `n` of `q` and point `j` of `d` in batch `b`, floored at 0. -/
def sqd (q d : Pts.Idx → EReal) (b : Fin 8) (n j : Fin 4096) : EReal :=
  max ((q (ix3 b n (0 : Fin 2)) - d (ix3 b j (0 : Fin 2))) * (q (ix3 b n (0 : Fin 2)) - d (ix3 b j (0 : Fin 2)))
    + (q (ix3 b n (1 : Fin 2)) - d (ix3 b j (1 : Fin 2))) * (q (ix3 b n (1 : Fin 2)) - d (ix3 b j (1 : Fin 2)))) 0

/-- For every point of `q`, its distance to the nearest point of `d` in the same batch. -/
def near (q d : Pts.Idx → EReal) : PerPt.Idx → EReal :=
  fun i => Ideal.sqrt (Finset.univ.inf fun j : Fin 4096 => sqd q d (i 0) (i 1) j)

theorem near_apply (q d : Pts.Idx → EReal) (b : Fin 8) (n : Fin 4096) :
    near q d (ix2 b n) = Ideal.sqrt (Finset.univ.inf fun j : Fin 4096 => sqd q d b n j) := rfl

/-- The distance is symmetric in the two points: (a − c)² = (c − a)² on the reals. -/
theorem sqd_comm (q d : Pts.Idx → EReal) (hq : ∀ i, ∃ r : ℝ, q i = (r : EReal)) (hd : ∀ i, ∃ r : ℝ, d i = (r : EReal))
    (b : Fin 8) (n j : Fin 4096) : sqd q d b n j = sqd d q b j n := by
  obtain ⟨a0, h0⟩ := hq (ix3 b n (0 : Fin 2)); obtain ⟨a1, h1⟩ := hq (ix3 b n (1 : Fin 2))
  obtain ⟨c0, g0⟩ := hd (ix3 b j (0 : Fin 2)); obtain ⟨c1, g1⟩ := hd (ix3 b j (1 : Fin 2))
  unfold sqd
  rw [h0, h1, g0, g1]
  simp only [← EReal.coe_sub, ← EReal.coe_mul, ← EReal.coe_add]
  congr 2
  ring

/-! ## The same, over the four arrays a nearest-point call is handed

The call takes the query cloud as two column arrays (coordinate 0 and coordinate 1, each [8, 4096, 1]) and the database
cloud as two row arrays (each [8, 1, 4096]). -/

/-- A cloud's one coordinate as a column array, and as a row array. -/
abbrev Col : Shape := ⟨3, ![8, 4096, 1]⟩
abbrev Row : Shape := ⟨3, ![8, 1, 4096]⟩

/-- The floored squared distance from the two query columns and the two database rows. -/
def sqd4 (Q0 Q1 : Col.Idx → EReal) (D0 D1 : Row.Idx → EReal) (b : Fin 8) (n j : Fin 4096) : EReal :=
  max ((Q0 (ix3 b n (0 : Fin 1)) - D0 (ix3 b (0 : Fin 1) j)) * (Q0 (ix3 b n (0 : Fin 1)) - D0 (ix3 b (0 : Fin 1) j))
    + (Q1 (ix3 b n (0 : Fin 1)) - D1 (ix3 b (0 : Fin 1) j)) * (Q1 (ix3 b n (0 : Fin 1)) - D1 (ix3 b (0 : Fin 1) j))) 0

/-- For every query point, the distance to the nearest database point of its batch, from the four arrays. -/
def near4 (Q0 Q1 : Col.Idx → EReal) (D0 D1 : Row.Idx → EReal) : PerPt.Idx → EReal :=
  fun i => Ideal.sqrt (Finset.univ.inf fun j : Fin 4096 => sqd4 Q0 Q1 D0 D1 (i 0) (i 1) j)

/-- When the four arrays are the coordinates of the clouds `q` and `d`, this is `near q d`. -/
theorem near4_eq_near (q d : Pts.Idx → EReal) (Q0 Q1 : Col.Idx → EReal) (D0 D1 : Row.Idx → EReal)
    (h0 : ∀ (b : Fin 8) (n : Fin 4096), Q0 (ix3 b n (0 : Fin 1)) = q (ix3 b n (0 : Fin 2)))
    (h1 : ∀ (b : Fin 8) (n : Fin 4096), Q1 (ix3 b n (0 : Fin 1)) = q (ix3 b n (1 : Fin 2)))
    (g0 : ∀ (b : Fin 8) (j : Fin 4096), D0 (ix3 b (0 : Fin 1) j) = d (ix3 b j (0 : Fin 2)))
    (g1 : ∀ (b : Fin 8) (j : Fin 4096), D1 (ix3 b (0 : Fin 1) j) = d (ix3 b j (1 : Fin 2))) :
    near4 Q0 Q1 D0 D1 = near q d := by
  funext i
  obtain ⟨b, n, rfl⟩ : ∃ (b : Fin 8) (n : Fin 4096), i = ix2 b n := ⟨i 0, i 1, eq_ix2 i⟩
  show Ideal.sqrt (Finset.univ.inf fun j : Fin 4096 => sqd4 Q0 Q1 D0 D1 b n j)
    = Ideal.sqrt (Finset.univ.inf fun j : Fin 4096 => sqd q d b n j)
  refine congrArg Ideal.sqrt (Finset.inf_congr rfl fun j _ => ?_)
  unfold sqd4 sqd
  rw [h0, h1, g0, g1]

end Cert.Spec

end
-- ==== Proof.KernelIdeal.Glue.lean ====
/-
  The host operations around the two calls, read at an entry, at the extended reals.

  Before the first call @main cuts the cloud x into its two coordinate columns ([8,4096,1] slices) and the cloud t into
  its two coordinate rows (a slice, a reshape to [8,4096] and a broadcast to [8,1,4096]); before the second call it does
  the same with the roles of x and t exchanged. So the arrays each call is handed are coordinates of the launch arrays,
  entry by entry. After the second call @main takes the mean of each call's result and adds the two means.
-/
import proofs.«100872_j40888088658143_1_alg».proof.Proof.KernelIdeal.MainRun
import proofs.«100872_j40888088658143_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-- The launch contents of the two clouds on core `c`. -/
abbrev cloudX (c : Dev nD) : Cert.Spec.Pts.Idx → EReal := m ((c : Thread nD τ).loc main_arg0)
abbrev cloudT (c : Dev nD) : Cert.Spec.Pts.Idx → EReal := m ((c : Thread nD τ).loc main_arg1)

/-! ## Slices, a reshape and a broadcast, read at an entry -/

section Layout
variable {α : Type}

/-- The slice that keeps coordinate 0 of every point, at (b, n, 0), is the array at (b, n, 0). -/
theorem sliceCol0_apply (X : S8x4096x2.Idx → α) (h : S8x4096x2.Slices ![0, 0, 0] S8x4096x1) (b : Fin 8) (n : Fin 4096) :
    extractStridedSlice S8x4096x1 ![0, 0, 0] X h (ix3 b n (0 : Fin 1)) = X (ix3 b n (0 : Fin 2)) :=
  extractStridedSlice_apply _ X h _ _ fun a => match a with
    | ⟨0, _⟩ => by show b.val = 0 + b.val; omega
    | ⟨1, _⟩ => by show n.val = 0 + n.val; omega
    | ⟨2, _⟩ => by show 0 = 0 + 0; rfl

/-- The slice that keeps coordinate 1 of every point, at (b, n, 0), is the array at (b, n, 1). -/
theorem sliceCol1_apply (X : S8x4096x2.Idx → α) (h : S8x4096x2.Slices ![0, 0, 1] S8x4096x1) (b : Fin 8) (n : Fin 4096) :
    extractStridedSlice S8x4096x1 ![0, 0, 1] X h (ix3 b n (0 : Fin 1)) = X (ix3 b n (1 : Fin 2)) :=
  extractStridedSlice_apply _ X h _ _ fun a => match a with
    | ⟨0, _⟩ => by show b.val = 0 + b.val; omega
    | ⟨1, _⟩ => by show n.val = 0 + n.val; omega
    | ⟨2, _⟩ => by show 1 = 1 + 0; rfl

/-- A column [8,4096,1] laid as a row [8,1,4096]: entry (b, 0, j) of the row is entry (b, j, 0) of the column. -/
theorem rowOfCol_apply (Y : S8x4096x1.Idx → α) (hs : S8x4096x1.ShapeCasts S8x4096)
    (hb : S8x4096.BroadcastsInDim S8x1x4096 (![0, 2] : Fin 2 → Fin S8x1x4096.rank)) (b : Fin 8) (j : Fin 4096) :
    broadcastInDim S8x1x4096 ![0, 2] hb (shapeCast S8x4096 Y hs) (ix3 b (0 : Fin 1) j) = Y (ix3 b j (0 : Fin 1)) := by
  refine (broadcastInDim_apply _ hb _ (ix3 b (0 : Fin 1) j) (ix2 b j) fun a => match a with
    | ⟨0, _⟩ => by show b.val = if (8 : Nat) = 1 then 0 else b.val; rw [if_neg (by decide)]
    | ⟨1, _⟩ => by show j.val = if (4096 : Nat) = 1 then 0 else j.val; rw [if_neg (by decide)]).trans ?_
  refine shapeCast_apply Y hs (ix2 b j) (ix3 b j (0 : Fin 1)) ?_
  rw [Shape.rowMajor_val_three, Shape.rowMajor_val_two]
  show (b.val * 4096 + j.val) * 1 + 0 = b.val * 4096 + j.val
  omega

end Layout

/-! ## What the first call is handed: x's columns, t's rows -/

theorem entry1_col0 (c : Dev nD) (b : Fin 8) (n : Fin 4096) :
    (entry1 m ρ c (Pipeline.arrRef spec0 0) : Cert.Spec.Col.Idx → EReal) (ix3 b n (0 : Fin 1)) = cloudX m c (ix3 b n (0 : Fin 2)) := by
  show (StableHlo.after hostOps0 (bufs0 m ρ c) (Proc.devRef .tc main_v0) : Cert.Spec.Col.Idx → EReal) (ix3 b n (0 : Fin 1)) = _
  after_results
  exact sliceCol0_apply _ _ b n
theorem entry1_col1 (c : Dev nD) (b : Fin 8) (n : Fin 4096) :
    (entry1 m ρ c (Pipeline.arrRef spec0 1) : Cert.Spec.Col.Idx → EReal) (ix3 b n (0 : Fin 1)) = cloudX m c (ix3 b n (1 : Fin 2)) := by
  show (StableHlo.after hostOps0 (bufs0 m ρ c) (Proc.devRef .tc main_v1) : Cert.Spec.Col.Idx → EReal) (ix3 b n (0 : Fin 1)) = _
  after_results
  exact sliceCol1_apply _ _ b n
theorem entry1_row0 (c : Dev nD) (b : Fin 8) (j : Fin 4096) :
    (entry1 m ρ c (Pipeline.arrRef spec0 2) : Cert.Spec.Row.Idx → EReal) (ix3 b (0 : Fin 1) j) = cloudT m c (ix3 b j (0 : Fin 2)) := by
  show (StableHlo.after hostOps0 (bufs0 m ρ c) (Proc.devRef .tc main_v4) : Cert.Spec.Row.Idx → EReal) (ix3 b (0 : Fin 1) j) = _
  after_results
  refine (rowOfCol_apply _ _ _ b j).trans ?_
  exact sliceCol0_apply _ _ b j
theorem entry1_row1 (c : Dev nD) (b : Fin 8) (j : Fin 4096) :
    (entry1 m ρ c (Pipeline.arrRef spec0 3) : Cert.Spec.Row.Idx → EReal) (ix3 b (0 : Fin 1) j) = cloudT m c (ix3 b j (1 : Fin 2)) := by
  show (StableHlo.after hostOps0 (bufs0 m ρ c) (Proc.devRef .tc main_v7) : Cert.Spec.Row.Idx → EReal) (ix3 b (0 : Fin 1) j) = _
  after_results
  refine (rowOfCol_apply _ _ _ b j).trans ?_
  exact sliceCol1_apply _ _ b j

/-! ## What the second call is handed: t's columns, x's rows -/

/-- The first cloud is as launched when the second host stretch reads it: the first stretch does not write it and it
    is no array of the first call. -/
theorem bufs2_main_arg0 (c : Dev nD) : bufs2 m ρ c (Proc.devRef .tc main_arg0) = m ((c : Thread nD τ).loc main_arg0) :=
  (bufs2_of_ne m ρ c main_arg0 (by decide)).trans
    ((StableHlo.after_of_writes_sub hostOps0 _ hostOps0_writes (r := main_arg0) (by decide)).trans rfl)
/-- So is the second cloud. -/
theorem bufs2_main_arg1 (c : Dev nD) : bufs2 m ρ c (Proc.devRef .tc main_arg1) = m ((c : Thread nD τ).loc main_arg1) :=
  (bufs2_of_ne m ρ c main_arg1 (by decide)).trans
    ((StableHlo.after_of_writes_sub hostOps0 _ hostOps0_writes (r := main_arg1) (by decide)).trans rfl)

theorem entry3_col0 (c : Dev nD) (b : Fin 8) (n : Fin 4096) :
    (entry3 m ρ c (Pipeline.arrRef spec1 0) : Cert.Spec.Col.Idx → EReal) (ix3 b n (0 : Fin 1)) = cloudT m c (ix3 b n (0 : Fin 2)) := by
  show (StableHlo.after hostOps1 (bufs2 m ρ c) (Proc.devRef .tc main_v9) : Cert.Spec.Col.Idx → EReal) (ix3 b n (0 : Fin 1)) = _
  after_results
  rw [bufs2_main_arg1]
  exact sliceCol0_apply _ _ b n
theorem entry3_col1 (c : Dev nD) (b : Fin 8) (n : Fin 4096) :
    (entry3 m ρ c (Pipeline.arrRef spec1 1) : Cert.Spec.Col.Idx → EReal) (ix3 b n (0 : Fin 1)) = cloudT m c (ix3 b n (1 : Fin 2)) := by
  show (StableHlo.after hostOps1 (bufs2 m ρ c) (Proc.devRef .tc main_v10) : Cert.Spec.Col.Idx → EReal) (ix3 b n (0 : Fin 1)) = _
  after_results
  rw [bufs2_main_arg1]
  exact sliceCol1_apply _ _ b n
theorem entry3_row0 (c : Dev nD) (b : Fin 8) (j : Fin 4096) :
    (entry3 m ρ c (Pipeline.arrRef spec1 2) : Cert.Spec.Row.Idx → EReal) (ix3 b (0 : Fin 1) j) = cloudX m c (ix3 b j (0 : Fin 2)) := by
  show (StableHlo.after hostOps1 (bufs2 m ρ c) (Proc.devRef .tc main_v13) : Cert.Spec.Row.Idx → EReal) (ix3 b (0 : Fin 1) j) = _
  after_results
  rw [bufs2_main_arg0]
  refine (rowOfCol_apply _ _ _ b j).trans ?_
  exact sliceCol0_apply _ _ b j
theorem entry3_row1 (c : Dev nD) (b : Fin 8) (j : Fin 4096) :
    (entry3 m ρ c (Pipeline.arrRef spec1 3) : Cert.Spec.Row.Idx → EReal) (ix3 b (0 : Fin 1) j) = cloudX m c (ix3 b j (1 : Fin 2)) := by
  show (StableHlo.after hostOps1 (bufs2 m ρ c) (Proc.devRef .tc main_v16) : Cert.Spec.Row.Idx → EReal) (ix3 b (0 : Fin 1) j) = _
  after_results
  rw [bufs2_main_arg0]
  refine (rowOfCol_apply _ _ _ b j).trans ?_
  exact sliceCol1_apply _ _ b j

/-! ## The two results at the end, and the last host stretch -/

/-- The mean of `a` plus the mean of `b`, as @main's last nine operations compute it. -/
def meanSum (a b : Cert.Spec.PerPt.Idx → EReal) : (⟨S_, .f32⟩ : BufTy).Contents (Elt Ideal) :=
  addf (Host.divf (Host.reduceAdd (F := Ideal) (s := S8x4096) a (constant (F := Ideal) S_ .f32 0x00000000#32) reducesTo_S8x4096_S_d0_1 h_S_) (constant (F := Ideal) S_ .f32 0x47000000#32))
    (Host.divf (Host.reduceAdd (F := Ideal) (s := S8x4096) b (constant (F := Ideal) S_ .f32 0x00000000#32) reducesTo_S8x4096_S_d0_1 h_S_) (constant (F := Ideal) S_ .f32 0x47000000#32))

/-- The first call's result array is not touched between its exit and the end. -/
theorem first_result_kept (c : Dev nD) :
    bufs4 m ρ c (Proc.devRef .tc main_v8) = (datR0 (entry1 m ρ) c).arrAt 4 cfg0.N :=
  calc bufs4 m ρ c (Proc.devRef .tc main_v8)
    _ = bufs3 m ρ c (Proc.devRef .tc main_v8) := bufs4_of_ne m ρ c main_v8 (by decide)
    _ = bufs2 m ρ c (Proc.devRef .tc main_v8) := StableHlo.after_of_writes_sub hostOps1 _ hostOps1_writes (r := main_v8) (by decide)
    _ = (datR0 (entry1 m ρ) c).arrAt 4 cfg0.N := bufs2_arr m ρ c 4
/-- The second call's result array at its exit. -/
theorem second_result (c : Dev nD) :
    bufs4 m ρ c (Proc.devRef .tc main_v17) = (datR1 (entry3 m ρ) c).arrAt 4 cfg1.N :=
  bufs4_arr m ρ c 4
/-- The program's result: the mean of the second call's result plus the mean of the first's. -/
theorem end_value (c : Dev nD) :
    bufs5 m ρ c (Proc.devRef .tc main_v22) = meanSum (bufs4 m ρ c (Proc.devRef .tc main_v17)) (bufs4 m ρ c (Proc.devRef .tc main_v8)) := by
  show StableHlo.after hostOps2 (bufs4 m ρ c) (Proc.devRef .tc main_v22) = _
  after_results
  rfl

end Cert.KernelIdeal.Fr

end
-- ==== Proof.KernelIdeal.EndValue.lean ====
/-
  The kernel program's result, as a function of the two launch clouds.

  The first call is handed x's columns and t's rows, so its result array is, for every point of x, the distance to the
  nearest point of t; the second call is handed t's columns and x's rows, so its result is, for every point of t, the
  distance to the nearest point of x. The program returns the mean of the second plus the mean of the first.
-/
import proofs.«100872_j40888088658143_1_alg».proof.Proof.KernelIdeal.Glue

noncomputable section

namespace Cert.KernelIdeal.Fr

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg)

/-- Given what each call's result array holds in terms of the four arrays the call is handed, the program's result is the
    mean over t's points of the distance to the nearest point of x, plus the mean over x's points of the distance to the
    nearest point of t. -/
theorem kernel_value_of (c : Dev nD)
    (hfirst : (datR0 (F := Ideal) (entry1 m ρ) c).arrAt 4 cfg0.N
      = Cert.Spec.near4 (entry1 m ρ c (Pipeline.arrRef spec0 0)) (entry1 m ρ c (Pipeline.arrRef spec0 1)) (entry1 m ρ c (Pipeline.arrRef spec0 2)) (entry1 m ρ c (Pipeline.arrRef spec0 3)))
    (hsecond : (datR1 (F := Ideal) (entry3 m ρ) c).arrAt 4 cfg1.N
      = Cert.Spec.near4 (entry3 m ρ c (Pipeline.arrRef spec1 0)) (entry3 m ρ c (Pipeline.arrRef spec1 1)) (entry3 m ρ c (Pipeline.arrRef spec1 2)) (entry3 m ρ c (Pipeline.arrRef spec1 3))) :
    bufs5 m ρ c (Proc.devRef .tc main_v22)
      = meanSum (Cert.Spec.near (cloudT m c) (cloudX m c)) (Cert.Spec.near (cloudX m c) (cloudT m c)) := by
  have h8 : bufs4 m ρ c (Proc.devRef .tc main_v8) = Cert.Spec.near (cloudX m c) (cloudT m c) :=
    (first_result_kept m ρ c).trans (hfirst.trans
      (Cert.Spec.near4_eq_near (cloudX m c) (cloudT m c) _ _ _ _ (entry1_col0 m ρ c) (entry1_col1 m ρ c) (entry1_row0 m ρ c) (entry1_row1 m ρ c)))
  have h17 : bufs4 m ρ c (Proc.devRef .tc main_v17) = Cert.Spec.near (cloudT m c) (cloudX m c) :=
    (second_result m ρ c).trans (hsecond.trans
      (Cert.Spec.near4_eq_near (cloudT m c) (cloudX m c) _ _ _ _ (entry3_col0 m ρ c) (entry3_col1 m ρ c) (entry3_row0 m ρ c) (entry3_row1 m ρ c)))
  rw [end_value, h8, h17]

end Cert.KernelIdeal.Fr

end
-- ==== Proof.KernelIdeal.Pieces0.lean ====
/-
  Region 0: what the body's stores amount to, and the body's arithmetic read at one entry.

  Each case's stores, read back, are the body's named payloads: the running minimum after a point is the payload
  "minimum of what the scratch held and the tile's row minima", over a scratch just reset to +∞ at column tile 0 and
  over what the point before left at the later tiles; the result block at column tile 3 is the square root of that.
  At the extended reals the tile's row minimum at row (b, r) is the infimum over the tile's 1024 columns j of
  (x₀(b,r) − y₀(b,j))² + (x₁(b,r) − y₁(b,j))² floored at 0.
-/
import proofs.«100872_j40888088658143_1_alg».proof.Proof.KernelIdeal.Region0
import Idealize.ShloMosaic.Lib.ValueIdx
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The stores as payloads -/

/-- The zero offsets of a rank-2 store, spelt as the stores spell them. -/
theorem hzR0 : (![0, 0] : Fin 2 → Nat) = fun _ => 0 := funext fun a => by fin_cases a <;> rfl
/-- The zero offsets of a rank-3 load. -/
theorem hz3R0 : (![0, 0, 0] : Fin 3 → Nat) = fun _ => 0 := funext fun a => by fin_cases a <;> rfl

theorem accA_eqR0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR0 i) (hc1 : ¬lastR0 i)
    (x0 : Vec F S8x256x1 .f32) (x1 : Vec F S8x256x1 .f32) (x2 : Vec F S8x1x1024 .f32) (x3 : Vec F S8x1x1024 .f32) :
    accA_R0 (F := F) c i arg2 harg2 arg3 harg3 arg4 harg4 arg5 harg5 arg6 harg6 arg7 harg7 hc0 hc1 x0 x1 x2 x3 = k0_pay2 x0 x1 x2 x3 (k0_pay1 (F := F)) := by
  unfold accA_R0
  rw [View.read_writes_eq_canon _ _ _ (scoverA_R0 c i arg2 harg2 arg3 harg3 arg4 harg4 arg5 harg5 arg6 harg6 arg7 harg7 hc0 hc1 x0 x1 x2 x3)]
  unfold runA_R0
  dsimp only
  sl_unfold_words
  rw [View.canon_cons_unit_zero (S := S8x256) hzR0]
  simp only [View.readAt_eq_ld, harg2.read_unread, harg3.read_unread, harg4.read_unread, harg5.read_unread, harg7.read_unread,
    View.ld_unit_zero (S := S8x256x1) hz3R0, View.ld_unit_zero (S := S8x1x1024) hz3R0, View.ld_unit_zero (S := S8x256) hzR0,
    View.readCov_unit_zero (S := S8x256) _ hzR0]

theorem accB_eqR0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : ¬lastR0 i)
    (x0 : Vec F S8x256x1 .f32) (x1 : Vec F S8x256x1 .f32) (x2 : Vec F S8x1x1024 .f32) (x3 : Vec F S8x1x1024 .f32) (xs : Vec F S8x256 .f32) :
    accB_R0 (F := F) c i arg2 harg2 arg3 harg3 arg4 harg4 arg5 harg5 arg6 harg6 arg7 harg7 hc0 hc1 x0 x1 x2 x3 xs = k0_pay2 x0 x1 x2 x3 xs := by
  unfold accB_R0
  rw [View.read_writes_eq_canon _ _ _ (scoverB_R0 c i arg2 harg2 arg3 harg3 arg4 harg4 arg5 harg5 arg6 harg6 arg7 harg7 hc0 hc1 x0 x1 x2 x3 xs)]
  unfold runB_R0
  dsimp only
  sl_unfold_words
  rw [View.canon_unit_zero (S := S8x256) hzR0]
  simp only [View.readAt_eq_ld, harg2.read_unread, harg3.read_unread, harg4.read_unread, harg5.read_unread, harg7.read_unread,
    View.ld_unit_zero (S := S8x256x1) hz3R0, View.ld_unit_zero (S := S8x1x1024) hz3R0, View.ld_unit_zero (S := S8x256) hzR0]

theorem accC_eqR0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) :
    accC_R0 (F := F) c i arg2 harg2 arg3 harg3 arg4 harg4 arg5 harg5 arg6 harg6 arg7 harg7 hc0 hc1 x0 x1 x2 x3 xs = k0_pay2 x0 x1 x2 x3 xs := by
  unfold accC_R0
  rw [View.read_writes_eq_canon _ _ _ (scoverC_R0 c i arg2 harg2 arg3 harg3 arg4 harg4 arg5 harg5 arg6 harg6 arg7 harg7 hc0 hc1 x0 x1 x2 x3 xs)]
  unfold runC_R0
  dsimp only
  sl_unfold_words
  rw [View.canon_unit_zero (S := S8x256) hzR0]
  simp only [View.readAt_eq_ld, harg2.read_unread, harg3.read_unread, harg4.read_unread, harg5.read_unread, harg7.read_unread,
    View.ld_unit_zero (S := S8x256x1) hz3R0, View.ld_unit_zero (S := S8x1x1024) hz3R0, View.ld_unit_zero (S := S8x256) hzR0]

theorem outC_eqR0 (c : Dev nD) (i : grid0.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR0 i) (hc1 : lastR0 i)
    (x0 : Vec F S8x256x1 .f32) (x1 : Vec F S8x256x1 .f32) (x2 : Vec F S8x1x1024 .f32) (x3 : Vec F S8x1x1024 .f32) (xs : Vec F S8x256 .f32) :
    outC_R0 (F := F) c i arg2 harg2 arg3 harg3 arg4 harg4 arg5 harg5 arg6 harg6 arg7 harg7 hc0 hc1 x0 x1 x2 x3 xs = k0_pay3 (k0_pay2 x0 x1 x2 x3 xs) := by
  unfold outC_R0
  rw [View.read_writes_eq_canon _ _ _ (ocoverC_R0 c i arg2 harg2 arg3 harg3 arg4 harg4 arg5 harg5 arg6 harg6 arg7 harg7 hc0 hc1 x0 x1 x2 x3 xs)]
  unfold runC_R0
  dsimp only
  sl_unfold_words
  rw [View.canon_unit_zero (S := S8x256) hzR0]
  simp only [View.readAt_eq_ld, harg2.read_unread, harg3.read_unread, harg4.read_unread, harg5.read_unread, harg7.read_unread,
    View.ld_unit_zero (S := S8x256x1) hz3R0, View.ld_unit_zero (S := S8x1x1024) hz3R0, View.ld_unit_zero (S := S8x256) hzR0,
    View.readCov_unit_zero (S := S8x256) _ hzR0]

/-! ## The payloads at an entry, at the extended reals -/

/-- A minimum over one axis, at the extended reals: the fold of `min` from the initial word's value over that
    axis's coordinates. -/
theorem multiReduction_minimumf_singleR0 {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A fold of `min` from +∞ is the infimum. -/
theorem fold_min_top_eq_infR0 {n : Nat} (f : Fin n → EReal) :
    (Finset.univ : Finset (Fin n)).fold min (⊤ : EReal) f = Finset.univ.inf f := by
  refine eq_of_forall_le_iff fun c => ?_
  rw [Finset.le_fold_min, Finset.le_inf_iff]
  simp

/-- The word 0x7F800000 is +∞. -/
theorem ofBits_infR0 : Ideal.ofBits .f32 0x7F800000#32 = (⊤ : EReal) := by simp [Ideal.ofBits, Ideal.ieee]

/-- The source index over row (b, r) with column j inserted is (b, r, j). -/
theorem lift_ix2R0 (b : Fin 8) (r : Fin 256) (j : Fin 1024) :
    reduces_S8x256x1024_S8x256.lift (ix2 b r) j = ix3 b r j := by
  funext c
  match c with
  | ⟨0, _⟩ => exact Fin.ext rfl
  | ⟨1, _⟩ => exact Fin.ext rfl
  | ⟨2, _⟩ => exact Fin.ext rfl

/-- A column [8,256,1] spread over the 1024 lanes reads its own entry at every lane. -/
theorem bcast_colR0 {α : Type} (v : S8x256x1.Idx → α) (b : Fin 8) (r : Fin 256) (j : Fin 1024) :
    broadcastTo S8x256x1024 v broadcasts_S8x256x1_S8x256x1024 (ix3 b r j) = v (ix3 b r (0 : Fin 1)) := by
  refine broadcastTo_apply v _ (ix3 b r j) (ix3 b r (0 : Fin 1)) fun ax => ?_
  match ax with
  | ⟨0, _⟩ => rfl
  | ⟨1, _⟩ => rfl
  | ⟨2, _⟩ => rfl

/-- A row [8,1,1024] spread over the 256 sublanes reads its own entry at every sublane. -/
theorem bcast_rowR0 {α : Type} (v : S8x1x1024.Idx → α) (b : Fin 8) (r : Fin 256) (j : Fin 1024) :
    broadcastTo S8x256x1024 v broadcasts_S8x1x1024_S8x256x1024 (ix3 b r j) = v (ix3 b (0 : Fin 1) j) := by
  refine broadcastTo_apply v _ (ix3 b r j) (ix3 b (0 : Fin 1) j) fun ax => ?_
  match ax with
  | ⟨0, _⟩ => rfl
  | ⟨1, _⟩ => rfl
  | ⟨2, _⟩ => rfl

/-- The reset value: +∞ everywhere. -/
theorem pay1_applyR0 (b : Fin 8) (r : Fin 256) : k0_pay1 (F := Ideal) (ix2 b r) = (⊤ : EReal) := by
  unfold k0_pay1
  exact ofBits_infR0

/-- The tile's floored squared distance at row (b, r) and column j of the tile. -/
def tileSqdR0 (x0 x1 : Vec Ideal S8x256x1 .f32) (x2 x3 : Vec Ideal S8x1x1024 .f32) (b : Fin 8) (r : Fin 256) (j : Fin 1024) : EReal :=
  max ((x0 (ix3 b r (0 : Fin 1)) - x2 (ix3 b (0 : Fin 1) j)) * (x0 (ix3 b r (0 : Fin 1)) - x2 (ix3 b (0 : Fin 1) j))
    + (x1 (ix3 b r (0 : Fin 1)) - x3 (ix3 b (0 : Fin 1) j)) * (x1 (ix3 b r (0 : Fin 1)) - x3 (ix3 b (0 : Fin 1) j))) 0

/-- The floored sum of two squared differences, read at (b, r, j), once each of its four operands is known there. -/
theorem tile_entryR0 (x0 x1 : Vec Ideal S8x256x1 .f32) (x2 x3 : Vec Ideal S8x1x1024 .f32) (b : Fin 8) (r : Fin 256) (j : Fin 1024)
    (A0 B0 A1 B1 : FVec Ideal S8x256x1024 .f32)
    (h0 : A0 (ix3 b r j) = x0 (ix3 b r (0 : Fin 1))) (h2 : B0 (ix3 b r j) = x2 (ix3 b (0 : Fin 1) j))
    (h1 : A1 (ix3 b r j) = x1 (ix3 b r (0 : Fin 1))) (h3 : B1 (ix3 b r j) = x3 (ix3 b (0 : Fin 1) j)) :
    maximumf (addf (mulf (subf A0 B0) (subf A0 B0)) (mulf (subf A1 B1) (subf A1 B1)))
        (broadcast S8x256x1024 (FloatOps.ofBits (F := Ideal) .f32 0x00000000#32)) (ix3 b r j)
      = tileSqdR0 x0 x1 x2 x3 b r j := by
  show max ((A0 (ix3 b r j) - B0 (ix3 b r j)) * (A0 (ix3 b r j) - B0 (ix3 b r j))
      + (A1 (ix3 b r j) - B1 (ix3 b r j)) * (A1 (ix3 b r j) - B1 (ix3 b r j))) (Ideal.ofBits .f32 0x00000000#32) = _
  rw [h0, h1, h2, h3, Ideal.ofBits_zero_f32]
  rfl

/-- The update: the old running minimum lowered by the tile's row minimum. -/
theorem pay2_applyR0 (x0 x1 : Vec Ideal S8x256x1 .f32) (x2 x3 : Vec Ideal S8x1x1024 .f32) (xs : Vec Ideal S8x256 .f32) (b : Fin 8) (r : Fin 256) :
    k0_pay2 (F := Ideal) x0 x1 x2 x3 xs (ix2 b r) = min (xs (ix2 b r)) (Finset.univ.inf fun j : Fin 1024 => tileSqdR0 x0 x1 x2 x3 b r j) := by
  unfold k0_pay2
  refine (congrFun (shapeCast_self _ _) (ix2 b r)).trans ?_
  refine congrArg (min (xs (ix2 b r))) ?_
  refine (multiReduction_minimumf_singleR0 _ _ reduces_S8x256x1024_S8x256 _ _ (ix2 b r)).trans ?_
  refine (congrArg (fun z => (Finset.univ : Finset (Fin 1024)).fold min z _) ofBits_infR0).trans ?_
  refine (fold_min_top_eq_infR0 _).trans ?_
  refine Finset.inf_congr rfl fun j _ => ?_
  refine (congrArg (maximumf _ _) (lift_ix2R0 b r j)).trans ?_
  exact tile_entryR0 x0 x1 x2 x3 b r j _ _ _ _
    ((bcast_colR0 _ b r j).trans (congrFun (shapeCast_self x0 _) _))
    ((bcast_rowR0 _ b r j).trans (congrFun (shapeCast_self x2 _) _))
    ((bcast_colR0 _ b r j).trans (congrFun (shapeCast_self x1 _) _))
    ((bcast_rowR0 _ b r j).trans (congrFun (shapeCast_self x3 _) _))

/-- The result: the square root, entry by entry. -/
theorem pay3_applyR0 (v : Vec Ideal S8x256 .f32) (i : S8x256.Idx) : k0_pay3 (F := Ideal) v i = Ideal.sqrt (v i) := by
  rfl

end Cert.KernelIdeal.Fr

end
-- ==== Proof.KernelIdeal.Value0.lean ====
/-
  Region 0: the result array after the 64 points is the nearest-point function of the four input arrays.

  Point t works on row tile t / 4 (query points 256 · (t / 4) … 256 · (t / 4) + 255) and column tile t % 4 (database points
  1024 · (t % 4) … 1024 · (t % 4) + 1023). A block's entry is its array's entry at block index × block size + the place in
  the block, so the tile's squared distance at (r, j) is the clouds' at (256 · (t / 4) + r, 1024 · (t % 4) + j). By
  induction on the point, the running minimum after point t is, at row r, the infimum of the squared distances from
  query point 256 · (t / 4) + r to the database points below 1024 · (t % 4 + 1): the infimum over the columns below
  1024 · (k + 1) is the smaller of the infimum over those below 1024 · k and the infimum over tile k, and over no
  column it is +∞, which is what the reset leaves. At column tile 3 the bound is 4096, every database point, and the
  block written back is the square root of that infimum: the block of the nearest-point function at rows
  256 · (t / 4) …. Row n of the array lies in the block written back at point 4 · (n / 256) + 3, so these blocks cover
  the array.
-/
import proofs.«100872_j40888088658143_1_alg».proof.Proof.KernelIdeal.Pieces0
import proofs.«100872_j40888088658143_1_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The grid has 64 points. -/
theorem pt_ltR0 (t : Fin cfg0.N) : t.val < 64 := lt_of_lt_of_eq t.isLt (show cfg0.N = 64 from N_0)

/-! ## The four arrays and the four blocks, at their literal types -/

/-- The query cloud's two coordinate columns and the database cloud's two coordinate rows, as the region finds them. -/
abbrev qxR0 (c : Dev nD) : Cert.Spec.Col.Idx → EReal := V c (Pipeline.arrRef spec0 0)
abbrev qyR0 (c : Dev nD) : Cert.Spec.Col.Idx → EReal := V c (Pipeline.arrRef spec0 1)
abbrev dxR0 (c : Dev nD) : Cert.Spec.Row.Idx → EReal := V c (Pipeline.arrRef spec0 2)
abbrev dyR0 (c : Dev nD) : Cert.Spec.Row.Idx → EReal := V c (Pipeline.arrRef spec0 3)

/-- Their blocks at a point: 256 query points, 1024 database points. -/
abbrev qxBlkR0 (c : Dev nD) (t : Fin cfg0.N) : Vec Ideal S8x256x1 .f32 := blkR0 V c 0 t
abbrev qyBlkR0 (c : Dev nD) (t : Fin cfg0.N) : Vec Ideal S8x256x1 .f32 := blkR0 V c 1 t
abbrev dxBlkR0 (c : Dev nD) (t : Fin cfg0.N) : Vec Ideal S8x1x1024 .f32 := blkR0 V c 2 t
abbrev dyBlkR0 (c : Dev nD) (t : Fin cfg0.N) : Vec Ideal S8x1x1024 .f32 := blkR0 V c 3 t

/-- The block indices over the grid: the query windows and the result window sit at row tile t / 4, the database
    windows at column tile t % 4, every other axis at block 0. -/
theorem idxR0 : ∀ t : Fin cfg0.N,
    (win0_0.index t (0 : Fin 3) = 0 ∧ win0_0.index t (1 : Fin 3) = t.val / 4 ∧ win0_0.index t (2 : Fin 3) = 0)
    ∧ (win0_1.index t (0 : Fin 3) = 0 ∧ win0_1.index t (1 : Fin 3) = t.val / 4 ∧ win0_1.index t (2 : Fin 3) = 0)
    ∧ (win0_2.index t (0 : Fin 3) = 0 ∧ win0_2.index t (1 : Fin 3) = 0 ∧ win0_2.index t (2 : Fin 3) = t.val % 4)
    ∧ (win0_3.index t (0 : Fin 3) = 0 ∧ win0_3.index t (1 : Fin 3) = 0 ∧ win0_3.index t (2 : Fin 3) = t.val % 4)
    ∧ (win0_4.index t (0 : Fin 2) = 0 ∧ win0_4.index t (1 : Fin 2) = t.val / 4) :=
  (by decide +kernel : ∀ t : Fin grid0.N, _)

/-! ## A block's entry is an entry of its array -/

/-- Row r of a query block at point t is row 256 · (t / 4) + r of the query column. -/
theorem qxBlk_applyR0 (c : Dev nD) (t : Fin cfg0.N) (b : Fin 8) (r : Fin 256) (i : Fin 4096)
    (hi : i.val = 256 * (t.val / 4) + r.val) :
    qxBlkR0 V c t (ix3 b r (0 : Fin 1)) = qxR0 V c (ix3 b i (0 : Fin 1)) := by
  obtain ⟨⟨e0, e1, e2⟩, -⟩ := idxR0 t
  unfold qxBlkR0 blkR0
  rw [View.read_apply]
  show V c (Pipeline.arrRef spec0 0) _ = V c (Pipeline.arrRef spec0 0) _
  congr 1
  funext a
  apply Fin.ext
  match a with
  | ⟨0, _⟩ => show win0_0.index t (0 : Fin 3) * 8 + 1 * b.val = b.val; rw [e0]; omega
  | ⟨1, _⟩ => show win0_0.index t (1 : Fin 3) * 256 + 1 * r.val = i.val; rw [e1, hi]; omega
  | ⟨2, _⟩ => show win0_0.index t (2 : Fin 3) * 1 + 1 * 0 = 0; rw [e2]

theorem qyBlk_applyR0 (c : Dev nD) (t : Fin cfg0.N) (b : Fin 8) (r : Fin 256) (i : Fin 4096)
    (hi : i.val = 256 * (t.val / 4) + r.val) :
    qyBlkR0 V c t (ix3 b r (0 : Fin 1)) = qyR0 V c (ix3 b i (0 : Fin 1)) := by
  obtain ⟨-, ⟨e0, e1, e2⟩, -⟩ := idxR0 t
  unfold qyBlkR0 blkR0
  rw [View.read_apply]
  show V c (Pipeline.arrRef spec0 1) _ = V c (Pipeline.arrRef spec0 1) _
  congr 1
  funext a
  apply Fin.ext
  match a with
  | ⟨0, _⟩ => show win0_1.index t (0 : Fin 3) * 8 + 1 * b.val = b.val; rw [e0]; omega
  | ⟨1, _⟩ => show win0_1.index t (1 : Fin 3) * 256 + 1 * r.val = i.val; rw [e1, hi]; omega
  | ⟨2, _⟩ => show win0_1.index t (2 : Fin 3) * 1 + 1 * 0 = 0; rw [e2]

/-- Column j of a database block at point t is column 1024 · (t % 4) + j of the database row. -/
theorem dxBlk_applyR0 (c : Dev nD) (t : Fin cfg0.N) (b : Fin 8) (j : Fin 1024) (j' : Fin 4096)
    (hj : j'.val = 1024 * (t.val % 4) + j.val) :
    dxBlkR0 V c t (ix3 b (0 : Fin 1) j) = dxR0 V c (ix3 b (0 : Fin 1) j') := by
  obtain ⟨-, -, ⟨e0, e1, e2⟩, -⟩ := idxR0 t
  unfold dxBlkR0 blkR0
  rw [View.read_apply]
  show V c (Pipeline.arrRef spec0 2) _ = V c (Pipeline.arrRef spec0 2) _
  congr 1
  funext a
  apply Fin.ext
  match a with
  | ⟨0, _⟩ => show win0_2.index t (0 : Fin 3) * 8 + 1 * b.val = b.val; rw [e0]; omega
  | ⟨1, _⟩ => show win0_2.index t (1 : Fin 3) * 1 + 1 * 0 = 0; rw [e1]
  | ⟨2, _⟩ => show win0_2.index t (2 : Fin 3) * 1024 + 1 * j.val = j'.val; rw [e2, hj]; omega

theorem dyBlk_applyR0 (c : Dev nD) (t : Fin cfg0.N) (b : Fin 8) (j : Fin 1024) (j' : Fin 4096)
    (hj : j'.val = 1024 * (t.val % 4) + j.val) :
    dyBlkR0 V c t (ix3 b (0 : Fin 1) j) = dyR0 V c (ix3 b (0 : Fin 1) j') := by
  obtain ⟨-, -, -, ⟨e0, e1, e2⟩, -⟩ := idxR0 t
  unfold dyBlkR0 blkR0
  rw [View.read_apply]
  show V c (Pipeline.arrRef spec0 3) _ = V c (Pipeline.arrRef spec0 3) _
  congr 1
  funext a
  apply Fin.ext
  match a with
  | ⟨0, _⟩ => show win0_3.index t (0 : Fin 3) * 8 + 1 * b.val = b.val; rw [e0]; omega
  | ⟨1, _⟩ => show win0_3.index t (1 : Fin 3) * 1 + 1 * 0 = 0; rw [e1]
  | ⟨2, _⟩ => show win0_3.index t (2 : Fin 3) * 1024 + 1 * j.val = j'.val; rw [e2, hj]; omega

/-- So the tile's squared distance at (row r, column j) is the clouds' at (row 256 · (t / 4) + r, column
    1024 · (t % 4) + j). -/
theorem tile_sqdR0 (c : Dev nD) (t : Fin cfg0.N) (b : Fin 8) (r : Fin 256) (i : Fin 4096)
    (hi : i.val = 256 * (t.val / 4) + r.val) (j : Fin 1024) (j' : Fin 4096) (hj : j'.val = 1024 * (t.val % 4) + j.val) :
    tileSqdR0 (qxBlkR0 V c t) (qyBlkR0 V c t) (dxBlkR0 V c t) (dyBlkR0 V c t) b r j
      = Cert.Spec.sqd4 (qxR0 V c) (qyR0 V c) (dxR0 V c) (dyR0 V c) b i j' := by
  unfold tileSqdR0 Cert.Spec.sqd4
  rw [qxBlk_applyR0 V c t b r i hi, qyBlk_applyR0 V c t b r i hi, dxBlk_applyR0 V c t b j j' hj, dyBlk_applyR0 V c t b j j' hj]

/-! ## The infimum over the first k + 1 column tiles -/

/-- The infimum of f over the columns below 1024 · (k + 1) is the smaller of its infimum over the columns below
    1024 · k and its infimum over the 1024 columns of tile k, the latter listed by their place in the tile. -/
theorem inf_tileR0 (f : Fin 4096 → EReal) (h : Fin 1024 → EReal) (k : ℕ) (hk : k < 4)
    (hh : ∀ (j : Fin 1024) (j' : Fin 4096), j'.val = 1024 * k + j.val → h j = f j') :
    (Finset.univ.filter fun j : Fin 4096 => j.val < 1024 * (k + 1)).inf f
      = min ((Finset.univ.filter fun j : Fin 4096 => j.val < 1024 * k).inf f) (Finset.univ.inf h) := by
  have hsplit : (Finset.univ.filter fun j : Fin 4096 => j.val < 1024 * (k + 1))
      = (Finset.univ.filter fun j : Fin 4096 => j.val < 1024 * k)
        ∪ (Finset.univ.filter fun j : Fin 4096 => 1024 * k ≤ j.val ∧ j.val < 1024 * (k + 1)) := by
    ext j
    simp only [Finset.mem_union, Finset.mem_filter, Finset.mem_univ, true_and]
    omega
  have htile : (Finset.univ.filter fun j : Fin 4096 => 1024 * k ≤ j.val ∧ j.val < 1024 * (k + 1)).inf f
      = Finset.univ.inf h := by
    apply le_antisymm
    · refine Finset.le_inf fun j _ => ?_
      rw [hh j ⟨1024 * k + j.val, by have := j.isLt; omega⟩ rfl]
      refine Finset.inf_le ?_
      simp only [Finset.mem_filter, Finset.mem_univ, true_and]
      have := j.isLt
      omega
    · refine Finset.le_inf fun j' hj' => ?_
      simp only [Finset.mem_filter, Finset.mem_univ, true_and] at hj'
      rw [← hh ⟨j'.val - 1024 * k, by omega⟩ j' (by show j'.val = 1024 * k + (j'.val - 1024 * k); omega)]
      exact Finset.inf_le (Finset.mem_univ _)
  rw [hsplit, Finset.inf_union, htile]

/-! ## The running minimum, point by point -/

/-- After point n the scratch holds, at row (b, r), the infimum of the squared distances from query point
    256 · (n / 4) + r to the database points of the column tiles 0 … n % 4: at column tile 0 the minimum of +∞ and
    the tile's infimum, at a later tile the minimum of what the point before left (the same row tile, one column tile
    less) and the tile's infimum. -/
theorem acc_eqR0 (c : Dev nD) : ∀ (n : ℕ) (hn : n < cfg0.N) (b : Fin 8) (r : Fin 256) (i : Fin 4096),
    i.val = 256 * (n / 4) + r.val →
    accAtR0 V c n hn (ix2 b r)
      = (Finset.univ.filter fun j : Fin 4096 => j.val < 1024 * (n % 4 + 1)).inf
          fun j => Cert.Spec.sqd4 (qxR0 V c) (qyR0 V c) (dxR0 V c) (dyR0 V c) b i j := by
  intro n
  induction n using Nat.strong_induction_on with
  | _ n ih =>
  intro hn b r i hi
  have htile : ∀ (j : Fin 1024) (j' : Fin 4096), j'.val = 1024 * (n % 4) + j.val →
      tileSqdR0 (qxBlkR0 V c ⟨n, hn⟩) (qyBlkR0 V c ⟨n, hn⟩) (dxBlkR0 V c ⟨n, hn⟩) (dyBlkR0 V c ⟨n, hn⟩) b r j
        = Cert.Spec.sqd4 (qxR0 V c) (qyR0 V c) (dxR0 V c) (dyR0 V c) b i j' :=
    fun j j' hj => tile_sqdR0 V c ⟨n, hn⟩ b r i hi j j' hj
  have hk : n % 4 < 4 := Nat.mod_lt _ (by omega)
  rw [inf_tileR0 (fun j => Cert.Spec.sqd4 (qxR0 V c) (qyR0 V c) (dxR0 V c) (dyR0 V c) b i j)
    (fun j => tileSqdR0 (qxBlkR0 V c ⟨n, hn⟩) (qyBlkR0 V c ⟨n, hn⟩) (dxBlkR0 V c ⟨n, hn⟩) (dyBlkR0 V c ⟨n, hn⟩) b r j) (n % 4) hk htile]
  by_cases h0 : n % 4 = 0
  · have h1 : ¬n % 4 = 3 := by omega
    have hprev : (Finset.univ.filter fun j : Fin 4096 => j.val < 1024 * (n % 4)).inf
        (fun j => Cert.Spec.sqd4 (qxR0 V c) (qyR0 V c) (dxR0 V c) (dyR0 V c) b i j) = ⊤ := by
      rw [Finset.filter_eq_empty_iff.mpr (fun j _ => by omega), Finset.inf_empty]
    refine (congrFun (accAtR0_A V c ⟨n, hn⟩ h0 h1) (ix2 b r)).trans ?_
    refine (congrFun (accA_eqR0 (F := Ideal) c (grid0.coords ⟨n, hn⟩) (mR0_0 ⟨n, hn⟩) (hR0_0 ⟨n, hn⟩) (mR0_1 ⟨n, hn⟩) (hR0_1 ⟨n, hn⟩) (mR0_2 ⟨n, hn⟩) (hR0_2 ⟨n, hn⟩) (mR0_3 ⟨n, hn⟩) (hR0_3 ⟨n, hn⟩) (mR0_4 ⟨n, hn⟩) (hR0_4 ⟨n, hn⟩) accMR0 (Memref.isWhole_whole _) ((first_iffR0 ⟨n, hn⟩).mpr h0) (fun h => h1 ((last_iffR0 ⟨n, hn⟩).mp h)) (qxBlkR0 V c ⟨n, hn⟩) (qyBlkR0 V c ⟨n, hn⟩) (dxBlkR0 V c ⟨n, hn⟩) (dyBlkR0 V c ⟨n, hn⟩)) (ix2 b r)).trans ?_
    refine (pay2_applyR0 (qxBlkR0 V c ⟨n, hn⟩) (qyBlkR0 V c ⟨n, hn⟩) (dxBlkR0 V c ⟨n, hn⟩) (dyBlkR0 V c ⟨n, hn⟩) (k0_pay1 (F := Ideal)) b r).trans ?_
    rw [pay1_applyR0 b r, hprev]
  · have hpos : n ≠ 0 := fun h => h0 (by rw [h])
    have hm : n - 1 < cfg0.N := Nat.lt_of_le_of_lt (Nat.sub_le _ _) hn
    have ihp := ih (n - 1) (by omega) hm b r i (by omega)
    rw [show (n - 1) % 4 + 1 = n % 4 from by omega] at ihp
    by_cases h1 : n % 4 = 3
    · refine (congrFun (accAtR0_C V c ⟨n, hn⟩ h0 h1) (ix2 b r)).trans ?_
      refine (congrFun (accC_eqR0 (F := Ideal) c (grid0.coords ⟨n, hn⟩) (mR0_0 ⟨n, hn⟩) (hR0_0 ⟨n, hn⟩) (mR0_1 ⟨n, hn⟩) (hR0_1 ⟨n, hn⟩) (mR0_2 ⟨n, hn⟩) (hR0_2 ⟨n, hn⟩) (mR0_3 ⟨n, hn⟩) (hR0_3 ⟨n, hn⟩) (mR0_4 ⟨n, hn⟩) (hR0_4 ⟨n, hn⟩) accMR0 (Memref.isWhole_whole _) (fun h => h0 ((first_iffR0 ⟨n, hn⟩).mp h)) ((last_iffR0 ⟨n, hn⟩).mpr h1) (qxBlkR0 V c ⟨n, hn⟩) (qyBlkR0 V c ⟨n, hn⟩) (dxBlkR0 V c ⟨n, hn⟩) (dyBlkR0 V c ⟨n, hn⟩) (accAtR0 V c (n - 1) hm)) (ix2 b r)).trans ?_
      refine (pay2_applyR0 (qxBlkR0 V c ⟨n, hn⟩) (qyBlkR0 V c ⟨n, hn⟩) (dxBlkR0 V c ⟨n, hn⟩) (dyBlkR0 V c ⟨n, hn⟩) (accAtR0 V c (n - 1) hm) b r).trans ?_
      rw [ihp]
    · refine (congrFun (accAtR0_B V c ⟨n, hn⟩ h0 h1) (ix2 b r)).trans ?_
      refine (congrFun (accB_eqR0 (F := Ideal) c (grid0.coords ⟨n, hn⟩) (mR0_0 ⟨n, hn⟩) (hR0_0 ⟨n, hn⟩) (mR0_1 ⟨n, hn⟩) (hR0_1 ⟨n, hn⟩) (mR0_2 ⟨n, hn⟩) (hR0_2 ⟨n, hn⟩) (mR0_3 ⟨n, hn⟩) (hR0_3 ⟨n, hn⟩) (mR0_4 ⟨n, hn⟩) (hR0_4 ⟨n, hn⟩) accMR0 (Memref.isWhole_whole _) (fun h => h0 ((first_iffR0 ⟨n, hn⟩).mp h)) (fun h => h1 ((last_iffR0 ⟨n, hn⟩).mp h)) (qxBlkR0 V c ⟨n, hn⟩) (qyBlkR0 V c ⟨n, hn⟩) (dxBlkR0 V c ⟨n, hn⟩) (dyBlkR0 V c ⟨n, hn⟩) (accAtR0 V c (n - 1) hm)) (ix2 b r)).trans ?_
      refine (pay2_applyR0 (qxBlkR0 V c ⟨n, hn⟩) (qyBlkR0 V c ⟨n, hn⟩) (dxBlkR0 V c ⟨n, hn⟩) (dyBlkR0 V c ⟨n, hn⟩) (accAtR0 V c (n - 1) hm) b r).trans ?_
      rw [ihp]

/-! ## What the write-back at column tile 3 writes -/

/-- The nearest-point function of the four arrays: what the result array ends at. -/
abbrev nearR0 (c : Dev nD) : Cert.Spec.PerPt.Idx → EReal :=
  Cert.Spec.near4 (qxR0 V c) (qyR0 V c) (dxR0 V c) (dyR0 V c)

/-- At a point of column tile 3 the result buffer holds, at row (b, r), the square root of the running minimum, which
    by then ranges over all 4096 database points: the distance from query point 256 · (t / 4) + r to its nearest. -/
theorem out_eqR0 (c : Dev nD) (t : Fin cfg0.N) (h0 : ¬t.val % 4 = 0) (h1 : t.val % 4 = 3) (b : Fin 8) (r : Fin 256)
    (i : Fin 4096) (hi : i.val = 256 * (t.val / 4) + r.val) :
    outAtR0 V c t (ix2 b r) = nearR0 V c (ix2 b i) := by
  have hm : t.val - 1 < cfg0.N := Nat.lt_of_le_of_lt (Nat.sub_le _ _) t.isLt
  refine (congrFun (outAtR0_C V c t h0 h1) (ix2 b r)).trans ?_
  refine (congrFun (outC_eqR0 (F := Ideal) c (grid0.coords t) (mR0_0 t) (hR0_0 t) (mR0_1 t) (hR0_1 t) (mR0_2 t) (hR0_2 t) (mR0_3 t) (hR0_3 t) (mR0_4 t) (hR0_4 t) accMR0 (Memref.isWhole_whole _) (fun h => h0 ((first_iffR0 t).mp h)) ((last_iffR0 t).mpr h1) (qxBlkR0 V c t) (qyBlkR0 V c t) (dxBlkR0 V c t) (dyBlkR0 V c t) (accAtR0 V c (t.val - 1) hm)) (ix2 b r)).trans ?_
  refine (pay3_applyR0 (k0_pay2 (qxBlkR0 V c t) (qyBlkR0 V c t) (dxBlkR0 V c t) (dyBlkR0 V c t) (accAtR0 V c (t.val - 1) hm)) (ix2 b r)).trans ?_
  show _ = Ideal.sqrt (Finset.univ.inf fun j : Fin 4096 => Cert.Spec.sqd4 (qxR0 V c) (qyR0 V c) (dxR0 V c) (dyR0 V c) b i j)
  refine congrArg Ideal.sqrt ?_
  -- the payload under the root is this point's running minimum
  have hacc : accAtR0 V c t.val t.isLt (ix2 b r) = k0_pay2 (qxBlkR0 V c t) (qyBlkR0 V c t) (dxBlkR0 V c t) (dyBlkR0 V c t) (accAtR0 V c (t.val - 1) hm) (ix2 b r) :=
    (congrFun (accAtR0_C V c t h0 h1) (ix2 b r)).trans
      (congrFun (accC_eqR0 (F := Ideal) c (grid0.coords t) (mR0_0 t) (hR0_0 t) (mR0_1 t) (hR0_1 t) (mR0_2 t) (hR0_2 t) (mR0_3 t) (hR0_3 t) (mR0_4 t) (hR0_4 t) accMR0 (Memref.isWhole_whole _) (fun h => h0 ((first_iffR0 t).mp h)) ((last_iffR0 t).mpr h1) (qxBlkR0 V c t) (qyBlkR0 V c t) (dxBlkR0 V c t) (dyBlkR0 V c t) (accAtR0 V c (t.val - 1) hm)) (ix2 b r))
  refine hacc.symm.trans ?_
  refine (acc_eqR0 V c t.val t.isLt b r i hi).trans ?_
  -- every column is below 1024 · 4
  have hall : (Finset.univ.filter fun j : Fin 4096 => j.val < 1024 * (t.val % 4 + 1)) = Finset.univ :=
    Finset.filter_true_of_mem fun j _ => by have := j.isLt; omega
  rw [hall]

/-- So what the point writes back is the block of the nearest-point function at the window's rectangle: rows
    256 · (t / 4) … 256 · (t / 4) + 255 of every batch. -/
theorem flushed_eqR0 (c : Dev nD) (t : Fin cfg0.N) (hf : (cfg0.win 4).flush t = true) :
    (datR0 (F := Ideal) V c).flushed 4 t = ((cfg0.win 4).blk t).view.read (Elt Ideal) (nearR0 V c) := by
  have h1 : t.val % 4 = 3 := (flush0_4 t).mp hf
  have h0 : ¬t.val % 4 = 0 := by omega
  obtain ⟨-, -, -, -, e0, e1⟩ := idxR0 t
  show (cfg0.win 4).cut (grid0.coords t) ((datR0 V c).after 4 t) = _
  rw [afterR0_4]
  funext j
  have hb : (j 0).val < 8 := (j 0).isLt
  have hr : (j 1).val < 256 := (j 1).isLt
  have hx : (cfg0.win 4).xinj (grid0.coords t) j = (ix2 (⟨(j 0).val, hb⟩ : Fin 8) (⟨(j 1).val, hr⟩ : Fin 256) : S8x256.Idx) := by
    funext a
    match a with
    | ⟨0, _⟩ => rfl
    | ⟨1, _⟩ => rfl
  refine (congrArg (outAtR0 V c t) hx).trans ?_
  refine (out_eqR0 V c t h0 h1 ⟨(j 0).val, hb⟩ ⟨(j 1).val, hr⟩ ⟨256 * (t.val / 4) + (j 1).val, by have := pt_ltR0 t; omega⟩ rfl).trans ?_
  rw [View.read_apply]
  show nearR0 V c _ = nearR0 V c _
  congr 1
  funext a
  apply Fin.ext
  match a with
  | ⟨0, _⟩ => show (j 0).val = win0_4.index t (0 : Fin 2) * 8 + 1 * (j 0).val; rw [e0]; omega
  | ⟨1, _⟩ => show 256 * (t.val / 4) + (j 1).val = win0_4.index t (1 : Fin 2) * 256 + 1 * (j 1).val; rw [e1]; omega

/-! ## The result array after the 64 points -/

/-- Row n of the result array lies in the block written back at point 4 · (n / 256) + 3, so the written blocks cover the
    array and it ends at the nearest-point function of the four input arrays. -/
theorem finalR0 (c : Dev nD) :
    (datR0 (F := Ideal) V c).arrAt 4 cfg0.N
      = Cert.Spec.near4 (V c (Pipeline.arrRef spec0 0)) (V c (Pipeline.arrRef spec0 1)) (V c (Pipeline.arrRef spec0 2)) (V c (Pipeline.arrRef spec0 3)) :=
  (datR0 (F := Ideal) V c).arrAt_eq_of_cover 4 (nearR0 V c) (flushed_eqR0 V c) fun i => by
    have hi0 : (i 0).val < 8 := (i 0).isLt
    have hi1 : (i 1).val < 4096 := (i 1).isLt
    obtain ⟨t, ht⟩ : ∃ t : Fin cfg0.N, t.val = 4 * ((i 1).val / 256) + 3 :=
      ⟨⟨4 * ((i 1).val / 256) + 3, by rw [show cfg0.N = 64 from N_0]; omega⟩, rfl⟩
    obtain ⟨-, -, -, -, e0, e1⟩ := idxR0 t
    refine ⟨t, (flush0_4 t).mpr (by omega), ?_⟩
    show i ∈ ((View.whole (Pipeline.arrRef spec0 4)).slice (win0_4.rect t)).set
    rw [View.set_slice_whole, Rect.mem_set_unit]
    intro a
    match a with
    | ⟨0, _⟩ => show win0_4.index t (0 : Fin 2) * 8 ≤ (i 0).val ∧ (i 0).val < win0_4.index t (0 : Fin 2) * 8 + 8; rw [e0]; omega
    | ⟨1, _⟩ => show win0_4.index t (1 : Fin 2) * 256 ≤ (i 1).val ∧ (i 1).val < win0_4.index t (1 : Fin 2) * 256 + 256; rw [e1]; omega

end Cert.KernelIdeal.Fr

end
-- ==== Proof.KernelIdeal.Pieces1.lean ====
/-
  Region 1: what the body's stores amount to, and the body's arithmetic read at one entry.

  Each case's stores, read back, are the body's named payloads: the running minimum after a point is the payload
  "minimum of what the scratch held and the tile's row minima", over a scratch just reset to +∞ at column tile 0 and
  over what the point before left at the later tiles; the result block at column tile 3 is the square root of that.
  At the extended reals the tile's row minimum at row (b, r) is the infimum over the tile's 1024 columns j of
  (x₀(b,r) − y₀(b,j))² + (x₁(b,r) − y₁(b,j))² floored at 0.
-/
import proofs.«100872_j40888088658143_1_alg».proof.Proof.KernelIdeal.Region1
import Idealize.ShloMosaic.Lib.ValueIdx
import Idealize.ShloMosaic.Lib.Pipeline.Value
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The stores as payloads -/

/-- The zero offsets of a rank-2 store, spelt as the stores spell them. -/
theorem hzR1 : (![0, 0] : Fin 2 → Nat) = fun _ => 0 := funext fun a => by fin_cases a <;> rfl
/-- The zero offsets of a rank-3 load. -/
theorem hz3R1 : (![0, 0, 0] : Fin 3 → Nat) = fun _ => 0 := funext fun a => by fin_cases a <;> rfl

theorem accA_eqR1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : firstR1 i) (hc1 : ¬lastR1 i)
    (x0 : Vec F S8x256x1 .f32) (x1 : Vec F S8x256x1 .f32) (x2 : Vec F S8x1x1024 .f32) (x3 : Vec F S8x1x1024 .f32) :
    accA_R1 (F := F) c i arg2 harg2 arg3 harg3 arg4 harg4 arg5 harg5 arg6 harg6 arg7 harg7 hc0 hc1 x0 x1 x2 x3 = k1_pay2 x0 x1 x2 x3 (k1_pay1 (F := F)) := by
  unfold accA_R1
  rw [View.read_writes_eq_canon _ _ _ (scoverA_R1 c i arg2 harg2 arg3 harg3 arg4 harg4 arg5 harg5 arg6 harg6 arg7 harg7 hc0 hc1 x0 x1 x2 x3)]
  unfold runA_R1
  dsimp only
  sl_unfold_words
  rw [View.canon_cons_unit_zero (S := S8x256) hzR1]
  simp only [View.readAt_eq_ld, harg2.read_unread, harg3.read_unread, harg4.read_unread, harg5.read_unread, harg7.read_unread,
    View.ld_unit_zero (S := S8x256x1) hz3R1, View.ld_unit_zero (S := S8x1x1024) hz3R1, View.ld_unit_zero (S := S8x256) hzR1,
    View.readCov_unit_zero (S := S8x256) _ hzR1]

theorem accB_eqR1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : ¬lastR1 i)
    (x0 : Vec F S8x256x1 .f32) (x1 : Vec F S8x256x1 .f32) (x2 : Vec F S8x1x1024 .f32) (x3 : Vec F S8x1x1024 .f32) (xs : Vec F S8x256 .f32) :
    accB_R1 (F := F) c i arg2 harg2 arg3 harg3 arg4 harg4 arg5 harg5 arg6 harg6 arg7 harg7 hc0 hc1 x0 x1 x2 x3 xs = k1_pay2 x0 x1 x2 x3 xs := by
  unfold accB_R1
  rw [View.read_writes_eq_canon _ _ _ (scoverB_R1 c i arg2 harg2 arg3 harg3 arg4 harg4 arg5 harg5 arg6 harg6 arg7 harg7 hc0 hc1 x0 x1 x2 x3 xs)]
  unfold runB_R1
  dsimp only
  sl_unfold_words
  rw [View.canon_unit_zero (S := S8x256) hzR1]
  simp only [View.readAt_eq_ld, harg2.read_unread, harg3.read_unread, harg4.read_unread, harg5.read_unread, harg7.read_unread,
    View.ld_unit_zero (S := S8x256x1) hz3R1, View.ld_unit_zero (S := S8x1x1024) hz3R1, View.ld_unit_zero (S := S8x256) hzR1]

theorem accC_eqR1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) :
    accC_R1 (F := F) c i arg2 harg2 arg3 harg3 arg4 harg4 arg5 harg5 arg6 harg6 arg7 harg7 hc0 hc1 x0 x1 x2 x3 xs = k1_pay2 x0 x1 x2 x3 xs := by
  unfold accC_R1
  rw [View.read_writes_eq_canon _ _ _ (scoverC_R1 c i arg2 harg2 arg3 harg3 arg4 harg4 arg5 harg5 arg6 harg6 arg7 harg7 hc0 hc1 x0 x1 x2 x3 xs)]
  unfold runC_R1
  dsimp only
  sl_unfold_words
  rw [View.canon_unit_zero (S := S8x256) hzR1]
  simp only [View.readAt_eq_ld, harg2.read_unread, harg3.read_unread, harg4.read_unread, harg5.read_unread, harg7.read_unread,
    View.ld_unit_zero (S := S8x256x1) hz3R1, View.ld_unit_zero (S := S8x1x1024) hz3R1, View.ld_unit_zero (S := S8x256) hzR1]

theorem outC_eqR1 (c : Dev nD) (i : grid1.Coords) (arg2 : Memref sig .tc .vmem S8x256x1 .f32) (harg2 : arg2.IsWhole) (arg3 : Memref sig .tc .vmem S8x256x1 .f32) (harg3 : arg3.IsWhole) (arg4 : Memref sig .tc .vmem S8x1x1024 .f32) (harg4 : arg4.IsWhole) (arg5 : Memref sig .tc .vmem S8x1x1024 .f32) (harg5 : arg5.IsWhole) (arg6 : Memref sig .tc .vmem S8x256 .f32) (harg6 : arg6.IsWhole) (arg7 : Memref sig .tc .vmem S8x256 .f32) (harg7 : arg7.IsWhole) (hc0 : ¬firstR1 i) (hc1 : lastR1 i)
    (x0 : Vec F S8x256x1 .f32) (x1 : Vec F S8x256x1 .f32) (x2 : Vec F S8x1x1024 .f32) (x3 : Vec F S8x1x1024 .f32) (xs : Vec F S8x256 .f32) :
    outC_R1 (F := F) c i arg2 harg2 arg3 harg3 arg4 harg4 arg5 harg5 arg6 harg6 arg7 harg7 hc0 hc1 x0 x1 x2 x3 xs = k1_pay3 (k1_pay2 x0 x1 x2 x3 xs) := by
  unfold outC_R1
  rw [View.read_writes_eq_canon _ _ _ (ocoverC_R1 c i arg2 harg2 arg3 harg3 arg4 harg4 arg5 harg5 arg6 harg6 arg7 harg7 hc0 hc1 x0 x1 x2 x3 xs)]
  unfold runC_R1
  dsimp only
  sl_unfold_words
  rw [View.canon_unit_zero (S := S8x256) hzR1]
  simp only [View.readAt_eq_ld, harg2.read_unread, harg3.read_unread, harg4.read_unread, harg5.read_unread, harg7.read_unread,
    View.ld_unit_zero (S := S8x256x1) hz3R1, View.ld_unit_zero (S := S8x1x1024) hz3R1, View.ld_unit_zero (S := S8x256) hzR1,
    View.readCov_unit_zero (S := S8x256) _ hzR1]

/-! ## The payloads at an entry, at the extended reals -/

/-- A minimum over one axis, at the extended reals: the fold of `min` from the initial word's value over that
    axis's coordinates. -/
theorem multiReduction_minimumf_singleR1 {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction (F := Ideal) .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A fold of `min` from +∞ is the infimum. -/
theorem fold_min_top_eq_infR1 {n : Nat} (f : Fin n → EReal) :
    (Finset.univ : Finset (Fin n)).fold min (⊤ : EReal) f = Finset.univ.inf f := by
  refine eq_of_forall_le_iff fun c => ?_
  rw [Finset.le_fold_min, Finset.le_inf_iff]
  simp

/-- The word 0x7F800000 is +∞. -/
theorem ofBits_infR1 : Ideal.ofBits .f32 0x7F800000#32 = (⊤ : EReal) := by simp [Ideal.ofBits, Ideal.ieee]

/-- The source index over row (b, r) with column j inserted is (b, r, j). -/
theorem lift_ix2R1 (b : Fin 8) (r : Fin 256) (j : Fin 1024) :
    reduces_S8x256x1024_S8x256.lift (ix2 b r) j = ix3 b r j := by
  funext c
  match c with
  | ⟨0, _⟩ => exact Fin.ext rfl
  | ⟨1, _⟩ => exact Fin.ext rfl
  | ⟨2, _⟩ => exact Fin.ext rfl

/-- A column [8,256,1] spread over the 1024 lanes reads its own entry at every lane. -/
theorem bcast_colR1 {α : Type} (v : S8x256x1.Idx → α) (b : Fin 8) (r : Fin 256) (j : Fin 1024) :
    broadcastTo S8x256x1024 v broadcasts_S8x256x1_S8x256x1024 (ix3 b r j) = v (ix3 b r (0 : Fin 1)) := by
  refine broadcastTo_apply v _ (ix3 b r j) (ix3 b r (0 : Fin 1)) fun ax => ?_
  match ax with
  | ⟨0, _⟩ => rfl
  | ⟨1, _⟩ => rfl
  | ⟨2, _⟩ => rfl

/-- A row [8,1,1024] spread over the 256 sublanes reads its own entry at every sublane. -/
theorem bcast_rowR1 {α : Type} (v : S8x1x1024.Idx → α) (b : Fin 8) (r : Fin 256) (j : Fin 1024) :
    broadcastTo S8x256x1024 v broadcasts_S8x1x1024_S8x256x1024 (ix3 b r j) = v (ix3 b (0 : Fin 1) j) := by
  refine broadcastTo_apply v _ (ix3 b r j) (ix3 b (0 : Fin 1) j) fun ax => ?_
  match ax with
  | ⟨0, _⟩ => rfl
  | ⟨1, _⟩ => rfl
  | ⟨2, _⟩ => rfl

/-- The reset value: +∞ everywhere. -/
theorem pay1_applyR1 (b : Fin 8) (r : Fin 256) : k1_pay1 (F := Ideal) (ix2 b r) = (⊤ : EReal) := by
  unfold k1_pay1
  exact ofBits_infR1

/-- The tile's floored squared distance at row (b, r) and column j of the tile. -/
def tileSqdR1 (x0 x1 : Vec Ideal S8x256x1 .f32) (x2 x3 : Vec Ideal S8x1x1024 .f32) (b : Fin 8) (r : Fin 256) (j : Fin 1024) : EReal :=
  max ((x0 (ix3 b r (0 : Fin 1)) - x2 (ix3 b (0 : Fin 1) j)) * (x0 (ix3 b r (0 : Fin 1)) - x2 (ix3 b (0 : Fin 1) j))
    + (x1 (ix3 b r (0 : Fin 1)) - x3 (ix3 b (0 : Fin 1) j)) * (x1 (ix3 b r (0 : Fin 1)) - x3 (ix3 b (0 : Fin 1) j))) 0

/-- The floored sum of two squared differences, read at (b, r, j), once each of its four operands is known there. -/
theorem tile_entryR1 (x0 x1 : Vec Ideal S8x256x1 .f32) (x2 x3 : Vec Ideal S8x1x1024 .f32) (b : Fin 8) (r : Fin 256) (j : Fin 1024)
    (A0 B0 A1 B1 : FVec Ideal S8x256x1024 .f32)
    (h0 : A0 (ix3 b r j) = x0 (ix3 b r (0 : Fin 1))) (h2 : B0 (ix3 b r j) = x2 (ix3 b (0 : Fin 1) j))
    (h1 : A1 (ix3 b r j) = x1 (ix3 b r (0 : Fin 1))) (h3 : B1 (ix3 b r j) = x3 (ix3 b (0 : Fin 1) j)) :
    maximumf (addf (mulf (subf A0 B0) (subf A0 B0)) (mulf (subf A1 B1) (subf A1 B1)))
        (broadcast S8x256x1024 (FloatOps.ofBits (F := Ideal) .f32 0x00000000#32)) (ix3 b r j)
      = tileSqdR1 x0 x1 x2 x3 b r j := by
  show max ((A0 (ix3 b r j) - B0 (ix3 b r j)) * (A0 (ix3 b r j) - B0 (ix3 b r j))
      + (A1 (ix3 b r j) - B1 (ix3 b r j)) * (A1 (ix3 b r j) - B1 (ix3 b r j))) (Ideal.ofBits .f32 0x00000000#32) = _
  rw [h0, h1, h2, h3, Ideal.ofBits_zero_f32]
  rfl

/-- The update: the old running minimum lowered by the tile's row minimum. -/
theorem pay2_applyR1 (x0 x1 : Vec Ideal S8x256x1 .f32) (x2 x3 : Vec Ideal S8x1x1024 .f32) (xs : Vec Ideal S8x256 .f32) (b : Fin 8) (r : Fin 256) :
    k1_pay2 (F := Ideal) x0 x1 x2 x3 xs (ix2 b r) = min (xs (ix2 b r)) (Finset.univ.inf fun j : Fin 1024 => tileSqdR1 x0 x1 x2 x3 b r j) := by
  unfold k1_pay2
  refine (congrFun (shapeCast_self _ _) (ix2 b r)).trans ?_
  refine congrArg (min (xs (ix2 b r))) ?_
  refine (multiReduction_minimumf_singleR1 _ _ reduces_S8x256x1024_S8x256 _ _ (ix2 b r)).trans ?_
  refine (congrArg (fun z => (Finset.univ : Finset (Fin 1024)).fold min z _) ofBits_infR1).trans ?_
  refine (fold_min_top_eq_infR1 _).trans ?_
  refine Finset.inf_congr rfl fun j _ => ?_
  refine (congrArg (maximumf _ _) (lift_ix2R1 b r j)).trans ?_
  exact tile_entryR1 x0 x1 x2 x3 b r j _ _ _ _
    ((bcast_colR1 _ b r j).trans (congrFun (shapeCast_self x0 _) _))
    ((bcast_rowR1 _ b r j).trans (congrFun (shapeCast_self x2 _) _))
    ((bcast_colR1 _ b r j).trans (congrFun (shapeCast_self x1 _) _))
    ((bcast_rowR1 _ b r j).trans (congrFun (shapeCast_self x3 _) _))

/-- The result: the square root, entry by entry. -/
theorem pay3_applyR1 (v : Vec Ideal S8x256 .f32) (i : S8x256.Idx) : k1_pay3 (F := Ideal) v i = Ideal.sqrt (v i) := by
  rfl

end Cert.KernelIdeal.Fr

end
-- ==== Proof.KernelIdeal.Value1.lean ====
/-
  Region 1: the result array after the 64 points is the nearest-point function of the four input arrays.

  Point t works on row tile t / 4 (query points 256 · (t / 4) … 256 · (t / 4) + 255) and column tile t % 4 (database points
  1024 · (t % 4) … 1024 · (t % 4) + 1023). A block's entry is its array's entry at block index × block size + the place in
  the block, so the tile's squared distance at (r, j) is the clouds' at (256 · (t / 4) + r, 1024 · (t % 4) + j). By
  induction on the point, the running minimum after point t is, at row r, the infimum of the squared distances from
  query point 256 · (t / 4) + r to the database points below 1024 · (t % 4 + 1): the infimum over the columns below
  1024 · (k + 1) is the smaller of the infimum over those below 1024 · k and the infimum over tile k, and over no
  column it is +∞, which is what the reset leaves. At column tile 3 the bound is 4096, every database point, and the
  block written back is the square root of that infimum: the block of the nearest-point function at rows
  256 · (t / 4) …. Row n of the array lies in the block written back at point 4 · (n / 256) + 3, so these blocks cover
  the array.
-/
import proofs.«100872_j40888088658143_1_alg».proof.Proof.KernelIdeal.Pieces1
import proofs.«100872_j40888088658143_1_alg».proof.Proof.Spec
import Idealize.ShloMosaic.Lib.Pipeline.Value
import Idealize.ShloMosaic.Lib.ValueIdx

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The grid has 64 points. -/
theorem pt_ltR1 (t : Fin cfg1.N) : t.val < 64 := lt_of_lt_of_eq t.isLt (show cfg1.N = 64 from N_1)

/-! ## The four arrays and the four blocks, at their literal types -/

/-- The query cloud's two coordinate columns and the database cloud's two coordinate rows, as the region finds them. -/
abbrev qxR1 (c : Dev nD) : Cert.Spec.Col.Idx → EReal := V c (Pipeline.arrRef spec1 0)
abbrev qyR1 (c : Dev nD) : Cert.Spec.Col.Idx → EReal := V c (Pipeline.arrRef spec1 1)
abbrev dxR1 (c : Dev nD) : Cert.Spec.Row.Idx → EReal := V c (Pipeline.arrRef spec1 2)
abbrev dyR1 (c : Dev nD) : Cert.Spec.Row.Idx → EReal := V c (Pipeline.arrRef spec1 3)

/-- Their blocks at a point: 256 query points, 1024 database points. -/
abbrev qxBlkR1 (c : Dev nD) (t : Fin cfg1.N) : Vec Ideal S8x256x1 .f32 := blkR1 V c 0 t
abbrev qyBlkR1 (c : Dev nD) (t : Fin cfg1.N) : Vec Ideal S8x256x1 .f32 := blkR1 V c 1 t
abbrev dxBlkR1 (c : Dev nD) (t : Fin cfg1.N) : Vec Ideal S8x1x1024 .f32 := blkR1 V c 2 t
abbrev dyBlkR1 (c : Dev nD) (t : Fin cfg1.N) : Vec Ideal S8x1x1024 .f32 := blkR1 V c 3 t

/-- The block indices over the grid: the query windows and the result window sit at row tile t / 4, the database
    windows at column tile t % 4, every other axis at block 0. -/
theorem idxR1 : ∀ t : Fin cfg1.N,
    (win1_0.index t (0 : Fin 3) = 0 ∧ win1_0.index t (1 : Fin 3) = t.val / 4 ∧ win1_0.index t (2 : Fin 3) = 0)
    ∧ (win1_1.index t (0 : Fin 3) = 0 ∧ win1_1.index t (1 : Fin 3) = t.val / 4 ∧ win1_1.index t (2 : Fin 3) = 0)
    ∧ (win1_2.index t (0 : Fin 3) = 0 ∧ win1_2.index t (1 : Fin 3) = 0 ∧ win1_2.index t (2 : Fin 3) = t.val % 4)
    ∧ (win1_3.index t (0 : Fin 3) = 0 ∧ win1_3.index t (1 : Fin 3) = 0 ∧ win1_3.index t (2 : Fin 3) = t.val % 4)
    ∧ (win1_4.index t (0 : Fin 2) = 0 ∧ win1_4.index t (1 : Fin 2) = t.val / 4) :=
  (by decide +kernel : ∀ t : Fin grid1.N, _)

/-! ## A block's entry is an entry of its array -/

/-- Row r of a query block at point t is row 256 · (t / 4) + r of the query column. -/
theorem qxBlk_applyR1 (c : Dev nD) (t : Fin cfg1.N) (b : Fin 8) (r : Fin 256) (i : Fin 4096)
    (hi : i.val = 256 * (t.val / 4) + r.val) :
    qxBlkR1 V c t (ix3 b r (0 : Fin 1)) = qxR1 V c (ix3 b i (0 : Fin 1)) := by
  obtain ⟨⟨e0, e1, e2⟩, -⟩ := idxR1 t
  unfold qxBlkR1 blkR1
  rw [View.read_apply]
  show V c (Pipeline.arrRef spec1 0) _ = V c (Pipeline.arrRef spec1 0) _
  congr 1
  funext a
  apply Fin.ext
  match a with
  | ⟨0, _⟩ => show win1_0.index t (0 : Fin 3) * 8 + 1 * b.val = b.val; rw [e0]; omega
  | ⟨1, _⟩ => show win1_0.index t (1 : Fin 3) * 256 + 1 * r.val = i.val; rw [e1, hi]; omega
  | ⟨2, _⟩ => show win1_0.index t (2 : Fin 3) * 1 + 1 * 0 = 0; rw [e2]

theorem qyBlk_applyR1 (c : Dev nD) (t : Fin cfg1.N) (b : Fin 8) (r : Fin 256) (i : Fin 4096)
    (hi : i.val = 256 * (t.val / 4) + r.val) :
    qyBlkR1 V c t (ix3 b r (0 : Fin 1)) = qyR1 V c (ix3 b i (0 : Fin 1)) := by
  obtain ⟨-, ⟨e0, e1, e2⟩, -⟩ := idxR1 t
  unfold qyBlkR1 blkR1
  rw [View.read_apply]
  show V c (Pipeline.arrRef spec1 1) _ = V c (Pipeline.arrRef spec1 1) _
  congr 1
  funext a
  apply Fin.ext
  match a with
  | ⟨0, _⟩ => show win1_1.index t (0 : Fin 3) * 8 + 1 * b.val = b.val; rw [e0]; omega
  | ⟨1, _⟩ => show win1_1.index t (1 : Fin 3) * 256 + 1 * r.val = i.val; rw [e1, hi]; omega
  | ⟨2, _⟩ => show win1_1.index t (2 : Fin 3) * 1 + 1 * 0 = 0; rw [e2]

/-- Column j of a database block at point t is column 1024 · (t % 4) + j of the database row. -/
theorem dxBlk_applyR1 (c : Dev nD) (t : Fin cfg1.N) (b : Fin 8) (j : Fin 1024) (j' : Fin 4096)
    (hj : j'.val = 1024 * (t.val % 4) + j.val) :
    dxBlkR1 V c t (ix3 b (0 : Fin 1) j) = dxR1 V c (ix3 b (0 : Fin 1) j') := by
  obtain ⟨-, -, ⟨e0, e1, e2⟩, -⟩ := idxR1 t
  unfold dxBlkR1 blkR1
  rw [View.read_apply]
  show V c (Pipeline.arrRef spec1 2) _ = V c (Pipeline.arrRef spec1 2) _
  congr 1
  funext a
  apply Fin.ext
  match a with
  | ⟨0, _⟩ => show win1_2.index t (0 : Fin 3) * 8 + 1 * b.val = b.val; rw [e0]; omega
  | ⟨1, _⟩ => show win1_2.index t (1 : Fin 3) * 1 + 1 * 0 = 0; rw [e1]
  | ⟨2, _⟩ => show win1_2.index t (2 : Fin 3) * 1024 + 1 * j.val = j'.val; rw [e2, hj]; omega

theorem dyBlk_applyR1 (c : Dev nD) (t : Fin cfg1.N) (b : Fin 8) (j : Fin 1024) (j' : Fin 4096)
    (hj : j'.val = 1024 * (t.val % 4) + j.val) :
    dyBlkR1 V c t (ix3 b (0 : Fin 1) j) = dyR1 V c (ix3 b (0 : Fin 1) j') := by
  obtain ⟨-, -, -, ⟨e0, e1, e2⟩, -⟩ := idxR1 t
  unfold dyBlkR1 blkR1
  rw [View.read_apply]
  show V c (Pipeline.arrRef spec1 3) _ = V c (Pipeline.arrRef spec1 3) _
  congr 1
  funext a
  apply Fin.ext
  match a with
  | ⟨0, _⟩ => show win1_3.index t (0 : Fin 3) * 8 + 1 * b.val = b.val; rw [e0]; omega
  | ⟨1, _⟩ => show win1_3.index t (1 : Fin 3) * 1 + 1 * 0 = 0; rw [e1]
  | ⟨2, _⟩ => show win1_3.index t (2 : Fin 3) * 1024 + 1 * j.val = j'.val; rw [e2, hj]; omega

/-- So the tile's squared distance at (row r, column j) is the clouds' at (row 256 · (t / 4) + r, column
    1024 · (t % 4) + j). -/
theorem tile_sqdR1 (c : Dev nD) (t : Fin cfg1.N) (b : Fin 8) (r : Fin 256) (i : Fin 4096)
    (hi : i.val = 256 * (t.val / 4) + r.val) (j : Fin 1024) (j' : Fin 4096) (hj : j'.val = 1024 * (t.val % 4) + j.val) :
    tileSqdR1 (qxBlkR1 V c t) (qyBlkR1 V c t) (dxBlkR1 V c t) (dyBlkR1 V c t) b r j
      = Cert.Spec.sqd4 (qxR1 V c) (qyR1 V c) (dxR1 V c) (dyR1 V c) b i j' := by
  unfold tileSqdR1 Cert.Spec.sqd4
  rw [qxBlk_applyR1 V c t b r i hi, qyBlk_applyR1 V c t b r i hi, dxBlk_applyR1 V c t b j j' hj, dyBlk_applyR1 V c t b j j' hj]

/-! ## The infimum over the first k + 1 column tiles -/

/-- The infimum of f over the columns below 1024 · (k + 1) is the smaller of its infimum over the columns below
    1024 · k and its infimum over the 1024 columns of tile k, the latter listed by their place in the tile. -/
theorem inf_tileR1 (f : Fin 4096 → EReal) (h : Fin 1024 → EReal) (k : ℕ) (hk : k < 4)
    (hh : ∀ (j : Fin 1024) (j' : Fin 4096), j'.val = 1024 * k + j.val → h j = f j') :
    (Finset.univ.filter fun j : Fin 4096 => j.val < 1024 * (k + 1)).inf f
      = min ((Finset.univ.filter fun j : Fin 4096 => j.val < 1024 * k).inf f) (Finset.univ.inf h) := by
  have hsplit : (Finset.univ.filter fun j : Fin 4096 => j.val < 1024 * (k + 1))
      = (Finset.univ.filter fun j : Fin 4096 => j.val < 1024 * k)
        ∪ (Finset.univ.filter fun j : Fin 4096 => 1024 * k ≤ j.val ∧ j.val < 1024 * (k + 1)) := by
    ext j
    simp only [Finset.mem_union, Finset.mem_filter, Finset.mem_univ, true_and]
    omega
  have htile : (Finset.univ.filter fun j : Fin 4096 => 1024 * k ≤ j.val ∧ j.val < 1024 * (k + 1)).inf f
      = Finset.univ.inf h := by
    apply le_antisymm
    · refine Finset.le_inf fun j _ => ?_
      rw [hh j ⟨1024 * k + j.val, by have := j.isLt; omega⟩ rfl]
      refine Finset.inf_le ?_
      simp only [Finset.mem_filter, Finset.mem_univ, true_and]
      have := j.isLt
      omega
    · refine Finset.le_inf fun j' hj' => ?_
      simp only [Finset.mem_filter, Finset.mem_univ, true_and] at hj'
      rw [← hh ⟨j'.val - 1024 * k, by omega⟩ j' (by show j'.val = 1024 * k + (j'.val - 1024 * k); omega)]
      exact Finset.inf_le (Finset.mem_univ _)
  rw [hsplit, Finset.inf_union, htile]

/-! ## The running minimum, point by point -/

/-- After point n the scratch holds, at row (b, r), the infimum of the squared distances from query point
    256 · (n / 4) + r to the database points of the column tiles 0 … n % 4: at column tile 0 the minimum of +∞ and
    the tile's infimum, at a later tile the minimum of what the point before left (the same row tile, one column tile
    less) and the tile's infimum. -/
theorem acc_eqR1 (c : Dev nD) : ∀ (n : ℕ) (hn : n < cfg1.N) (b : Fin 8) (r : Fin 256) (i : Fin 4096),
    i.val = 256 * (n / 4) + r.val →
    accAtR1 V c n hn (ix2 b r)
      = (Finset.univ.filter fun j : Fin 4096 => j.val < 1024 * (n % 4 + 1)).inf
          fun j => Cert.Spec.sqd4 (qxR1 V c) (qyR1 V c) (dxR1 V c) (dyR1 V c) b i j := by
  intro n
  induction n using Nat.strong_induction_on with
  | _ n ih =>
  intro hn b r i hi
  have htile : ∀ (j : Fin 1024) (j' : Fin 4096), j'.val = 1024 * (n % 4) + j.val →
      tileSqdR1 (qxBlkR1 V c ⟨n, hn⟩) (qyBlkR1 V c ⟨n, hn⟩) (dxBlkR1 V c ⟨n, hn⟩) (dyBlkR1 V c ⟨n, hn⟩) b r j
        = Cert.Spec.sqd4 (qxR1 V c) (qyR1 V c) (dxR1 V c) (dyR1 V c) b i j' :=
    fun j j' hj => tile_sqdR1 V c ⟨n, hn⟩ b r i hi j j' hj
  have hk : n % 4 < 4 := Nat.mod_lt _ (by omega)
  rw [inf_tileR1 (fun j => Cert.Spec.sqd4 (qxR1 V c) (qyR1 V c) (dxR1 V c) (dyR1 V c) b i j)
    (fun j => tileSqdR1 (qxBlkR1 V c ⟨n, hn⟩) (qyBlkR1 V c ⟨n, hn⟩) (dxBlkR1 V c ⟨n, hn⟩) (dyBlkR1 V c ⟨n, hn⟩) b r j) (n % 4) hk htile]
  by_cases h0 : n % 4 = 0
  · have h1 : ¬n % 4 = 3 := by omega
    have hprev : (Finset.univ.filter fun j : Fin 4096 => j.val < 1024 * (n % 4)).inf
        (fun j => Cert.Spec.sqd4 (qxR1 V c) (qyR1 V c) (dxR1 V c) (dyR1 V c) b i j) = ⊤ := by
      rw [Finset.filter_eq_empty_iff.mpr (fun j _ => by omega), Finset.inf_empty]
    refine (congrFun (accAtR1_A V c ⟨n, hn⟩ h0 h1) (ix2 b r)).trans ?_
    refine (congrFun (accA_eqR1 (F := Ideal) c (grid1.coords ⟨n, hn⟩) (mR1_0 ⟨n, hn⟩) (hR1_0 ⟨n, hn⟩) (mR1_1 ⟨n, hn⟩) (hR1_1 ⟨n, hn⟩) (mR1_2 ⟨n, hn⟩) (hR1_2 ⟨n, hn⟩) (mR1_3 ⟨n, hn⟩) (hR1_3 ⟨n, hn⟩) (mR1_4 ⟨n, hn⟩) (hR1_4 ⟨n, hn⟩) accMR1 (Memref.isWhole_whole _) ((first_iffR1 ⟨n, hn⟩).mpr h0) (fun h => h1 ((last_iffR1 ⟨n, hn⟩).mp h)) (qxBlkR1 V c ⟨n, hn⟩) (qyBlkR1 V c ⟨n, hn⟩) (dxBlkR1 V c ⟨n, hn⟩) (dyBlkR1 V c ⟨n, hn⟩)) (ix2 b r)).trans ?_
    refine (pay2_applyR1 (qxBlkR1 V c ⟨n, hn⟩) (qyBlkR1 V c ⟨n, hn⟩) (dxBlkR1 V c ⟨n, hn⟩) (dyBlkR1 V c ⟨n, hn⟩) (k1_pay1 (F := Ideal)) b r).trans ?_
    rw [pay1_applyR1 b r, hprev]
  · have hpos : n ≠ 0 := fun h => h0 (by rw [h])
    have hm : n - 1 < cfg1.N := Nat.lt_of_le_of_lt (Nat.sub_le _ _) hn
    have ihp := ih (n - 1) (by omega) hm b r i (by omega)
    rw [show (n - 1) % 4 + 1 = n % 4 from by omega] at ihp
    by_cases h1 : n % 4 = 3
    · refine (congrFun (accAtR1_C V c ⟨n, hn⟩ h0 h1) (ix2 b r)).trans ?_
      refine (congrFun (accC_eqR1 (F := Ideal) c (grid1.coords ⟨n, hn⟩) (mR1_0 ⟨n, hn⟩) (hR1_0 ⟨n, hn⟩) (mR1_1 ⟨n, hn⟩) (hR1_1 ⟨n, hn⟩) (mR1_2 ⟨n, hn⟩) (hR1_2 ⟨n, hn⟩) (mR1_3 ⟨n, hn⟩) (hR1_3 ⟨n, hn⟩) (mR1_4 ⟨n, hn⟩) (hR1_4 ⟨n, hn⟩) accMR1 (Memref.isWhole_whole _) (fun h => h0 ((first_iffR1 ⟨n, hn⟩).mp h)) ((last_iffR1 ⟨n, hn⟩).mpr h1) (qxBlkR1 V c ⟨n, hn⟩) (qyBlkR1 V c ⟨n, hn⟩) (dxBlkR1 V c ⟨n, hn⟩) (dyBlkR1 V c ⟨n, hn⟩) (accAtR1 V c (n - 1) hm)) (ix2 b r)).trans ?_
      refine (pay2_applyR1 (qxBlkR1 V c ⟨n, hn⟩) (qyBlkR1 V c ⟨n, hn⟩) (dxBlkR1 V c ⟨n, hn⟩) (dyBlkR1 V c ⟨n, hn⟩) (accAtR1 V c (n - 1) hm) b r).trans ?_
      rw [ihp]
    · refine (congrFun (accAtR1_B V c ⟨n, hn⟩ h0 h1) (ix2 b r)).trans ?_
      refine (congrFun (accB_eqR1 (F := Ideal) c (grid1.coords ⟨n, hn⟩) (mR1_0 ⟨n, hn⟩) (hR1_0 ⟨n, hn⟩) (mR1_1 ⟨n, hn⟩) (hR1_1 ⟨n, hn⟩) (mR1_2 ⟨n, hn⟩) (hR1_2 ⟨n, hn⟩) (mR1_3 ⟨n, hn⟩) (hR1_3 ⟨n, hn⟩) (mR1_4 ⟨n, hn⟩) (hR1_4 ⟨n, hn⟩) accMR1 (Memref.isWhole_whole _) (fun h => h0 ((first_iffR1 ⟨n, hn⟩).mp h)) (fun h => h1 ((last_iffR1 ⟨n, hn⟩).mp h)) (qxBlkR1 V c ⟨n, hn⟩) (qyBlkR1 V c ⟨n, hn⟩) (dxBlkR1 V c ⟨n, hn⟩) (dyBlkR1 V c ⟨n, hn⟩) (accAtR1 V c (n - 1) hm)) (ix2 b r)).trans ?_
      refine (pay2_applyR1 (qxBlkR1 V c ⟨n, hn⟩) (qyBlkR1 V c ⟨n, hn⟩) (dxBlkR1 V c ⟨n, hn⟩) (dyBlkR1 V c ⟨n, hn⟩) (accAtR1 V c (n - 1) hm) b r).trans ?_
      rw [ihp]

/-! ## What the write-back at column tile 3 writes -/

/-- The nearest-point function of the four arrays: what the result array ends at. -/
abbrev nearR1 (c : Dev nD) : Cert.Spec.PerPt.Idx → EReal :=
  Cert.Spec.near4 (qxR1 V c) (qyR1 V c) (dxR1 V c) (dyR1 V c)

/-- At a point of column tile 3 the result buffer holds, at row (b, r), the square root of the running minimum, which
    by then ranges over all 4096 database points: the distance from query point 256 · (t / 4) + r to its nearest. -/
theorem out_eqR1 (c : Dev nD) (t : Fin cfg1.N) (h0 : ¬t.val % 4 = 0) (h1 : t.val % 4 = 3) (b : Fin 8) (r : Fin 256)
    (i : Fin 4096) (hi : i.val = 256 * (t.val / 4) + r.val) :
    outAtR1 V c t (ix2 b r) = nearR1 V c (ix2 b i) := by
  have hm : t.val - 1 < cfg1.N := Nat.lt_of_le_of_lt (Nat.sub_le _ _) t.isLt
  refine (congrFun (outAtR1_C V c t h0 h1) (ix2 b r)).trans ?_
  refine (congrFun (outC_eqR1 (F := Ideal) c (grid1.coords t) (mR1_0 t) (hR1_0 t) (mR1_1 t) (hR1_1 t) (mR1_2 t) (hR1_2 t) (mR1_3 t) (hR1_3 t) (mR1_4 t) (hR1_4 t) accMR1 (Memref.isWhole_whole _) (fun h => h0 ((first_iffR1 t).mp h)) ((last_iffR1 t).mpr h1) (qxBlkR1 V c t) (qyBlkR1 V c t) (dxBlkR1 V c t) (dyBlkR1 V c t) (accAtR1 V c (t.val - 1) hm)) (ix2 b r)).trans ?_
  refine (pay3_applyR1 (k1_pay2 (qxBlkR1 V c t) (qyBlkR1 V c t) (dxBlkR1 V c t) (dyBlkR1 V c t) (accAtR1 V c (t.val - 1) hm)) (ix2 b r)).trans ?_
  show _ = Ideal.sqrt (Finset.univ.inf fun j : Fin 4096 => Cert.Spec.sqd4 (qxR1 V c) (qyR1 V c) (dxR1 V c) (dyR1 V c) b i j)
  refine congrArg Ideal.sqrt ?_
  -- the payload under the root is this point's running minimum
  have hacc : accAtR1 V c t.val t.isLt (ix2 b r) = k1_pay2 (qxBlkR1 V c t) (qyBlkR1 V c t) (dxBlkR1 V c t) (dyBlkR1 V c t) (accAtR1 V c (t.val - 1) hm) (ix2 b r) :=
    (congrFun (accAtR1_C V c t h0 h1) (ix2 b r)).trans
      (congrFun (accC_eqR1 (F := Ideal) c (grid1.coords t) (mR1_0 t) (hR1_0 t) (mR1_1 t) (hR1_1 t) (mR1_2 t) (hR1_2 t) (mR1_3 t) (hR1_3 t) (mR1_4 t) (hR1_4 t) accMR1 (Memref.isWhole_whole _) (fun h => h0 ((first_iffR1 t).mp h)) ((last_iffR1 t).mpr h1) (qxBlkR1 V c t) (qyBlkR1 V c t) (dxBlkR1 V c t) (dyBlkR1 V c t) (accAtR1 V c (t.val - 1) hm)) (ix2 b r))
  refine hacc.symm.trans ?_
  refine (acc_eqR1 V c t.val t.isLt b r i hi).trans ?_
  -- every column is below 1024 · 4
  have hall : (Finset.univ.filter fun j : Fin 4096 => j.val < 1024 * (t.val % 4 + 1)) = Finset.univ :=
    Finset.filter_true_of_mem fun j _ => by have := j.isLt; omega
  rw [hall]

/-- So what the point writes back is the block of the nearest-point function at the window's rectangle: rows
    256 · (t / 4) … 256 · (t / 4) + 255 of every batch. -/
theorem flushed_eqR1 (c : Dev nD) (t : Fin cfg1.N) (hf : (cfg1.win 4).flush t = true) :
    (datR1 (F := Ideal) V c).flushed 4 t = ((cfg1.win 4).blk t).view.read (Elt Ideal) (nearR1 V c) := by
  have h1 : t.val % 4 = 3 := (flush0_4 t).mp hf
  have h0 : ¬t.val % 4 = 0 := by omega
  obtain ⟨-, -, -, -, e0, e1⟩ := idxR1 t
  show (cfg1.win 4).cut (grid1.coords t) ((datR1 V c).after 4 t) = _
  rw [afterR1_4]
  funext j
  have hb : (j 0).val < 8 := (j 0).isLt
  have hr : (j 1).val < 256 := (j 1).isLt
  have hx : (cfg1.win 4).xinj (grid1.coords t) j = (ix2 (⟨(j 0).val, hb⟩ : Fin 8) (⟨(j 1).val, hr⟩ : Fin 256) : S8x256.Idx) := by
    funext a
    match a with
    | ⟨0, _⟩ => rfl
    | ⟨1, _⟩ => rfl
  refine (congrArg (outAtR1 V c t) hx).trans ?_
  refine (out_eqR1 V c t h0 h1 ⟨(j 0).val, hb⟩ ⟨(j 1).val, hr⟩ ⟨256 * (t.val / 4) + (j 1).val, by have := pt_ltR1 t; omega⟩ rfl).trans ?_
  rw [View.read_apply]
  show nearR1 V c _ = nearR1 V c _
  congr 1
  funext a
  apply Fin.ext
  match a with
  | ⟨0, _⟩ => show (j 0).val = win1_4.index t (0 : Fin 2) * 8 + 1 * (j 0).val; rw [e0]; omega
  | ⟨1, _⟩ => show 256 * (t.val / 4) + (j 1).val = win1_4.index t (1 : Fin 2) * 256 + 1 * (j 1).val; rw [e1]; omega

/-! ## The result array after the 64 points -/

/-- Row n of the result array lies in the block written back at point 4 · (n / 256) + 3, so the written blocks cover the
    array and it ends at the nearest-point function of the four input arrays. -/
theorem finalR1 (c : Dev nD) :
    (datR1 (F := Ideal) V c).arrAt 4 cfg1.N
      = Cert.Spec.near4 (V c (Pipeline.arrRef spec1 0)) (V c (Pipeline.arrRef spec1 1)) (V c (Pipeline.arrRef spec1 2)) (V c (Pipeline.arrRef spec1 3)) :=
  (datR1 (F := Ideal) V c).arrAt_eq_of_cover 4 (nearR1 V c) (flushed_eqR1 V c) fun i => by
    have hi0 : (i 0).val < 8 := (i 0).isLt
    have hi1 : (i 1).val < 4096 := (i 1).isLt
    obtain ⟨t, ht⟩ : ∃ t : Fin cfg1.N, t.val = 4 * ((i 1).val / 256) + 3 :=
      ⟨⟨4 * ((i 1).val / 256) + 3, by rw [show cfg1.N = 64 from N_1]; omega⟩, rfl⟩
    obtain ⟨-, -, -, -, e0, e1⟩ := idxR1 t
    refine ⟨t, (flush0_4 t).mpr (by omega), ?_⟩
    show i ∈ ((View.whole (Pipeline.arrRef spec1 4)).slice (win1_4.rect t)).set
    rw [View.set_slice_whole, Rect.mem_set_unit]
    intro a
    match a with
    | ⟨0, _⟩ => show win1_4.index t (0 : Fin 2) * 8 ≤ (i 0).val ∧ (i 0).val < win1_4.index t (0 : Fin 2) * 8 + 8; rw [e0]; omega
    | ⟨1, _⟩ => show win1_4.index t (1 : Fin 2) * 256 ≤ (i 1).val ∧ (i 1).val < win1_4.index t (1 : Fin 2) * 256 + 256; rw [e1]; omega

end Cert.KernelIdeal.Fr

end
-- ==== Proof.RefValue.lean ====
/-
  The reference program's two nearest-point tables, read as the mathematics they compute.

  The reference forms, for batch b, point n of the first cloud x and point m of the second cloud t, the number
  |x[b,n]|² + |t[b,m]|² − 2·(x[b,n]·t[b,m]), floored at 0. On REAL inputs this is the squared planar distance
  (x₀ − t₀)² + (x₁ − t₁)² floored at 0: the expansion of a square, which needs the entries finite (at ±∞ the
  distributive law fails in the extended reals). It then takes the minimum of that table along one axis, from +∞, and the
  square root: along the axis of n this is, for every point of t, the distance to the nearest point of x; along the axis
  of m, for every point of x, the distance to the nearest point of t. A running minimum from +∞ over a finite family is
  the family's infimum.
-/
import proofs.«100872_j40888088658143_1_alg».proof.Proof.Gen.ReferenceIdeal.Read
import proofs.«100872_j40888088658143_1_alg».proof.Proof.Spec
import Idealize.ShloMosaic.Lib.ValueIdx
import Idealize.ShloMosaic.PureOps.Ideal.Laws
import Idealize.ShloMosaic.PureOps.Reduce
import Mathlib.Algebra.BigOperators.Fin
import Mathlib.Data.EReal.Operations

noncomputable section

namespace Cert.ReferenceIdeal.RefValue

open Idealize.ShloMosaic Idealize.ShloMosaic.ValueIdx Cert.ReferenceIdeal Cert.ReferenceIdeal.Read

variable [Cert.ReferenceIdeal.Facts]

/-! ## The two constants that are not zero -/

/-- The word 0x40000000 denotes the real number 2. -/
theorem two_word : Ideal.ofBits .f32 0x40000000#32 = ((2 : ℝ) : EReal) := by
  simp [Ideal.ofBits, Ideal.ieee, -EReal.coe_mul]; norm_num

/-- The word 0x7F800000 denotes +∞, the top of the extended reals. -/
theorem top_word : Ideal.ofBits .f32 0x7F800000#32 = (⊤ : EReal) := by
  simp [Ideal.ofBits, Ideal.ieee]

/-! ## Where entry (b, n, m) of the table reads the two clouds -/

/-- The squared norm of point n of the first cloud is summed, for entry (b, n, m), over the entries (b, n, k). -/
theorem idx_sq_left (b : Fin 8) (n m : Fin 4096) (k : Fin 2) :
    idx_main_v1 (idx_main_v5 (idx_main_v7 (ix3 b n m))) k = ix3 b n k :=
  funext fun a => Fin.ext (by match a with | ⟨0, _⟩ => rfl | ⟨1, _⟩ => rfl | ⟨2, _⟩ => rfl)

/-- The squared norm of point m of the second cloud is summed, for entry (b, n, m), over the entries (b, m, k). -/
theorem idx_sq_right (b : Fin 8) (n m : Fin 4096) (k : Fin 2) :
    idx_main_v3 (idx_main_v6 (idx_main_v8 (ix3 b n m))) k = ix3 b m k :=
  funext fun a => Fin.ext (by match a with | ⟨0, _⟩ => rfl | ⟨1, _⟩ => rfl | ⟨2, _⟩ => rfl)

/-- The inner product's left factor for entry (b, n, m) at coordinate k is the first cloud at (b, n, k). -/
theorem idx_dot_left (b : Fin 8) (n m : Fin 4096) (k : Fin 2) :
    lidx_main_v4 (ix3 b n m) k = ix3 b n k :=
  funext fun a => Fin.ext (by match a with | ⟨0, _⟩ => rfl | ⟨1, _⟩ => rfl | ⟨2, _⟩ => rfl)

/-- The inner product's right factor for entry (b, n, m) at coordinate k is the second cloud at (b, m, k). -/
theorem idx_dot_right (b : Fin 8) (n m : Fin 4096) (k : Fin 2) :
    ridx_main_v4 (ix3 b n m) k = ix3 b m k :=
  funext fun a => Fin.ext (by match a with | ⟨0, _⟩ => rfl | ⟨1, _⟩ => rfl | ⟨2, _⟩ => rfl)

/-! ## The table of squared distances -/

/-- Entry (b, n, m) of the floored table is the squared distance between point n of x and point m of t:
    with a = x[b,n] and c = t[b,m] real, (a₀² + a₁²) + (c₀² + c₁²) − 2(a₀c₀ + a₁c₁) = (a₀ − c₀)² + (a₁ − c₁)². -/
theorem v14_apply (x t : (⟨S8x4096x2, .f32⟩ : BufTy).Contents (Elt Ideal))
    (hx : ∀ i, ∃ r : ℝ, x i = (r : EReal)) (ht : ∀ i, ∃ r : ℝ, t i = (r : EReal))
    (b : Fin 8) (n m : Fin 4096) :
    val_main_v14 (F := Ideal) x t (ix3 b n m) = Cert.Spec.sqd x t b n m := by
  rw [val_main_v14_apply, val_main_v12_apply, val_main_v9_apply, val_main_v11_apply, val_main_v7_apply,
    val_main_v5_apply, val_main_v1_apply, val_main_v8_apply, val_main_v6_apply, val_main_v3_apply,
    val_main_v10_apply, val_main_v4_apply, val_main_v13_apply, val_main_cst_apply, val_main_cst_0_apply,
    val_main_cst_1_apply, val_main_cst_2_apply]
  simp only [val_main_v0_apply, val_main_v2_apply, Fin.sum_univ_two, idx_sq_left, idx_sq_right, idx_dot_left,
    idx_dot_right, Ideal.ofBits_def, Ideal.addf_def, Ideal.subf_def, Ideal.mulf_def, Ideal.maximumf_def,
    Ideal.ofBits_zero_f32, two_word]
  obtain ⟨a0, h0⟩ := hx (ix3 b n (0 : Fin 2)); obtain ⟨a1, h1⟩ := hx (ix3 b n (1 : Fin 2))
  obtain ⟨c0, g0⟩ := ht (ix3 b m (0 : Fin 2)); obtain ⟨c1, g1⟩ := ht (ix3 b m (1 : Fin 2))
  unfold Cert.Spec.sqd
  rw [h0, h1, g0, g1]
  -- both sides are now the floor at 0 of a real number: compare the two reals
  simp only [zero_add, ← EReal.coe_mul, ← EReal.coe_add, ← EReal.coe_sub]
  congr 2
  ring

/-! ## The minimum along an axis -/

/-- A running minimum started at +∞ over a finite family is the family's infimum. -/
theorem fold_min_top_eq_inf {k : Nat} (f : Fin k → EReal) :
    (Finset.univ : Finset (Fin k)).fold min ⊤ f = Finset.univ.inf f := rfl

/-- The pair (b, m) with n put back on the middle axis is the triple (b, n, m). -/
theorem lift_axis1 (h : S8x4096x4096.Reduces [1] S8x4096) (b : Fin 8) (m : Fin 4096) (k : Fin (S8x4096x4096.size 1)) :
    h.lift (ix2 b m) k = ix3 b (⟨k.val, k.isLt⟩ : Fin 4096) m := by
  funext c; apply Fin.ext
  fin_cases c <;> rfl

/-- The pair (b, n) with m put back on the last axis is the triple (b, n, m). -/
theorem lift_axis2 (h : S8x4096x4096.Reduces [2] S8x4096) (b : Fin 8) (n : Fin 4096) (k : Fin (S8x4096x4096.size 2)) :
    h.lift (ix2 b n) k = ix3 b n (⟨k.val, k.isLt⟩ : Fin 4096) := by
  funext c; apply Fin.ext
  fin_cases c <;> rfl

/-- The minimum of the table over the points n of x, at (b, m): the infimum over n of the squared distances
    from point m of t. -/
theorem v15_apply (x t : (⟨S8x4096x2, .f32⟩ : BufTy).Contents (Elt Ideal))
    (hx : ∀ i, ∃ r : ℝ, x i = (r : EReal)) (ht : ∀ i, ∃ r : ℝ, t i = (r : EReal))
    (b : Fin 8) (m : Fin 4096) :
    val_main_v15 (F := Ideal) x t (ix2 b m) = Finset.univ.inf fun n : Fin 4096 => Cert.Spec.sqd x t b n m := by
  have hy : ∀ (b : Fin 8) (n m : Fin 4096), val_main_v14 (F := Ideal) x t (ix3 b n m) = Cert.Spec.sqd x t b n m :=
    v14_apply x t hx ht
  unfold val_main_v15
  generalize val_main_v14 (F := Ideal) x t = y at hy ⊢
  have h : S8x4096x4096.Reduces [1] S8x4096 := by decide
  have e := Host.reduce_eq_fold_single (s := S8x4096x4096) (t := S8x4096) (a := (1 : Fin 3)) (u := S_)
    (FloatOps.minimumf (F := Ideal) (φ := .f32)) y (val_main_cst_3 (F := Ideal))
    Gen.reducesTo_S8x4096x4096_S8x4096_d1 h Gen.h_S_ (ix2 b m)
  rw [val_main_cst_3_apply] at e
  refine e.trans ?_
  have hf : (y ∘ h.lift (ix2 b m)) = fun n : Fin 4096 => Cert.Spec.sqd x t b n m := funext fun k => by
    show y (h.lift (ix2 b m) k) = _
    rw [lift_axis1 h b m k]; exact hy b _ m
  rw [hf, Ideal.ofBits_def, top_word]
  exact fold_min_top_eq_inf _

/-- The minimum of the table over the points m of t, at (b, n): the infimum over m of the squared distances
    from point n of x. -/
theorem v17_apply (x t : (⟨S8x4096x2, .f32⟩ : BufTy).Contents (Elt Ideal))
    (hx : ∀ i, ∃ r : ℝ, x i = (r : EReal)) (ht : ∀ i, ∃ r : ℝ, t i = (r : EReal))
    (b : Fin 8) (n : Fin 4096) :
    val_main_v17 (F := Ideal) x t (ix2 b n) = Finset.univ.inf fun m : Fin 4096 => Cert.Spec.sqd x t b n m := by
  have hy : ∀ (b : Fin 8) (n m : Fin 4096), val_main_v14 (F := Ideal) x t (ix3 b n m) = Cert.Spec.sqd x t b n m :=
    v14_apply x t hx ht
  unfold val_main_v17
  generalize val_main_v14 (F := Ideal) x t = y at hy ⊢
  have h : S8x4096x4096.Reduces [2] S8x4096 := by decide
  have e := Host.reduce_eq_fold_single (s := S8x4096x4096) (t := S8x4096) (a := (2 : Fin 3)) (u := S_)
    (FloatOps.minimumf (F := Ideal) (φ := .f32)) y (val_main_cst_4 (F := Ideal))
    Gen.reducesTo_S8x4096x4096_S8x4096_d2 h Gen.h_S_ (ix2 b n)
  rw [val_main_cst_4_apply] at e
  refine e.trans ?_
  have hf : (y ∘ h.lift (ix2 b n)) = fun m : Fin 4096 => Cert.Spec.sqd x t b n m := funext fun k => by
    show y (h.lift (ix2 b n) k) = _
    rw [lift_axis2 h b n k]; exact hy b n _
  rw [hf, Ideal.ofBits_def, top_word]
  exact fold_min_top_eq_inf _

/-! ## The two nearest-point tables -/

/-- The first table: for every point of t, its distance to the nearest point of x. The table's entry is the
    squared distance from x's point to t's; the distance is symmetric in the two points. -/
theorem v16_eq (x t : (⟨S8x4096x2, .f32⟩ : BufTy).Contents (Elt Ideal))
    (hx : ∀ i, ∃ r : ℝ, x i = (r : EReal)) (ht : ∀ i, ∃ r : ℝ, t i = (r : EReal)) :
    val_main_v16 (F := Ideal) x t = Cert.Spec.near t x := by
  funext i
  obtain ⟨b, m, rfl⟩ : ∃ (b : Fin 8) (m : Fin 4096), i = ix2 b m := ⟨i 0, i 1, eq_ix2 i⟩
  rw [val_main_v16_apply, v15_apply x t hx ht b m, Cert.Spec.near_apply, Ideal.hostUnary_sqrt_def]
  exact congrArg (fun f : Fin 4096 → EReal => Ideal.sqrt (Finset.univ.inf f))
    (funext fun n => Cert.Spec.sqd_comm x t hx ht b n m)

/-- The second table: for every point of x, its distance to the nearest point of t. -/
theorem v18_eq (x t : (⟨S8x4096x2, .f32⟩ : BufTy).Contents (Elt Ideal))
    (hx : ∀ i, ∃ r : ℝ, x i = (r : EReal)) (ht : ∀ i, ∃ r : ℝ, t i = (r : EReal)) :
    val_main_v18 (F := Ideal) x t = Cert.Spec.near x t := by
  funext i
  obtain ⟨b, n, rfl⟩ : ∃ (b : Fin 8) (n : Fin 4096), i = ix2 b n := ⟨i 0, i 1, eq_ix2 i⟩
  rw [val_main_v18_apply, v17_apply x t hx ht b n, Cert.Spec.near_apply, Ideal.hostUnary_sqrt_def]

end Cert.ReferenceIdeal.RefValue

end
-- ==== Proof.Finite.lean ====
/-
  From the printed precondition to "every entry is a real number".

  The precondition computes, for each of the two clouds, the conjunction over all entries a of the comparison
  |a| < +∞, and the conjunction of the two. If it comes out true, every comparison came out true. In the extended
  reals |a| = max a (−a), and max a (−a) < +∞ rules out both a = +∞ (then a itself is +∞) and a = −∞ (then −a is +∞):
  what is left is a real number.
-/
import proofs.«100872_j40888088658143_1_alg».proof.Pre_finite_inputs
import proofs.«100872_j40888088658143_1_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Idealize.ShloMosaic.ValueIdx

/-- An extended real whose absolute value is below +∞ is a real number: of the three kinds of extended real,
    −∞ has −a = +∞ and +∞ has a = +∞. -/
theorem real_of_abs_lt_top (a : EReal) (h : max a (-a) < ⊤) : ∃ r : ℝ, a = (r : EReal) := by
  induction a using EReal.rec with
  | bot => simp at h
  | coe r => exact ⟨r, rfl⟩
  | top => simp at h

/-- The word 0x7F800000 denotes +∞. -/
theorem top_word : Ideal.ofBits .f32 0x7F800000#32 = (⊤ : EReal) := by
  simp [Ideal.ofBits, Ideal.ieee]

/-- One entry: the comparison |a| < +∞ that came out true says a is a real number. -/
theorem real_of_cmp (a : Ideal .f32)
    (h : FloatOps.cmpf (F := Ideal) (φ := .f32) .olt (FloatOps.hostAbsf a) (FloatOps.ofBits .f32 0x7F800000#32) = 1#1) :
    ∃ r : ℝ, a = (r : EReal) := by
  rw [Ideal.cmpf_def, Ideal.hostAbsf_def, Ideal.absf_def, Ideal.ofBits_def, top_word] at h
  -- the comparison's bit is the truth value of max a (−a) < +∞
  have h' : BitVec.ofBool (decide (max a (-a) < (⊤ : EReal))) = 1#1 := h
  refine real_of_abs_lt_top a ?_
  by_contra hn
  rw [decide_eq_false hn] at h'
  exact absurd h' (by decide)

/-- The scalar shape has one index. -/
instance : Subsingleton Cert.Pre_finite_inputs.S_.Idx := ⟨fun a b => funext fun d => d.elim0⟩

/-- Under the precondition every entry of both clouds is a real number. -/
theorem real_of_pre [Cert.Pre_finite_inputs.Facts] (x t : (⟨Cert.Spec.Pts, .f32⟩ : BufTy).Contents (Elt Ideal))
    (h : Cert.Pre_finite_inputs.fn (F := Ideal) x t = fun _ => 1#1) :
    (∀ i, ∃ r : ℝ, x i = (r : EReal)) ∧ (∀ i, ∃ r : ℝ, t i = (r : EReal)) := by
  have h0 := congrFun h ValueIdx.ix0
  dsimp only [Cert.Pre_finite_inputs.fn] at h0
  -- a conjunction that is true has both halves true; each half is a conjunction over all entries
  obtain ⟨hxr, htr⟩ := IntOp.andi_eq_one.1 h0
  refine ⟨fun i => ?_, fun i => ?_⟩
  · have e := Host.reduce_andi_all _ _ _ _ _ hxr i
    rw [cmpf_apply, broadcastInDim_apply _ _ _ i ix0 (fun a => a.elim0)] at e
    exact real_of_cmp (x i) e
  · have e := Host.reduce_andi_all _ _ _ _ _ htr i
    rw [cmpf_apply, broadcastInDim_apply _ _ _ i ix0 (fun a => a.elim0)] at e
    exact real_of_cmp (t i) e

end Cert.Finite

end
-- ==== Proof.lean ====
/-
  Two clouds x and t of planar points, 8 batches of 4096 points each. Both programs return one number: the mean over t's
  points of the distance to the nearest point of x in the same batch, plus the mean over x's points of the distance to the
  nearest point of t.

  The kernel program cuts each cloud into its coordinate columns and rows on the host and calls one nearest-point kernel
  twice. The kernel walks a 16 × 4 grid: for a tile of 256 query points it keeps, in a scratch buffer, the running minimum
  over four tiles of 1024 database points of (a₀ − b₀)² + (a₁ − b₁)² floored at 0 — reset to +∞ at the first tile — and
  stores its square root at the last. The reference forms all 4096 × 4096 squared distances per batch as
  |a|² + |b|² − 2 a·b floored at 0 and takes the minimum along each axis, then the square roots and the two means.

  Frames: every weakly fair execution of each program ends, faults nowhere and leaves both clouds as launched — for the
  kernel program from a run of @main's five items in which every unscoped buffer is named at each boundary, for the
  reference from its run as a list of host operations.
  The ideal pass rewrote nothing, so that conjunct is trivial.
  Equality at the extended reals, on finite clouds: each call's result array is the nearest-point function of the
  arrays it is handed (the running minimum over column tiles is the infimum over all columns; the infimum of nothing is
  +∞); those arrays are coordinates of the clouds; on reals (a₀ − b₀)² + (a₁ − b₁)² = |a|² + |b|² − 2 a·b, which is
  where finiteness is used (distributivity fails at ±∞); and both programs finish with the same host operations.
-/
import proofs.«100872_j40888088658143_1_alg».proof.Defs
import proofs.«100872_j40888088658143_1_alg».proof.Proof.Gen.Kernel
import proofs.«100872_j40888088658143_1_alg».proof.Proof.Gen.KernelIdeal
import proofs.«100872_j40888088658143_1_alg».proof.Proof.Gen.ReferenceIdeal
import proofs.«100872_j40888088658143_1_alg».proof.Proof.Gen.Pre_finite_inputs
import proofs.«100872_j40888088658143_1_alg».proof.Proof.Gen.ReferenceIdeal.Run
import proofs.«100872_j40888088658143_1_alg».proof.Proof.Gen.ReferenceIdeal.Read
import proofs.«100872_j40888088658143_1_alg».proof.Proof.Kernel.MainRun
import proofs.«100872_j40888088658143_1_alg».proof.Proof.KernelIdeal.EndValue
import proofs.«100872_j40888088658143_1_alg».proof.Proof.KernelIdeal.Value0
import proofs.«100872_j40888088658143_1_alg».proof.Proof.KernelIdeal.Value1
import proofs.«100872_j40888088658143_1_alg».proof.Proof.RefValue
import proofs.«100872_j40888088658143_1_alg».proof.Proof.Finite
import Idealize.ShloMosaic.Adequacy
import Idealize.ShloMosaic.Init

noncomputable section

open Idealize.ShloMosaic Idealize.ShloMosaic.TcCoe Idealize.SL.Sem

namespace Cert.Proof

/-- The printed kernel runs to its end and leaves both clouds as launched. -/
theorem frame_k : Cert.frame_Kernel := fun m ρ _ => Cert.Kernel.Fr.frame_args (F := Bits) m ρ

/-- So does its idealization. -/
theorem frame_ki : Cert.frame_KernelIdeal := fun m ρ _ => Cert.KernelIdeal.Fr.frame_args (F := Ideal) m ρ

/-- The reference is host operations only: its run, with the result dropped. -/
theorem frame_r : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On finite clouds both programs return the mean over t's points of the distance to the nearest point of x plus the mean
    over x's points of the distance to the nearest point of t: the kernel by a running minimum of (a₀ − b₀)² + (a₁ − b₁)²
    over column tiles, the reference by the minimum of |a|² + |b|² − 2 a·b over a whole axis; on reals the two squared
    distances are one number, and the two means are taken by the same host operations. -/
theorem algebraic : Cert.algebraic_KernelIdeal_ReferenceIdeal := by
  intro m ρ m' ρ' hpre hagree
  refine ⟨fun c => Cert.KernelIdeal.Fr.bufs5 m ρ c (Proc.devRef .tc Cert.KernelIdeal.main_v22), ?_, ?_⟩
  · exact (θ_run Cert.KernelIdeal.defs _ _).mono (fun _ h c =>
      ⟨h c _ (Cert.KernelIdeal.Fr.mem_ucRefs Cert.KernelIdeal.main_v22 (by decide)),
        (h c _ (Cert.KernelIdeal.Fr.mem_ucRefs Cert.KernelIdeal.main_arg0 (by decide))).trans (Cert.KernelIdeal.Fr.bufs5_main_arg0 m ρ c),
        (h c _ (Cert.KernelIdeal.Fr.mem_ucRefs Cert.KernelIdeal.main_arg1 (by decide))).trans (Cert.KernelIdeal.Fr.bufs5_main_arg1 m ρ c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨hx, ht⟩ := Cert.Finite.real_of_pre _ _ (hpre c)
    show _ = Cert.KernelIdeal.Fr.bufs5 m ρ c (Proc.devRef .tc Cert.KernelIdeal.main_v22)
    rw [(hagree c).1, (hagree c).2, Cert.ReferenceIdeal.Read.val_main_v23_eq,
      Cert.KernelIdeal.Fr.kernel_value_of m ρ c (Cert.KernelIdeal.Fr.finalR0 _ c) (Cert.KernelIdeal.Fr.finalR1 _ c)]
    unfold Cert.ReferenceIdeal.Read.val_main_v23 Cert.ReferenceIdeal.Read.val_main_v20 Cert.ReferenceIdeal.Read.val_main_v19
      Cert.ReferenceIdeal.Read.val_main_v22 Cert.ReferenceIdeal.Read.val_main_v21
    rw [Cert.ReferenceIdeal.RefValue.v16_eq _ _ hx ht, Cert.ReferenceIdeal.RefValue.v18_eq _ _ hx ht]
    rfl

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
